-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) (main_arg1 : FVec F S8192x3 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  main_v8
-- ==== Kernel.lean ====
abbrev S8192x3 : Shape := ⟨2, ![8192, 3]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S1024x3 : Shape := ⟨2, ![1024, 3]⟩
abbrev S1024x1 : Shape := ⟨2, ![1024, 1]⟩
abbrev S1x1024 : Shape := ⟨2, ![1, 1024]⟩
abbrev S3x1024 : Shape := ⟨2, ![3, 1024]⟩
abbrev S1024x1024 : Shape := ⟨2, ![1024, 1024]⟩
abbrev S1024 : Shape := ⟨1, ![1024]⟩
abbrev S1x1024x1 : Shape := ⟨3, ![1, 1024, 1]⟩
abbrev S1 : Shape := ⟨1, ![1]⟩
abbrev S1x1x1 : Shape := ⟨3, ![1, 1, 1]⟩
abbrev S1x1x1024 : Shape := ⟨3, ![1, 1, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192x3, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x3, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S1x1, .f32⟩
  | .hbm, ⟨12, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S1024x3, .f32⟩
  | .local _ .vmem, ⟨3, _⟩ => ⟨S1024x3, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1, .f32⟩
  | .local _ .vmem, ⟨9, _⟩ => ⟨S1024x1, .f32⟩
  | .local _ .vmem, ⟨10, _⟩ => ⟨S1x8192, .f32⟩
  | .local _ .vmem, ⟨11, _⟩ => ⟨S1x1, .f32⟩
  | .local _ .vmem, ⟨12, _⟩ => ⟨S1x1, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v34 : BitVec 32 := Scalar.muli arg1 c1024_i32
  v34
def k0_cond3 (i : grid0.Coords) : BitVec 1 :=
  let arg0 : BitVec 32 := BitVec.ofNat 32 (i 0).val
  let c0_i32_19 : BitVec 32 := 0#32
  let v36 : BitVec 1 := Scalar.cmpi .eq arg0 c0_i32_19
  let v37 : BitVec 32 := Scalar.extui v36
  let c0_i32_20 : BitVec 32 := 0#32
  let v38 : BitVec 1 := Scalar.cmpi .ne v37 c0_i32_20
  v38

def k0_off1 (i : grid0.Coords) : Fin 2 → Nat :=
  let c0_29 : Index := 0#32
  let arg1 : BitVec 32 := BitVec.ofNat 32 (i 1).val
  let c1024_i32 : BitVec 32 := 1024#32
  let v34 : BitVec 32 := Scalar.muli arg1 c1024_i32
  let v35 : BitVec 32 := v34
  let v53 : Index := Scalar.indexCast v35
  ![0, v53.toNat]
def k0_cond4 (i : grid0.Coords) : BitVec 1 :=
  let arg0 : BitVec 32 := BitVec.ofNat 32 (i 0).val
  let c0_i32_21 : BitVec 32 := 0#32
  let v39 : BitVec 1 := Scalar.cmpi .sgt arg0 c0_i32_21
  let v40 : BitVec 32 := Scalar.extui v39
  let c0_i32_22 : BitVec 32 := 0#32
  let v41 : BitVec 1 := Scalar.cmpi .ne v40 c0_i32_22
  v41

def k0_off2 (i : grid0.Coords) : Fin 2 → Nat :=
  let c0_29 : Index := 0#32
  let arg1 : BitVec 32 := BitVec.ofNat 32 (i 1).val
  let c1024_i32 : BitVec 32 := 1024#32
  let v34 : BitVec 32 := Scalar.muli arg1 c1024_i32
  let v35 : BitVec 32 := v34
  let v53 : Index := Scalar.indexCast v35
  ![0, v53.toNat]
def k0_cond6 (i : grid0.Coords) : BitVec 1 :=
  let arg0 : BitVec 32 := BitVec.ofNat 32 (i 0).val
  let c7_i32_24 : BitVec 32 := 7#32
  let v45 : BitVec 1 := Scalar.cmpi .eq arg0 c7_i32_24
  let v46 : BitVec 32 := Scalar.extui v45
  let c0_i32_25 : BitVec 32 := 0#32
  let v47 : BitVec 1 := Scalar.cmpi .ne v46 c0_i32_25
  v47

def k0_off3 (i : grid0.Coords) : Fin 2 → Nat :=
  let c0_31 : Index := 0#32
  let arg1 : BitVec 32 := BitVec.ofNat 32 (i 1).val
  let c1024_i32 : BitVec 32 := 1024#32
  let v34 : BitVec 32 := Scalar.muli arg1 c1024_i32
  let v35 : BitVec 32 := v34
  let v54 : Index := Scalar.indexCast v35
  ![0, v54.toNat]
def k0_cond7 (i : grid0.Coords) : BitVec 1 :=
  let arg0 : BitVec 32 := BitVec.ofNat 32 (i 0).val
  let c7_i32_26 : BitVec 32 := 7#32
  let v48 : BitVec 1 := Scalar.cmpi .eq arg0 c7_i32_26
  let arg1 : BitVec 32 := BitVec.ofNat 32 (i 1).val
  let c7_i32_27 : BitVec 32 := 7#32
  let v49 : BitVec 1 := Scalar.cmpi .eq arg1 c7_i32_27
  let v50 : BitVec 1 := Scalar.andi v48 v49
  let v51 : BitVec 32 := Scalar.extui v50
  let c0_i32_28 : BitVec 32 := 0#32
  let v52 : BitVec 1 := Scalar.cmpi .ne v51 c0_i32_28
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  reducesTo_S8192x3_S8192_d1 : S8192x3.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x3_S1024x3_0_0 : ∀ a, (![0, 0] : Fin 2 → Nat) a + S1024x3.size a ≤ S1024x3.size a
  h_S1024x3 : 0 < S1024x3.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1024x3_p1_0_S3x1024 : S1024x3.Transposes [1, 0] S3x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  shapeCasts_S1x1024_S1x1x1024 : S1x1024.ShapeCasts S1x1x1024
  reduces_S1x1x1024_S1 : S1x1x1024.Reduces [1, 2] S1
  shapeCasts_S1x1_S_ : S1x1.ShapeCasts S_
  dot_S1024x3_S3x1024_S1024x1024_1_0_0_1_n_n_wf : DotDims.WF S1024x3 S3x1024 S1024x1024 [1] [0] [0] [1] [] []
  hrank0 : 0 < grid0.rank
  k0_mult1_dvd : ∀ i : grid0.Coords, 128 ∣ (k0_mult1 i).toNat
  k0_off1_inb : ∀ i : grid0.Coords, ∀ (k0_h3 : k0_cond3 i = 1#1), ∀ a, (k0_off1 i) a + S1x1024.size a ≤ S1x8192.size a
  k0_off2_inb : ∀ i : grid0.Coords, ∀ (k0_h4 : k0_cond4 i = 1#1), ∀ a, (k0_off2 i) a + S1x1024.size a ≤ S1x8192.size a
  k0_off3_inb : ∀ i : grid0.Coords, ∀ (k0_h6 : k0_cond6 i = 1#1), ∀ a, (k0_off3 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S8192x3.size a
  hwx0_0 : ∀ i : grid0.Coords, EltTy.bits .f32 = 32 ∨ (Rect.block (s := S8192x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S8192x3.size a
  hwx0_1 : ∀ i : grid0.Coords, EltTy.bits .f32 = 32 ∨ (Rect.block (s := S8192x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond7 i == 1#1) | ⟨_ + 5, h⟩ => absurd h (Nat.not_lt.2 (Nat.le_add_left _ _))

class Facts : Prop extends Facts₀ where

variable [Facts]
-- ==== ReferenceIdeal.lean ====
abbrev S8192x3 : Shape := ⟨2, ![8192, 3]⟩
abbrev S8192x1x3 : Shape := ⟨3, ![8192, 1, 3]⟩
abbrev S1x8192x3 : Shape := ⟨3, ![1, 8192, 3]⟩
abbrev S8192x8192x3 : Shape := ⟨3, ![8192, 8192, 3]⟩
abbrev S_ : Shape := ⟨0, ![]⟩
abbrev S8192x8192 : Shape := ⟨2, ![8192, 8192]⟩
abbrev S8192 : Shape := ⟨1, ![8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192x1x3, .f32⟩
  | .hbm, ⟨3, _⟩ => ⟨S1x8192x3, .f32⟩
  | .hbm, ⟨4, _⟩ => ⟨S8192x8192x3, .f32⟩
  | .hbm, ⟨5, _⟩ => ⟨S8192x8192x3, .f32⟩
  | .hbm, ⟨6, _⟩ => ⟨S8192x8192x3, .f32⟩
  | .hbm, ⟨7, _⟩ => ⟨S8192x8192x3, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S8192x3_S8192x1x3_0_2 : S8192x3.BroadcastsInDim S8192x1x3 (![0, 2] : Fin 2 → Fin S8192x1x3.rank)
  bcast_S8192x3_S1x8192x3_1_2 : S8192x3.BroadcastsInDim S1x8192x3 (![1, 2] : Fin 2 → Fin S1x8192x3.rank)
  bcast_S8192x1x3_S8192x8192x3_0_1_2 : S8192x1x3.BroadcastsInDim S8192x8192x3 (![0, 1, 2] : Fin 3 → Fin S8192x8192x3.rank)
  bcast_S1x8192x3_S8192x8192x3_0_1_2 : S1x8192x3.BroadcastsInDim S8192x8192x3 (![0, 1, 2] : Fin 3 → Fin S8192x8192x3.rank)
  reducesTo_S8192x8192x3_S8192x8192_d2 : S8192x8192x3.ReducesTo [2] S8192x8192
  h_S_ : 0 < S_.numel
  reducesTo_S8192x8192_S8192_d1 : S8192x8192.ReducesTo [1] S8192
  reducesTo_S8192_S_d0 : S8192.ReducesTo [0] S_
  reducesTo_S8192x8192_S8192_d0 : S8192x8192.ReducesTo [0] S8192

variable [Facts₀]

class Facts : Prop extends Facts₀ where

variable [Facts]
-- ==== Proof.KB.State.lean ====
/-
  The Chamfer kernel's grid point as a PURE step on what it keeps between points.

  The kernel walks an 8 x 8 grid of 1024 x 1024 tiles of the pairwise distance matrix, row block `i` outermost.
  Between points it keeps four scratch arrays: the running row minima of the current row block (`rm`, 1024 x 1),
  the running column minima of all 8192 columns (`cm`, 1 x 8192, updated one 1024-column slice per point), the sum
  of the finished row blocks' row minima (`sr`) and the sum of the finished column slices' column minima (`sc`).
  `step` is one grid point as a function of the four input blocks and of these four arrays, written with the
  body's named payloads; `iter` runs it along the grid; `outv` is what the last point stores into the result block.
  Everything here holds at every float instance.
-/
import proofs.«150379_j32186484916784_1_alg».proof.Proof.Gen.Kernel.Frame
import proofs.«150379_j32186484916784_1_alg».proof.Proof.Gen.Kernel.Skeleton
import Idealize.ShloMosaic.Lib.WritesUnit
import Idealize.ShloMosaic.Lib.Pipeline.Value

set_option maxRecDepth 16384

noncomputable section

namespace Cert.Kernel.Chamfer

open Cert.Kernel Cert.Kernel.Gen
open Idealize.ShloMosaic Idealize.SL.Sem

variable {F : FTy → Type} [FloatOps F]

/-! ## The body's seven branch conditions, as the printed scalar chains -/

/-- first point of the grid: both running sums are reset -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- first column block of a row block: the row minima are reset to +inf -/
abbrev cond2 (i : grid0.Coords) : Prop := (Scalar.cmpi .ne (Scalar.extui (Scalar.cmpi .eq (BitVec.ofNat 32 (i 1).val) 0#32)) 0#32) = 1#1
/-- first row block: the column slice is overwritten -/
abbrev cond3 (i : grid0.Coords) : Prop := k0_cond3 i = 1#1
/-- later row blocks: the column slice is lowered -/
abbrev cond4 (i : grid0.Coords) : Prop := k0_cond4 i = 1#1
/-- last column block of a row block: its row minima are summed -/
abbrev cond5 (i : grid0.Coords) : Prop := (Scalar.cmpi .ne (Scalar.extui (Scalar.cmpi .eq (BitVec.ofNat 32 (i 1).val) 7#32)) 0#32) = 1#1
/-- last row block: the finished column slice is summed -/
abbrev cond6 (i : grid0.Coords) : Prop := k0_cond6 i = 1#1
/-- last point: the result is stored -/
abbrev cond7 (i : grid0.Coords) : Prop := k0_cond7 i = 1#1

theorem cond1_iff : ∀ i : grid0.Coords, cond1 i ↔ ((i 0).val = 0 ∧ (i 1).val = 0) := by decide +kernel
theorem cond2_iff : ∀ i : grid0.Coords, cond2 i ↔ (i 1).val = 0 := by decide +kernel
theorem cond3_iff : ∀ i : grid0.Coords, cond3 i ↔ (i 0).val = 0 := by decide +kernel
theorem cond4_iff : ∀ i : grid0.Coords, cond4 i ↔ (i 0).val ≠ 0 := by decide +kernel
theorem cond5_iff : ∀ i : grid0.Coords, cond5 i ↔ (i 1).val = 7 := by decide +kernel
theorem cond6_iff : ∀ i : grid0.Coords, cond6 i ↔ (i 0).val = 7 := by decide +kernel
theorem cond7_iff : ∀ i : grid0.Coords, cond7 i ↔ ((i 0).val = 7 ∧ (i 1).val = 7) := by decide +kernel

/-! ## The column slice a point works on -/

/-- The slice of the column minima that point `i` works on lies inside the array (columns `1024 * j` onwards). -/
theorem offs_inb : ∀ (i : grid0.Coords) a, (k0_off2 i) a + S1x1024.size a ≤ S1x8192.size a := by decide +kernel
theorem off1_eq (i : grid0.Coords) : k0_off1 i = k0_off2 i := rfl
theorem off3_eq (i : grid0.Coords) : k0_off3 i = k0_off2 i := rfl

/-- The point's slice of the column minima, read. -/
def slice (cm : Vec F S1x8192 .f32) (i : grid0.Coords) : Vec F S1x1024 .f32 :=
  View.ld cm (Rect.unit (k0_off2 i) S1x1024.size (offs_inb i))

/-- The column minima with the point's slice replaced by `w`. -/
def upd (cm : Vec F S1x8192 .f32) (i : grid0.Coords) (w : Vec F S1x1024 .f32) : Vec F S1x8192 .f32 :=
  fun y => if h : ∀ a, (k0_off2 i) a ≤ (y a).val ∧ (y a).val < (k0_off2 i) a + S1x1024.size a then
      w (Rect.unitLocal (s := S1x8192) (off := k0_off2 i) (size := S1x1024.size) y h)
    else cm y

/-! ## The state and one point -/

/-- What the kernel keeps between grid points. -/
structure St (F : FTy → Type) [FloatOps F] where
  rm : Vec F S1024x1 .f32
  cm : Vec F S1x8192 .f32
  sr : Vec F S1x1 .f32
  sc : Vec F S1x1 .f32

/-- One grid point: the four input blocks and the state before it give the state after it. -/
def step (i : grid0.Coords) (x0 x1 : Vec F S1024x3 .f32) (x2 : Vec F S1024x1 .f32) (x3 : Vec F S1x1024 .f32) (s : St F) : St F :=
  let sr1 : Vec F S1x1 .f32 := if cond1 i then k0_pay7 else s.sr
  let sc1 : Vec F S1x1 .f32 := if cond1 i then k0_pay8 else s.sc
  let rm1 : Vec F S1024x1 .f32 := if cond2 i then k0_pay9 else s.rm
  let rm2 : Vec F S1024x1 .f32 := k0_pay11 x0 x1 x2 x3 rm1
  let v32 : FVec F S1024 .f32 := k0_pay12 x0 x1 x2 x3
  let cm1 : Vec F S1x8192 .f32 := if cond3 i then upd s.cm i (k0_pay2 v32) else s.cm
  let cm2 : Vec F S1x8192 .f32 := if cond4 i then upd cm1 i (k0_pay3 v32 (slice cm1 i)) else cm1
  let sr2 : Vec F S1x1 .f32 := if cond5 i then k0_pay4 sr1 rm2 else sr1
  let sc2 : Vec F S1x1 .f32 := if cond6 i then k0_pay5 sc1 (slice cm2 i) else sc1
  ⟨rm2, cm2, sr2, sc2⟩

/-- What the last point stores into the result block, from the state AFTER that point. -/
def outv (s : St F) : Vec F S1x1 .f32 := k0_pay6 s.sr s.sc

/-! ## Along the grid -/

theorem N_pos : 0 < grid0.N := by decide
/-- Grid point number `n` (taken modulo the 64 points, so that it is total). -/
def pt (n : ℕ) : Fin cfg0.N := ⟨n % grid0.N, Nat.mod_lt _ N_pos⟩
theorem pt_val (t : Fin cfg0.N) : pt t.val = t := Fin.ext (Nat.mod_eq_of_lt t.isLt)
/-- Its coordinates: row block `n / 8`, column block `n % 8`. -/
def co (n : ℕ) : grid0.Coords := grid0.coords (pt n)
theorem co_val : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)
theorem co_val0 (n : ℕ) (h : n < 64) : ((co n) 0).val = n / 8 := by
  have := (co_val (pt n)).1; unfold co; rw [this]; show n % grid0.N / 8 = n / 8; rw [N_0, Nat.mod_eq_of_lt h]
theorem co_val1 (n : ℕ) (h : n < 64) : ((co n) 1).val = n % 8 := by
  have := (co_val (pt n)).2; unfold co; rw [this]; show n % grid0.N % 8 = n % 8; rw [N_0, Nat.mod_eq_of_lt h]

/-- The state after point `n`, from the state `s₀` before the first point and the four block sequences. -/
def iter (X0 X1 : ℕ → Vec F S1024x3 .f32) (X2 : ℕ → Vec F S1024x1 .f32) (X3 : ℕ → Vec F S1x1024 .f32) (s₀ : St F) : ℕ → St F
  | 0 => step (co 0) (X0 0) (X1 0) (X2 0) (X3 0) s₀
  | n + 1 => step (co (n + 1)) (X0 (n + 1)) (X1 (n + 1)) (X2 (n + 1)) (X3 (n + 1)) (iter X0 X1 X2 X3 s₀ n)

theorem iter_zero (X0 X1 : ℕ → Vec F S1024x3 .f32) (X2 : ℕ → Vec F S1024x1 .f32) (X3 : ℕ → Vec F S1x1024 .f32) (s₀ : St F) :
    iter X0 X1 X2 X3 s₀ 0 = step (co 0) (X0 0) (X1 0) (X2 0) (X3 0) s₀ := rfl
theorem iter_succ (X0 X1 : ℕ → Vec F S1024x3 .f32) (X2 : ℕ → Vec F S1024x1 .f32) (X3 : ℕ → Vec F S1x1024 .f32) (s₀ : St F) (n : ℕ) :
    iter X0 X1 X2 X3 s₀ (n + 1) = step (co (n + 1)) (X0 (n + 1)) (X1 (n + 1)) (X2 (n + 1)) (X3 (n + 1)) (iter X0 X1 X2 X3 s₀ n) := rfl

end Cert.Kernel.Chamfer

end
-- ==== Proof.KB.RunLib.lean ====
/-
  Reading back what the body's stores leave: a store through the whole-buffer rectangle leaves its payload, a load
  through it of known contents reads them, and a store into the point's slice of the column minima leaves `upd`,
  a load of that slice reads `slice`.
-/
import proofs.«150379_j32186484916784_1_alg».proof.Proof.KB.State
import Idealize.ShloMosaic.Lib.Pipeline.FrameBody
import Idealize.ShloMosaic.Lib.Pipeline.Frame

set_option maxRecDepth 16384

noncomputable section

namespace Cert.Kernel.Chamfer

open Cert.Kernel Cert.Kernel.Gen
open Idealize.ShloMosaic Idealize.SL.Sem

variable {F : FTy → Type} [FloatOps F]

theorem hz2 : (![0, 0] : Fin 2 → ℕ) = fun _ => 0 := by funext a; fin_cases a <;> rfl

/-- A load through the whole-buffer rectangle reads the contents. -/
theorem readAt_whole {S : Shape} (M : Memref sig .tc .vmem S .f32) (h : M.IsWhole) {off : Fin S.rank → ℕ}
    (hz : off = fun _ => 0) (inb : ∀ a, off a + S.size a ≤ S.size a) (x : Vec F S .f32) :
    View.readAt (Elt F) M.view (Rect.unit off S.size inb).toLoadRect (h.unread x) = x := by
  rw [View.readAt_eq_ld, h.read_unread, View.ld_unit_zero hz]

/-- A store through the whole-buffer rectangle, last, leaves its payload. -/
theorem read_writes_whole {S : Shape} (v : View sig .tc .vmem S .f32) (f : v.ty.Contents (Elt F)) {off : Fin S.rank → ℕ}
    (hz : off = fun _ => 0) (inb : ∀ a, off a + S.size a ≤ S.size a) (w : S.Idx → Elt F .f32)
    (L : List (View.Piece (Elt F) S .f32)) :
    v.read (Elt F) (v.writes (Elt F) f ((⟨Rect.unit off S.size inb, w⟩ : View.Piece (Elt F) S .f32) :: L)) = w := by
  subst hz
  exact (View.read_writes_eq_canon v f _ (fun y => ⟨_, List.mem_cons_self, by
    show y ∈ (Rect.whole S).set; rw [Rect.set_whole]; exact Finset.mem_univ y⟩)).trans
    (View.canon_cons_unit_zero rfl _ w L)

/-- A load through the whole-buffer rectangle of a rank-2 buffer reads the contents. -/
theorem readAt_whole2 {d : Fin 2 → ℕ} (M : Memref sig .tc .vmem (⟨2, d⟩ : Shape) .f32) (h : M.IsWhole)
    (inb : ∀ a, (![0, 0] : Fin 2 → ℕ) a + d a ≤ d a) (x : Vec F (⟨2, d⟩ : Shape) .f32) :
    View.readAt (Elt F) M.view (Rect.unit (s := (⟨2, d⟩ : Shape)) ![0, 0] d inb).toLoadRect (h.unread x) = x :=
  readAt_whole M h hz2 inb x

/-- A store through the whole-buffer rectangle of a rank-2 buffer, last, leaves its payload. -/
theorem read_writes_whole2 {d : Fin 2 → ℕ} (v : View sig .tc .vmem (⟨2, d⟩ : Shape) .f32) (f : v.ty.Contents (Elt F))
    (inb : ∀ a, (![0, 0] : Fin 2 → ℕ) a + d a ≤ d a) (w : (⟨2, d⟩ : Shape).Idx → Elt F .f32)
    (L : List (View.Piece (Elt F) (⟨2, d⟩ : Shape) .f32)) :
    v.read (Elt F) (v.writes (Elt F) f ((⟨Rect.unit (s := (⟨2, d⟩ : Shape)) ![0, 0] d inb, w⟩ : View.Piece (Elt F) (⟨2, d⟩ : Shape) .f32) :: L)) = w :=
  read_writes_whole v f hz2 inb w L

/-- A load of the point's slice of the column minima reads `slice`. -/
theorem readAt_slice (M : Memref sig .tc .vmem S1x8192 .f32) (h : M.IsWhole) (i : grid0.Coords)
    (inb : ∀ a, (k0_off2 i) a + S1x1024.size a ≤ S1x8192.size a) (cm : Vec F S1x8192 .f32) :
    View.readAt (Elt F) M.view (Rect.unit (s := S1x8192) (k0_off2 i) S1x1024.size inb).toLoadRect (h.unread cm) = slice cm i := by
  rw [View.readAt_eq_ld, h.read_unread]; rfl

/-- A store into the point's slice of the column minima leaves `upd`. -/
theorem read_writes_slice (M : Memref sig .tc .vmem S1x8192 .f32) (h : M.IsWhole) (i : grid0.Coords)
    (inb : ∀ a, (k0_off2 i) a + S1x1024.size a ≤ S1x8192.size a) (cm : Vec F S1x8192 .f32) (w : Vec F S1x1024 .f32) :
    M.view.read (Elt F) (M.view.writes (Elt F) (h.unread cm)
      [(⟨Rect.unit (s := S1x8192) (k0_off2 i) S1x1024.size inb, w⟩ : View.Piece (Elt F) S1x8192 .f32)]) = upd cm i w := by
  funext y
  rw [View.read_writes_cons_unit M.view (h.unread cm) inb w [] y rfl]
  unfold upd
  by_cases hy : ∀ a, (k0_off2 i) a ≤ (y a).val ∧ (y a).val < (k0_off2 i) a + S1x1024.size a
  · rw [dif_pos hy, dif_pos hy]
  · rw [dif_neg hy, dif_neg hy]
    show M.view.read (Elt F) (h.unread cm) y = cm y
    rw [h.read_unread]

end Cert.Kernel.Chamfer

end
-- ==== Proof.KB.RunFF.lean ====
/-
  The first grid point: both running sums are reset, the row minima are reset to +inf and then lowered by the tile's row minima, and the point's slice of the column minima is overwritten by the tile's column minima.
-/
import proofs.«150379_j32186484916784_1_alg».proof.Proof.KB.RunLib
import Idealize.ShloMosaic.Lib.Tactic

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
theorem run_FF (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (arg10 : Memref sig .tc .vmem S1x1 .f32) (harg10 : arg10.IsWhole)
    (hc1 : cond1 i) (hc2 : cond2 i) (hc3 : cond3 i) (hc4 : ¬cond4 i) (hc5 : ¬cond5 i) (hc6 : ¬cond6 i) (hc7 : ¬cond7 i)
    (x0 x1 : Vec F S1024x3 .f32) (x2 : Vec F S1024x1 .f32) (x3 : Vec F S1x1024 .f32) (xo : Vec F S1x1 .f32) (s : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s.rm ∗ owns (c : Thread nD τ) arg8 fullShare s.cm ∗ owns (c : Thread nD τ) arg9 fullShare s.sr ∗ owns (c : Thread nD τ) arg10 fullShare s.sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (step i x0 x1 x2 x3 s).rm ∗ owns (c : Thread nD τ) arg8 fullShare (step i x0 x1 x2 x3 s).cm ∗ owns (c : Thread nD τ) arg9 fullShare (step i x0 x1 x2 x3 s).sr ∗ owns (c : Thread nD τ) arg10 fullShare (step i x0 x1 x2 x3 s).sc) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  have hstep : step i x0 x1 x2 x3 s = ⟨k0_pay11 x0 x1 x2 x3 k0_pay9, upd s.cm i (k0_pay2 (k0_pay12 x0 x1 x2 x3)), k0_pay7, k0_pay8⟩ := by
    simp only [step, if_pos hc1, if_pos hc2, if_pos hc3, if_neg hc4, if_neg hc5, if_neg hc6]
  rw [hstep]
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, ⟨%g2, %hg2, HS2⟩, ⟨%g3, %hg3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hg0; obtain rfl := harg8.eq_unread hg1; obtain rfl := harg9.eq_unread hg2; obtain rfl := harg10.eq_unread hg3
  sl_exec (disch := first | exact hc1 | exact hc2 | exact hc3 | exact hc4 | exact hc5 | exact hc6 | exact hc7)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [HS0]
  · iexists _; isplitr
    swap
    · iexact HS0
    ipureintro
    (try sl_unfold_run_names); simp only [read_writes_whole2, readAt_whole2, View.readCov_cons_toLoadRect]
  isplitl [HS1]
  · iexists _; isplitr
    swap
    · iexact HS1
    ipureintro
    (try sl_unfold_run_names); simp only [readAt_whole2]
    exact read_writes_slice arg8 harg8 i _ s.cm _
  isplitl [HS2]
  · iexists _; isplitr
    swap
    · iexact HS2
    ipureintro
    (try sl_unfold_run_names); simp only [read_writes_whole2]
  iexists _; isplitr
  swap
  · iexact HS3
  ipureintro
  (try sl_unfold_run_names); simp only [read_writes_whole2]
end Cert.Kernel.Chamfer

end
-- ==== Proof.KB.RunFM.lean ====
/-
  A grid point of the first row block that is neither its first nor its last column block: the row minima are lowered by the tile's row minima, the point's slice of the column minima is overwritten by the tile's column minima, and the two running sums are kept.
-/
import proofs.«150379_j32186484916784_1_alg».proof.Proof.KB.RunLib
import Idealize.ShloMosaic.Lib.Tactic

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
theorem run_FM (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (arg10 : Memref sig .tc .vmem S1x1 .f32) (harg10 : arg10.IsWhole)
    (hc1 : ¬cond1 i) (hc2 : ¬cond2 i) (hc3 : cond3 i) (hc4 : ¬cond4 i) (hc5 : ¬cond5 i) (hc6 : ¬cond6 i) (hc7 : ¬cond7 i)
    (x0 x1 : Vec F S1024x3 .f32) (x2 : Vec F S1024x1 .f32) (x3 : Vec F S1x1024 .f32) (xo : Vec F S1x1 .f32) (s : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s.rm ∗ owns (c : Thread nD τ) arg8 fullShare s.cm ∗ owns (c : Thread nD τ) arg9 fullShare s.sr ∗ owns (c : Thread nD τ) arg10 fullShare s.sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (step i x0 x1 x2 x3 s).rm ∗ owns (c : Thread nD τ) arg8 fullShare (step i x0 x1 x2 x3 s).cm ∗ owns (c : Thread nD τ) arg9 fullShare (step i x0 x1 x2 x3 s).sr ∗ owns (c : Thread nD τ) arg10 fullShare (step i x0 x1 x2 x3 s).sc) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  have hstep : step i x0 x1 x2 x3 s = ⟨k0_pay11 x0 x1 x2 x3 s.rm, upd s.cm i (k0_pay2 (k0_pay12 x0 x1 x2 x3)), s.sr, s.sc⟩ := by
    simp only [step, if_neg hc1, if_neg hc2, if_pos hc3, if_neg hc4, if_neg hc5, if_neg hc6]
  rw [hstep]
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, ⟨%g2, %hg2, HS2⟩, ⟨%g3, %hg3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hg0; obtain rfl := harg8.eq_unread hg1; obtain rfl := harg9.eq_unread hg2; obtain rfl := harg10.eq_unread hg3
  sl_exec (disch := first | exact hc1 | exact hc2 | exact hc3 | exact hc4 | exact hc5 | exact hc6 | exact hc7)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [HS0]
  · iexists _; isplitr
    swap
    · iexact HS0
    ipureintro
    (try sl_unfold_run_names); simp only [read_writes_whole2, readAt_whole2]
  isplitl [HS1]
  · iexists _; isplitr
    swap
    · iexact HS1
    ipureintro
    (try sl_unfold_run_names); simp only [readAt_whole2]
    exact read_writes_slice arg8 harg8 i _ s.cm _
  isplitl [HS2]
  · iexists _; isplitr
    · ipureintro; exact harg9.read_unread _
    iexact HS2
  iexists _; isplitr
  · ipureintro; exact harg10.read_unread _
  iexact HS3
end Cert.Kernel.Chamfer

end
-- ==== Proof.KB.RunFL.lean ====
/-
  The last point of the first row block: the row minima are lowered by the tile's row minima and, the row block being finished, summed into the running sum of row minima; the point's slice of the column minima is overwritten by the tile's column minima; the running sum of column minima is kept.
-/
import proofs.«150379_j32186484916784_1_alg».proof.Proof.KB.RunLib
import Idealize.ShloMosaic.Lib.Tactic

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
theorem run_FL (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (arg10 : Memref sig .tc .vmem S1x1 .f32) (harg10 : arg10.IsWhole)
    (hc1 : ¬cond1 i) (hc2 : ¬cond2 i) (hc3 : cond3 i) (hc4 : ¬cond4 i) (hc5 : cond5 i) (hc6 : ¬cond6 i) (hc7 : ¬cond7 i)
    (x0 x1 : Vec F S1024x3 .f32) (x2 : Vec F S1024x1 .f32) (x3 : Vec F S1x1024 .f32) (xo : Vec F S1x1 .f32) (s : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s.rm ∗ owns (c : Thread nD τ) arg8 fullShare s.cm ∗ owns (c : Thread nD τ) arg9 fullShare s.sr ∗ owns (c : Thread nD τ) arg10 fullShare s.sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (step i x0 x1 x2 x3 s).rm ∗ owns (c : Thread nD τ) arg8 fullShare (step i x0 x1 x2 x3 s).cm ∗ owns (c : Thread nD τ) arg9 fullShare (step i x0 x1 x2 x3 s).sr ∗ owns (c : Thread nD τ) arg10 fullShare (step i x0 x1 x2 x3 s).sc) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  have hstep : step i x0 x1 x2 x3 s = ⟨k0_pay11 x0 x1 x2 x3 s.rm, upd s.cm i (k0_pay2 (k0_pay12 x0 x1 x2 x3)), k0_pay4 s.sr (k0_pay11 x0 x1 x2 x3 s.rm), s.sc⟩ := by
    simp only [step, if_neg hc1, if_neg hc2, if_pos hc3, if_neg hc4, if_pos hc5, if_neg hc6]
  rw [hstep]
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, ⟨%g2, %hg2, HS2⟩, ⟨%g3, %hg3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hg0; obtain rfl := harg8.eq_unread hg1; obtain rfl := harg9.eq_unread hg2; obtain rfl := harg10.eq_unread hg3
  sl_exec (disch := first | exact hc1 | exact hc2 | exact hc3 | exact hc4 | exact hc5 | exact hc6 | exact hc7)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [HS0]
  · iexists _; isplitr
    swap
    · iexact HS0
    ipureintro
    (try sl_unfold_run_names); simp only [read_writes_whole2, readAt_whole2]
  isplitl [HS1]
  · iexists _; isplitr
    swap
    · iexact HS1
    ipureintro
    (try sl_unfold_run_names); simp only [readAt_whole2]
    exact read_writes_slice arg8 harg8 i _ s.cm _
  isplitl [HS2]
  · iexists _; isplitr
    swap
    · iexact HS2
    ipureintro
    (try sl_unfold_run_names); simp only [read_writes_whole2, readAt_whole2, View.readCov_cons_toLoadRect]
  iexists _; isplitr
  · ipureintro; exact harg10.read_unread _
  iexact HS3
end Cert.Kernel.Chamfer

end
-- ==== Proof.KB.RunMF.lean ====
/-
  The first point of a row block that is neither the first nor the last: the row minima are reset to +inf and then lowered by the tile's row minima, the point's slice of the column minima is lowered by the tile's column minima, and the two running sums are kept.
-/
import proofs.«150379_j32186484916784_1_alg».proof.Proof.KB.RunLib
import Idealize.ShloMosaic.Lib.Tactic

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
theorem run_MF (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (arg10 : Memref sig .tc .vmem S1x1 .f32) (harg10 : arg10.IsWhole)
    (hc1 : ¬cond1 i) (hc2 : cond2 i) (hc3 : ¬cond3 i) (hc4 : cond4 i) (hc5 : ¬cond5 i) (hc6 : ¬cond6 i) (hc7 : ¬cond7 i)
    (x0 x1 : Vec F S1024x3 .f32) (x2 : Vec F S1024x1 .f32) (x3 : Vec F S1x1024 .f32) (xo : Vec F S1x1 .f32) (s : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s.rm ∗ owns (c : Thread nD τ) arg8 fullShare s.cm ∗ owns (c : Thread nD τ) arg9 fullShare s.sr ∗ owns (c : Thread nD τ) arg10 fullShare s.sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (step i x0 x1 x2 x3 s).rm ∗ owns (c : Thread nD τ) arg8 fullShare (step i x0 x1 x2 x3 s).cm ∗ owns (c : Thread nD τ) arg9 fullShare (step i x0 x1 x2 x3 s).sr ∗ owns (c : Thread nD τ) arg10 fullShare (step i x0 x1 x2 x3 s).sc) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  have hstep : step i x0 x1 x2 x3 s = ⟨k0_pay11 x0 x1 x2 x3 k0_pay9, upd s.cm i (k0_pay3 (k0_pay12 x0 x1 x2 x3) (slice s.cm i)), s.sr, s.sc⟩ := by
    simp only [step, if_neg hc1, if_pos hc2, if_neg hc3, if_pos hc4, if_neg hc5, if_neg hc6]
  rw [hstep]
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, ⟨%g2, %hg2, HS2⟩, ⟨%g3, %hg3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hg0; obtain rfl := harg8.eq_unread hg1; obtain rfl := harg9.eq_unread hg2; obtain rfl := harg10.eq_unread hg3
  sl_exec (disch := first | exact hc1 | exact hc2 | exact hc3 | exact hc4 | exact hc5 | exact hc6 | exact hc7)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [HS0]
  · iexists _; isplitr
    swap
    · iexact HS0
    ipureintro
    (try sl_unfold_run_names); simp only [read_writes_whole2, readAt_whole2, View.readCov_cons_toLoadRect]
  isplitl [HS1]
  · iexists _; isplitr
    swap
    · iexact HS1
    ipureintro
    (try sl_unfold_run_names); simp only [readAt_whole2]
    refine (read_writes_slice arg8 harg8 i _ s.cm _).trans ?_
    refine congrArg (fun z => upd s.cm i (k0_pay3 (k0_pay12 x0 x1 x2 x3) z)) ?_
    exact readAt_slice arg8 harg8 i _ s.cm
  isplitl [HS2]
  · iexists _; isplitr
    · ipureintro; exact harg9.read_unread _
    iexact HS2
  iexists _; isplitr
  · ipureintro; exact harg10.read_unread _
  iexact HS3
end Cert.Kernel.Chamfer

end
-- ==== Proof.KB.RunMM.lean ====
/-
  A grid point in the interior of the grid (neither first nor last row block, neither first nor last column block): the row minima are lowered by the tile's row minima and the point's slice of the column minima by the tile's column minima; the two running sums are kept.
-/
import proofs.«150379_j32186484916784_1_alg».proof.Proof.KB.RunLib
import Idealize.ShloMosaic.Lib.Tactic

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
theorem run_MM (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (arg10 : Memref sig .tc .vmem S1x1 .f32) (harg10 : arg10.IsWhole)
    (hc1 : ¬cond1 i) (hc2 : ¬cond2 i) (hc3 : ¬cond3 i) (hc4 : cond4 i) (hc5 : ¬cond5 i) (hc6 : ¬cond6 i) (hc7 : ¬cond7 i)
    (x0 x1 : Vec F S1024x3 .f32) (x2 : Vec F S1024x1 .f32) (x3 : Vec F S1x1024 .f32) (xo : Vec F S1x1 .f32) (s : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s.rm ∗ owns (c : Thread nD τ) arg8 fullShare s.cm ∗ owns (c : Thread nD τ) arg9 fullShare s.sr ∗ owns (c : Thread nD τ) arg10 fullShare s.sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (step i x0 x1 x2 x3 s).rm ∗ owns (c : Thread nD τ) arg8 fullShare (step i x0 x1 x2 x3 s).cm ∗ owns (c : Thread nD τ) arg9 fullShare (step i x0 x1 x2 x3 s).sr ∗ owns (c : Thread nD τ) arg10 fullShare (step i x0 x1 x2 x3 s).sc) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  have hstep : step i x0 x1 x2 x3 s = ⟨k0_pay11 x0 x1 x2 x3 s.rm, upd s.cm i (k0_pay3 (k0_pay12 x0 x1 x2 x3) (slice s.cm i)), s.sr, s.sc⟩ := by
    simp only [step, if_neg hc1, if_neg hc2, if_neg hc3, if_pos hc4, if_neg hc5, if_neg hc6]
  rw [hstep]
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, ⟨%g2, %hg2, HS2⟩, ⟨%g3, %hg3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hg0; obtain rfl := harg8.eq_unread hg1; obtain rfl := harg9.eq_unread hg2; obtain rfl := harg10.eq_unread hg3
  sl_exec (disch := first | exact hc1 | exact hc2 | exact hc3 | exact hc4 | exact hc5 | exact hc6 | exact hc7)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [HS0]
  · iexists _; isplitr
    swap
    · iexact HS0
    ipureintro
    (try sl_unfold_run_names); simp only [read_writes_whole2, readAt_whole2]
  isplitl [HS1]
  · iexists _; isplitr
    swap
    · iexact HS1
    ipureintro
    (try sl_unfold_run_names); simp only [readAt_whole2]
    refine (read_writes_slice arg8 harg8 i _ s.cm _).trans ?_
    refine congrArg (fun z => upd s.cm i (k0_pay3 (k0_pay12 x0 x1 x2 x3) z)) ?_
    exact readAt_slice arg8 harg8 i _ s.cm
  isplitl [HS2]
  · iexists _; isplitr
    · ipureintro; exact harg9.read_unread _
    iexact HS2
  iexists _; isplitr
  · ipureintro; exact harg10.read_unread _
  iexact HS3
end Cert.Kernel.Chamfer

end
-- ==== Proof.KB.RunML.lean ====
/-
  A grid point in the last column block of a row block that is neither the first nor the last: the row minima are lowered by the tile's row minima and, the row block being finished, summed into the running sum of row minima; the point's slice of the column minima is lowered by the tile's column minima; the running sum of column minima is kept.
-/
import proofs.«150379_j32186484916784_1_alg».proof.Proof.KB.RunLib
import Idealize.ShloMosaic.Lib.Tactic

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A load through the whole-buffer rectangle of a rank-2 buffer, of what one store through it left, reads the payload. -/
private theorem readCov_whole2 {d : Fin 2 → ℕ} (v : View sig .tc .vmem (⟨2, d⟩ : Shape) .f32)
    (inb : ∀ a, (![0, 0] : Fin 2 → ℕ) a + d a ≤ d a) (w : (⟨2, d⟩ : Shape).Idx → Elt F .f32) :
    v.readCov [(⟨Rect.unit (s := (⟨2, d⟩ : Shape)) ![0, 0] d inb, w⟩ : View.Piece (Elt F) (⟨2, d⟩ : Shape) .f32)]
      (Rect.unit (s := (⟨2, d⟩ : Shape)) ![0, 0] d inb).toLoadRect = w :=
  View.readCov_unit_zero v hz2 inb w

set_option maxHeartbeats 1000000 in
theorem run_ML (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (arg10 : Memref sig .tc .vmem S1x1 .f32) (harg10 : arg10.IsWhole)
    (hc1 : ¬cond1 i) (hc2 : ¬cond2 i) (hc3 : ¬cond3 i) (hc4 : cond4 i) (hc5 : cond5 i) (hc6 : ¬cond6 i) (hc7 : ¬cond7 i)
    (x0 x1 : Vec F S1024x3 .f32) (x2 : Vec F S1024x1 .f32) (x3 : Vec F S1x1024 .f32) (xo : Vec F S1x1 .f32) (s : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s.rm ∗ owns (c : Thread nD τ) arg8 fullShare s.cm ∗ owns (c : Thread nD τ) arg9 fullShare s.sr ∗ owns (c : Thread nD τ) arg10 fullShare s.sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (step i x0 x1 x2 x3 s).rm ∗ owns (c : Thread nD τ) arg8 fullShare (step i x0 x1 x2 x3 s).cm ∗ owns (c : Thread nD τ) arg9 fullShare (step i x0 x1 x2 x3 s).sr ∗ owns (c : Thread nD τ) arg10 fullShare (step i x0 x1 x2 x3 s).sc) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  have hstep : step i x0 x1 x2 x3 s = ⟨k0_pay11 x0 x1 x2 x3 s.rm, upd s.cm i (k0_pay3 (k0_pay12 x0 x1 x2 x3) (slice s.cm i)), k0_pay4 s.sr (k0_pay11 x0 x1 x2 x3 s.rm), s.sc⟩ := by
    simp only [step, if_neg hc1, if_neg hc2, if_neg hc3, if_pos hc4, if_pos hc5, if_neg hc6]
  rw [hstep]
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, ⟨%g2, %hg2, HS2⟩, ⟨%g3, %hg3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hg0; obtain rfl := harg8.eq_unread hg1; obtain rfl := harg9.eq_unread hg2; obtain rfl := harg10.eq_unread hg3
  sl_exec (disch := first | exact hc1 | exact hc2 | exact hc3 | exact hc4 | exact hc5 | exact hc6 | exact hc7)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [HS0]
  · iexists _; isplitr
    swap
    · iexact HS0
    ipureintro
    (try sl_unfold_run_names); simp only [read_writes_whole2, readAt_whole2]
  isplitl [HS1]
  · iexists _; isplitr
    swap
    · iexact HS1
    ipureintro
    (try sl_unfold_run_names); simp only [readAt_whole2]
    refine (read_writes_slice arg8 harg8 i _ s.cm _).trans ?_
    refine congrArg (fun z => upd s.cm i (k0_pay3 (k0_pay12 x0 x1 x2 x3) z)) ?_
    exact readAt_slice arg8 harg8 i _ s.cm
  isplitl [HS2]
  · iexists _; isplitr
    swap
    · iexact HS2
    ipureintro
    (try sl_unfold_run_names); simp only [read_writes_whole2, readAt_whole2, readCov_whole2]
  iexists _; isplitr
  · ipureintro; exact harg10.read_unread _
  iexact HS3
end Cert.Kernel.Chamfer

end
-- ==== Proof.KB.RunLF.lean ====
/-
  The first grid point of the last row block: the row minima are reset to +inf and then lowered by the tile's row minima; the point's slice of the column minima is lowered by the tile's column minima and, that slice being finished, summed into the running sum of column minima; the running sum of row minima is kept.
-/
import proofs.«150379_j32186484916784_1_alg».proof.Proof.KB.RunLib
import Idealize.ShloMosaic.Lib.Tactic

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A load through the whole-buffer rectangle of a rank-2 buffer, of what one store through it left, reads the payload. -/
private theorem readCov_whole2 {d : Fin 2 → ℕ} (v : View sig .tc .vmem (⟨2, d⟩ : Shape) .f32)
    (inb : ∀ a, (![0, 0] : Fin 2 → ℕ) a + d a ≤ d a) (w : (⟨2, d⟩ : Shape).Idx → Elt F .f32) :
    v.readCov [(⟨Rect.unit (s := (⟨2, d⟩ : Shape)) ![0, 0] d inb, w⟩ : View.Piece (Elt F) (⟨2, d⟩ : Shape) .f32)]
      (Rect.unit (s := (⟨2, d⟩ : Shape)) ![0, 0] d inb).toLoadRect = w :=
  View.readCov_unit_zero v hz2 inb w

/-- The point's slice of the column minima, read back after it has been replaced by `w`, is `w`: the index at position `x` of the slice is the offset plus `x`, and its position within the slice is the index minus the offset. -/
private theorem slice_upd (cm : Vec F S1x8192 .f32) (i : grid0.Coords) (w : Vec F S1x1024 .f32) :
    slice (upd cm i w) i = w := by
  funext x
  have hy : ∀ a, (k0_off2 i) a ≤ ((Rect.unit (s := S1x8192) (k0_off2 i) S1x1024.size (offs_inb i)).idx x a).val
      ∧ ((Rect.unit (s := S1x8192) (k0_off2 i) S1x1024.size (offs_inb i)).idx x a).val < (k0_off2 i) a + S1x1024.size a := by
    intro a
    have hx : (x a).val < S1x1024.size a := (x a).isLt
    have he : ((Rect.unit (s := S1x8192) (k0_off2 i) S1x1024.size (offs_inb i)).idx x a).val = (k0_off2 i) a + 1 * (x a).val := rfl
    rw [he]; omega
  show upd cm i w ((Rect.unit (s := S1x8192) (k0_off2 i) S1x1024.size (offs_inb i)).idx x) = w x
  unfold upd
  rw [dif_pos hy]
  congr 1
  funext a
  apply Fin.ext
  show (k0_off2 i) a + 1 * (x a).val - (k0_off2 i) a = (x a).val
  omega

set_option maxHeartbeats 1000000 in
theorem run_LF (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (arg10 : Memref sig .tc .vmem S1x1 .f32) (harg10 : arg10.IsWhole)
    (hc1 : ¬cond1 i) (hc2 : cond2 i) (hc3 : ¬cond3 i) (hc4 : cond4 i) (hc5 : ¬cond5 i) (hc6 : cond6 i) (hc7 : ¬cond7 i)
    (x0 x1 : Vec F S1024x3 .f32) (x2 : Vec F S1024x1 .f32) (x3 : Vec F S1x1024 .f32) (xo : Vec F S1x1 .f32) (s : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s.rm ∗ owns (c : Thread nD τ) arg8 fullShare s.cm ∗ owns (c : Thread nD τ) arg9 fullShare s.sr ∗ owns (c : Thread nD τ) arg10 fullShare s.sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (step i x0 x1 x2 x3 s).rm ∗ owns (c : Thread nD τ) arg8 fullShare (step i x0 x1 x2 x3 s).cm ∗ owns (c : Thread nD τ) arg9 fullShare (step i x0 x1 x2 x3 s).sr ∗ owns (c : Thread nD τ) arg10 fullShare (step i x0 x1 x2 x3 s).sc) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  have hstep : step i x0 x1 x2 x3 s = ⟨k0_pay11 x0 x1 x2 x3 k0_pay9, upd s.cm i (k0_pay3 (k0_pay12 x0 x1 x2 x3) (slice s.cm i)), s.sr, k0_pay5 s.sc (slice (upd s.cm i (k0_pay3 (k0_pay12 x0 x1 x2 x3) (slice s.cm i))) i)⟩ := by
    simp only [step, if_neg hc1, if_pos hc2, if_neg hc3, if_pos hc4, if_neg hc5, if_pos hc6]
  rw [hstep]
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, ⟨%g2, %hg2, HS2⟩, ⟨%g3, %hg3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hg0; obtain rfl := harg8.eq_unread hg1; obtain rfl := harg9.eq_unread hg2; obtain rfl := harg10.eq_unread hg3
  sl_exec (disch := first | exact hc1 | exact hc2 | exact hc3 | exact hc4 | exact hc5 | exact hc6 | exact hc7)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [HS0]
  · iexists _; isplitr
    swap
    · iexact HS0
    ipureintro
    (try sl_unfold_run_names); simp only [read_writes_whole2, readAt_whole2, readCov_whole2]
  isplitl [HS1]
  · iexists _; isplitr
    swap
    · iexact HS1
    ipureintro
    (try sl_unfold_run_names); simp only [readAt_whole2]
    refine (read_writes_slice arg8 harg8 i _ s.cm _).trans ?_
    refine congrArg (fun z => upd s.cm i (k0_pay3 (k0_pay12 x0 x1 x2 x3) z)) ?_
    exact readAt_slice arg8 harg8 i _ s.cm
  isplitl [HS2]
  · iexists _; isplitr
    · ipureintro; exact harg9.read_unread _
    iexact HS2
  iexists _; isplitr
  swap
  · iexact HS3
  ipureintro
  (try sl_unfold_run_names); simp only [read_writes_whole2, readAt_whole2]
  refine congrArg (k0_pay5 s.sc) ?_
  refine (View.readCov_cons_toLoadRect arg8.view (Rect.unit (s := S1x8192) (k0_off2 i) S1x1024.size (offs_inb i)) _ []).trans ?_
  rw [slice_upd]
  exact congrArg (k0_pay3 (k0_pay12 x0 x1 x2 x3)) (readAt_slice arg8 harg8 i _ s.cm)
end Cert.Kernel.Chamfer

end
-- ==== Proof.KB.RunLM.lean ====
/-
  A grid point in the last row block, in a column block that is neither the first nor the last: the row minima are lowered by the tile's row minima; the point's slice of the column minima is lowered by the tile's column minima and, that slice being finished, summed into the running sum of column minima; the running sum of row minima is kept.
-/
import proofs.«150379_j32186484916784_1_alg».proof.Proof.KB.RunLib
import Idealize.ShloMosaic.Lib.Tactic

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point's slice of the column minima, read back after it has been replaced by `w`, is `w`: the index at position `x` of the slice is the offset plus `x`, and its position within the slice is the index minus the offset. -/
private theorem slice_upd (cm : Vec F S1x8192 .f32) (i : grid0.Coords) (w : Vec F S1x1024 .f32) :
    slice (upd cm i w) i = w := by
  funext x
  have hy : ∀ a, (k0_off2 i) a ≤ ((Rect.unit (s := S1x8192) (k0_off2 i) S1x1024.size (offs_inb i)).idx x a).val
      ∧ ((Rect.unit (s := S1x8192) (k0_off2 i) S1x1024.size (offs_inb i)).idx x a).val < (k0_off2 i) a + S1x1024.size a := by
    intro a
    have hx : (x a).val < S1x1024.size a := (x a).isLt
    have he : ((Rect.unit (s := S1x8192) (k0_off2 i) S1x1024.size (offs_inb i)).idx x a).val = (k0_off2 i) a + 1 * (x a).val := rfl
    rw [he]; omega
  show upd cm i w ((Rect.unit (s := S1x8192) (k0_off2 i) S1x1024.size (offs_inb i)).idx x) = w x
  unfold upd
  rw [dif_pos hy]
  congr 1
  funext a
  apply Fin.ext
  show (k0_off2 i) a + 1 * (x a).val - (k0_off2 i) a = (x a).val
  omega

set_option maxHeartbeats 1000000 in
theorem run_LM (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (arg10 : Memref sig .tc .vmem S1x1 .f32) (harg10 : arg10.IsWhole)
    (hc1 : ¬cond1 i) (hc2 : ¬cond2 i) (hc3 : ¬cond3 i) (hc4 : cond4 i) (hc5 : ¬cond5 i) (hc6 : cond6 i) (hc7 : ¬cond7 i)
    (x0 x1 : Vec F S1024x3 .f32) (x2 : Vec F S1024x1 .f32) (x3 : Vec F S1x1024 .f32) (xo : Vec F S1x1 .f32) (s : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s.rm ∗ owns (c : Thread nD τ) arg8 fullShare s.cm ∗ owns (c : Thread nD τ) arg9 fullShare s.sr ∗ owns (c : Thread nD τ) arg10 fullShare s.sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (step i x0 x1 x2 x3 s).rm ∗ owns (c : Thread nD τ) arg8 fullShare (step i x0 x1 x2 x3 s).cm ∗ owns (c : Thread nD τ) arg9 fullShare (step i x0 x1 x2 x3 s).sr ∗ owns (c : Thread nD τ) arg10 fullShare (step i x0 x1 x2 x3 s).sc) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  have hstep : step i x0 x1 x2 x3 s = ⟨k0_pay11 x0 x1 x2 x3 s.rm, upd s.cm i (k0_pay3 (k0_pay12 x0 x1 x2 x3) (slice s.cm i)), s.sr, k0_pay5 s.sc (slice (upd s.cm i (k0_pay3 (k0_pay12 x0 x1 x2 x3) (slice s.cm i))) i)⟩ := by
    simp only [step, if_neg hc1, if_neg hc2, if_neg hc3, if_pos hc4, if_neg hc5, if_pos hc6]
  rw [hstep]
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, ⟨%g2, %hg2, HS2⟩, ⟨%g3, %hg3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hg0; obtain rfl := harg8.eq_unread hg1; obtain rfl := harg9.eq_unread hg2; obtain rfl := harg10.eq_unread hg3
  sl_exec (disch := first | exact hc1 | exact hc2 | exact hc3 | exact hc4 | exact hc5 | exact hc6 | exact hc7)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [HS0]
  · iexists _; isplitr
    swap
    · iexact HS0
    ipureintro
    (try sl_unfold_run_names); simp only [read_writes_whole2, readAt_whole2]
  isplitl [HS1]
  · iexists _; isplitr
    swap
    · iexact HS1
    ipureintro
    (try sl_unfold_run_names); simp only [readAt_whole2]
    refine (read_writes_slice arg8 harg8 i _ s.cm _).trans ?_
    refine congrArg (fun z => upd s.cm i (k0_pay3 (k0_pay12 x0 x1 x2 x3) z)) ?_
    exact readAt_slice arg8 harg8 i _ s.cm
  isplitl [HS2]
  · iexists _; isplitr
    · ipureintro; exact harg9.read_unread _
    iexact HS2
  iexists _; isplitr
  swap
  · iexact HS3
  ipureintro
  (try sl_unfold_run_names); simp only [read_writes_whole2, readAt_whole2]
  refine congrArg (k0_pay5 s.sc) ?_
  refine (View.readCov_cons_toLoadRect arg8.view (Rect.unit (s := S1x8192) (k0_off2 i) S1x1024.size (offs_inb i)) _ []).trans ?_
  rw [slice_upd]
  exact congrArg (k0_pay3 (k0_pay12 x0 x1 x2 x3)) (readAt_slice arg8 harg8 i _ s.cm)
end Cert.Kernel.Chamfer

end
-- ==== Proof.KB.RunLL.lean ====
/-
  The last grid point: the row minima are lowered by the tile's row minima and, the last row block being finished, summed into the running sum of row minima; the point's slice of the column minima is lowered by the tile's column minima and, that last slice being finished, summed into the running sum of column minima; the result block receives the value made of the two finished sums.
-/
import proofs.«150379_j32186484916784_1_alg».proof.Proof.KB.RunLib
import Idealize.ShloMosaic.Lib.Tactic

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A load through the whole-buffer rectangle of a rank-2 buffer, of what one store through it left, reads the payload. -/
private theorem readCov_whole2 {d : Fin 2 → ℕ} (v : View sig .tc .vmem (⟨2, d⟩ : Shape) .f32)
    (inb : ∀ a, (![0, 0] : Fin 2 → ℕ) a + d a ≤ d a) (w : (⟨2, d⟩ : Shape).Idx → Elt F .f32) :
    v.readCov [(⟨Rect.unit (s := (⟨2, d⟩ : Shape)) ![0, 0] d inb, w⟩ : View.Piece (Elt F) (⟨2, d⟩ : Shape) .f32)]
      (Rect.unit (s := (⟨2, d⟩ : Shape)) ![0, 0] d inb).toLoadRect = w :=
  View.readCov_unit_zero v hz2 inb w

/-- The point's slice of the column minima, read back after it has been replaced by `w`, is `w`: the index at position `x` of the slice is the offset plus `x`, and its position within the slice is the index minus the offset. -/
private theorem slice_upd (cm : Vec F S1x8192 .f32) (i : grid0.Coords) (w : Vec F S1x1024 .f32) :
    slice (upd cm i w) i = w := by
  funext x
  have hy : ∀ a, (k0_off2 i) a ≤ ((Rect.unit (s := S1x8192) (k0_off2 i) S1x1024.size (offs_inb i)).idx x a).val
      ∧ ((Rect.unit (s := S1x8192) (k0_off2 i) S1x1024.size (offs_inb i)).idx x a).val < (k0_off2 i) a + S1x1024.size a := by
    intro a
    have hx : (x a).val < S1x1024.size a := (x a).isLt
    have he : ((Rect.unit (s := S1x8192) (k0_off2 i) S1x1024.size (offs_inb i)).idx x a).val = (k0_off2 i) a + 1 * (x a).val := rfl
    rw [he]; omega
  show upd cm i w ((Rect.unit (s := S1x8192) (k0_off2 i) S1x1024.size (offs_inb i)).idx x) = w x
  unfold upd
  rw [dif_pos hy]
  congr 1
  funext a
  apply Fin.ext
  show (k0_off2 i) a + 1 * (x a).val - (k0_off2 i) a = (x a).val
  omega

set_option maxHeartbeats 1000000 in
theorem run_LL (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (arg10 : Memref sig .tc .vmem S1x1 .f32) (harg10 : arg10.IsWhole)
    (hc1 : ¬cond1 i) (hc2 : ¬cond2 i) (hc3 : ¬cond3 i) (hc4 : cond4 i) (hc5 : cond5 i) (hc6 : cond6 i) (hc7 : cond7 i)
    (x0 x1 : Vec F S1024x3 .f32) (x2 : Vec F S1024x1 .f32) (x3 : Vec F S1x1024 .f32) (xo : Vec F S1x1 .f32) (s : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s.rm ∗ owns (c : Thread nD τ) arg8 fullShare s.cm ∗ owns (c : Thread nD τ) arg9 fullShare s.sr ∗ owns (c : Thread nD τ) arg10 fullShare s.sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outv (step i x0 x1 x2 x3 s)) ∗ owns (c : Thread nD τ) arg7 fullShare (step i x0 x1 x2 x3 s).rm ∗ owns (c : Thread nD τ) arg8 fullShare (step i x0 x1 x2 x3 s).cm ∗ owns (c : Thread nD τ) arg9 fullShare (step i x0 x1 x2 x3 s).sr ∗ owns (c : Thread nD τ) arg10 fullShare (step i x0 x1 x2 x3 s).sc) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  have hstep : step i x0 x1 x2 x3 s = ⟨k0_pay11 x0 x1 x2 x3 s.rm, upd s.cm i (k0_pay3 (k0_pay12 x0 x1 x2 x3) (slice s.cm i)), k0_pay4 s.sr (k0_pay11 x0 x1 x2 x3 s.rm), k0_pay5 s.sc (slice (upd s.cm i (k0_pay3 (k0_pay12 x0 x1 x2 x3) (slice s.cm i))) i)⟩ := by
    simp only [step, if_neg hc1, if_neg hc2, if_neg hc3, if_pos hc4, if_pos hc5, if_pos hc6]
  rw [hstep]
  simp only [outv]
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, ⟨%g2, %hg2, HS2⟩, ⟨%g3, %hg3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hg0; obtain rfl := harg8.eq_unread hg1; obtain rfl := harg9.eq_unread hg2; obtain rfl := harg10.eq_unread hg3
  sl_exec (disch := first | exact hc1 | exact hc2 | exact hc3 | exact hc4 | exact hc5 | exact hc6 | exact hc7)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    swap
    · iexact H4
    ipureintro
    (try sl_unfold_run_names); simp only [read_writes_whole2, readAt_whole2, readCov_whole2]
    refine congrArg (fun z => k0_pay6 (k0_pay4 s.sr (k0_pay11 x0 x1 x2 x3 s.rm)) (k0_pay5 s.sc z)) ?_
    refine (View.readCov_cons_toLoadRect arg8.view (Rect.unit (s := S1x8192) (k0_off2 i) S1x1024.size (offs_inb i)) _ []).trans ?_
    rw [slice_upd]
    exact congrArg (k0_pay3 (k0_pay12 x0 x1 x2 x3)) (readAt_slice arg8 harg8 i _ s.cm)
  isplitl [HS0]
  · iexists _; isplitr
    swap
    · iexact HS0
    ipureintro
    (try sl_unfold_run_names); simp only [read_writes_whole2, readAt_whole2]
  isplitl [HS1]
  · iexists _; isplitr
    swap
    · iexact HS1
    ipureintro
    (try sl_unfold_run_names); simp only [readAt_whole2]
    refine (read_writes_slice arg8 harg8 i _ s.cm _).trans ?_
    refine congrArg (fun z => upd s.cm i (k0_pay3 (k0_pay12 x0 x1 x2 x3) z)) ?_
    exact readAt_slice arg8 harg8 i _ s.cm
  isplitl [HS2]
  · iexists _; isplitr
    swap
    · iexact HS2
    ipureintro
    (try sl_unfold_run_names); simp only [read_writes_whole2, readAt_whole2, readCov_whole2]
  iexists _; isplitr
  swap
  · iexact HS3
  ipureintro
  (try sl_unfold_run_names); simp only [read_writes_whole2, readAt_whole2]
  refine congrArg (k0_pay5 s.sc) ?_
  refine (View.readCov_cons_toLoadRect arg8.view (Rect.unit (s := S1x8192) (k0_off2 i) S1x1024.size (offs_inb i)) _ []).trans ?_
  rw [slice_upd]
  exact congrArg (k0_pay3 (k0_pay12 x0 x1 x2 x3)) (readAt_slice arg8 harg8 i _ s.cm)
end Cert.Kernel.Chamfer

end
-- ==== Proof.KB.RunAll.lean ====
/-
  The kernel body at any grid point, from the nine kinds of point: it takes the four scratch arrays from a state `s`
  to `step` of it, leaves the input blocks as found, and stores the result block only at the last point.
-/
import proofs.«150379_j32186484916784_1_alg».proof.Proof.KB.RunFF
import proofs.«150379_j32186484916784_1_alg».proof.Proof.KB.RunFM
import proofs.«150379_j32186484916784_1_alg».proof.Proof.KB.RunFL
import proofs.«150379_j32186484916784_1_alg».proof.Proof.KB.RunMF
import proofs.«150379_j32186484916784_1_alg».proof.Proof.KB.RunMM
import proofs.«150379_j32186484916784_1_alg».proof.Proof.KB.RunML
import proofs.«150379_j32186484916784_1_alg».proof.Proof.KB.RunLF
import proofs.«150379_j32186484916784_1_alg».proof.Proof.KB.RunLM
import proofs.«150379_j32186484916784_1_alg».proof.Proof.KB.RunLL
import proofs.«150379_j32186484916784_1_alg».proof.Proof.KB.RunLib
import Idealize.ShloMosaic.Lib.Tactic

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Any point but the last: the result block's buffer is handed back as found. -/
theorem run_idle (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (arg10 : Memref sig .tc .vmem S1x1 .f32) (harg10 : arg10.IsWhole)
    (h7 : ¬cond7 i)
    (x0 x1 : Vec F S1024x3 .f32) (x2 : Vec F S1024x1 .f32) (x3 : Vec F S1x1024 .f32) (xo : Vec F S1x1 .f32) (s : St F)
    (E : Set ℕ) (K : PUnit → sProp 𝕄) (s' : St F) (hs : step i x0 x1 x2 x3 s = s') :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s.rm ∗ owns (c : Thread nD τ) arg8 fullShare s.cm ∗ owns (c : Thread nD τ) arg9 fullShare s.sr ∗ owns (c : Thread nD τ) arg10 fullShare s.sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s'.rm ∗ owns (c : Thread nD τ) arg8 fullShare s'.cm ∗ owns (c : Thread nD τ) arg9 fullShare s'.sr ∗ owns (c : Thread nD τ) arg10 fullShare s'.sc) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  subst hs
  by_cases a0 : (i 0).val = 0
  · by_cases b0 : (i 1).val = 0
    · exact run_FF c i arg2 harg2 arg3 harg3 arg4 harg4 arg5 harg5 arg6 harg6 arg7 harg7 arg8 harg8 arg9 harg9 arg10 harg10 ((cond1_iff i).2 (by omega)) ((cond2_iff i).2 (by omega)) ((cond3_iff i).2 (by omega)) (fun h => absurd ((cond4_iff i).1 h) (by omega)) (fun h => absurd ((cond5_iff i).1 h) (by omega)) (fun h => absurd ((cond6_iff i).1 h) (by omega)) h7 x0 x1 x2 x3 xo s E K
    · by_cases b7 : (i 1).val = 7
      · exact run_FL c i arg2 harg2 arg3 harg3 arg4 harg4 arg5 harg5 arg6 harg6 arg7 harg7 arg8 harg8 arg9 harg9 arg10 harg10 (fun h => absurd ((cond1_iff i).1 h) (by omega)) (fun h => absurd ((cond2_iff i).1 h) (by omega)) ((cond3_iff i).2 (by omega)) (fun h => absurd ((cond4_iff i).1 h) (by omega)) ((cond5_iff i).2 (by omega)) (fun h => absurd ((cond6_iff i).1 h) (by omega)) h7 x0 x1 x2 x3 xo s E K
      · exact run_FM c i arg2 harg2 arg3 harg3 arg4 harg4 arg5 harg5 arg6 harg6 arg7 harg7 arg8 harg8 arg9 harg9 arg10 harg10 (fun h => absurd ((cond1_iff i).1 h) (by omega)) (fun h => absurd ((cond2_iff i).1 h) (by omega)) ((cond3_iff i).2 (by omega)) (fun h => absurd ((cond4_iff i).1 h) (by omega)) (fun h => absurd ((cond5_iff i).1 h) (by omega)) (fun h => absurd ((cond6_iff i).1 h) (by omega)) h7 x0 x1 x2 x3 xo s E K
  · by_cases a7 : (i 0).val = 7
    · by_cases b0 : (i 1).val = 0
      · exact run_LF c i arg2 harg2 arg3 harg3 arg4 harg4 arg5 harg5 arg6 harg6 arg7 harg7 arg8 harg8 arg9 harg9 arg10 harg10 (fun h => absurd ((cond1_iff i).1 h) (by omega)) ((cond2_iff i).2 (by omega)) (fun h => absurd ((cond3_iff i).1 h) (by omega)) ((cond4_iff i).2 (by omega)) (fun h => absurd ((cond5_iff i).1 h) (by omega)) ((cond6_iff i).2 (by omega)) h7 x0 x1 x2 x3 xo s E K
      · by_cases b7 : (i 1).val = 7
        · exact absurd ((cond7_iff i).2 ⟨a7, b7⟩) h7
        · exact run_LM c i arg2 harg2 arg3 harg3 arg4 harg4 arg5 harg5 arg6 harg6 arg7 harg7 arg8 harg8 arg9 harg9 arg10 harg10 (fun h => absurd ((cond1_iff i).1 h) (by omega)) (fun h => absurd ((cond2_iff i).1 h) (by omega)) (fun h => absurd ((cond3_iff i).1 h) (by omega)) ((cond4_iff i).2 (by omega)) (fun h => absurd ((cond5_iff i).1 h) (by omega)) ((cond6_iff i).2 (by omega)) h7 x0 x1 x2 x3 xo s E K
    · by_cases b0 : (i 1).val = 0
      · exact run_MF c i arg2 harg2 arg3 harg3 arg4 harg4 arg5 harg5 arg6 harg6 arg7 harg7 arg8 harg8 arg9 harg9 arg10 harg10 (fun h => absurd ((cond1_iff i).1 h) (by omega)) ((cond2_iff i).2 (by omega)) (fun h => absurd ((cond3_iff i).1 h) (by omega)) ((cond4_iff i).2 (by omega)) (fun h => absurd ((cond5_iff i).1 h) (by omega)) (fun h => absurd ((cond6_iff i).1 h) (by omega)) h7 x0 x1 x2 x3 xo s E K
      · by_cases b7 : (i 1).val = 7
        · exact run_ML c i arg2 harg2 arg3 harg3 arg4 harg4 arg5 harg5 arg6 harg6 arg7 harg7 arg8 harg8 arg9 harg9 arg10 harg10 (fun h => absurd ((cond1_iff i).1 h) (by omega)) (fun h => absurd ((cond2_iff i).1 h) (by omega)) (fun h => absurd ((cond3_iff i).1 h) (by omega)) ((cond4_iff i).2 (by omega)) ((cond5_iff i).2 (by omega)) (fun h => absurd ((cond6_iff i).1 h) (by omega)) h7 x0 x1 x2 x3 xo s E K
        · exact run_MM c i arg2 harg2 arg3 harg3 arg4 harg4 arg5 harg5 arg6 harg6 arg7 harg7 arg8 harg8 arg9 harg9 arg10 harg10 (fun h => absurd ((cond1_iff i).1 h) (by omega)) (fun h => absurd ((cond2_iff i).1 h) (by omega)) (fun h => absurd ((cond3_iff i).1 h) (by omega)) ((cond4_iff i).2 (by omega)) (fun h => absurd ((cond5_iff i).1 h) (by omega)) (fun h => absurd ((cond6_iff i).1 h) (by omega)) h7 x0 x1 x2 x3 xo s E K

/-- The last point: the result block receives `outv` of the final state. -/
theorem run_last (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (arg10 : Memref sig .tc .vmem S1x1 .f32) (harg10 : arg10.IsWhole)
    (h7 : cond7 i)
    (x0 x1 : Vec F S1024x3 .f32) (x2 : Vec F S1024x1 .f32) (x3 : Vec F S1x1024 .f32) (xo : Vec F S1x1 .f32) (s : St F)
    (E : Set ℕ) (K : PUnit → sProp 𝕄) (s' : St F) (hs : step i x0 x1 x2 x3 s = s') :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s.rm ∗ owns (c : Thread nD τ) arg8 fullShare s.cm ∗ owns (c : Thread nD τ) arg9 fullShare s.sr ∗ owns (c : Thread nD τ) arg10 fullShare s.sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outv s') ∗ owns (c : Thread nD τ) arg7 fullShare s'.rm ∗ owns (c : Thread nD τ) arg8 fullShare s'.cm ∗ owns (c : Thread nD τ) arg9 fullShare s'.sr ∗ owns (c : Thread nD τ) arg10 fullShare s'.sc) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  subst hs
  obtain ⟨a7, b7⟩ := (cond7_iff i).1 h7
  exact run_LL c i arg2 harg2 arg3 harg3 arg4 harg4 arg5 harg5 arg6 harg6 arg7 harg7 arg8 harg8 arg9 harg9 arg10 harg10 (fun h => absurd ((cond1_iff i).1 h) (by omega)) (fun h => absurd ((cond2_iff i).1 h) (by omega)) (fun h => absurd ((cond3_iff i).1 h) (by omega)) ((cond4_iff i).2 (by omega)) ((cond5_iff i).2 (by omega)) ((cond6_iff i).2 (by omega)) h7 x0 x1 x2 x3 xo s E K

end Cert.Kernel.Chamfer

end
-- ==== Proof.KB.Indep.lean ====
/-
  The two running sums after the last grid point do not depend on what the scratch arrays held before the first:
  the first point resets both sums and the row minima, and every slice of the column minima is overwritten during
  the first row block before anything reads it.
-/
import proofs.«150379_j32186484916784_1_alg».proof.Proof.KB.State

set_option maxRecDepth 16384

noncomputable section

namespace Cert.Kernel.Chamfer

open Cert.Kernel Cert.Kernel.Gen
open Idealize.ShloMosaic

variable {F : FTy → Type} [FloatOps F]

namespace Indep

/-! ## The slice of a point, as a condition on the column -/

/-- Index `y` of the column minima lies in the slice point `i` works on. -/
def InSl (i : grid0.Coords) (y : S1x8192.Idx) : Prop :=
  ∀ a, (k0_off2 i) a ≤ (y a).val ∧ (y a).val < (k0_off2 i) a + S1x1024.size a

/-- The slice of point `i` is the columns `1024 * j .. 1024 * j + 1023`, `j` its column block. -/
theorem inSl_iff (i : grid0.Coords) (y : S1x8192.Idx) :
    InSl i y ↔ (1024 * (i 1).val ≤ (y 1).val ∧ (y 1).val < 1024 * (i 1).val + 1024) := by
  unfold InSl
  rw [k0_off2_eq i]
  constructor
  · intro h
    exact h 1
  · intro h a
    have h0 : (y 0).val < 1 := (y 0).isLt
    fin_cases a
    · exact ⟨Nat.zero_le _, by show (y 0).val < 0 + 1; omega⟩
    · exact h

/-- Reading a point's slice sees only the columns of that slice. -/
theorem slice_congr (cm cm' : Vec F S1x8192 .f32) (i : grid0.Coords)
    (h : ∀ y : S1x8192.Idx, 1024 * (i 1).val ≤ (y 1).val → (y 1).val < 1024 * (i 1).val + 1024 → cm y = cm' y) :
    slice cm i = slice cm' i := by
  funext x
  show cm ((Rect.unit (s := S1x8192) (k0_off2 i) S1x1024.size (offs_inb i)).idx x) = cm' ((Rect.unit (s := S1x8192) (k0_off2 i) S1x1024.size (offs_inb i)).idx x)
  have hx : (x 1).val < 1024 := (x 1).isLt
  have e : (((Rect.unit (s := S1x8192) (k0_off2 i) S1x1024.size (offs_inb i)).idx x) 1).val = 1024 * (i 1).val + (x 1).val := by
    show (k0_off2 i) 1 + 1 * (x 1).val = _
    rw [k0_off2_eq i, Nat.one_mul]
    rfl
  apply h
  · rw [e]; omega
  · rw [e]; omega

/-- Replacing a point's slice: inside the slice only the new values matter, outside only the old ones. -/
theorem upd_congr (cm cm' : Vec F S1x8192 .f32) (i : grid0.Coords) (w w' : Vec F S1x1024 .f32) (y : S1x8192.Idx)
    (hw : w = w') (h : ¬ InSl i y → cm y = cm' y) : upd cm i w y = upd cm' i w' y := by
  subst hw
  unfold upd
  by_cases hy : ∀ a, (k0_off2 i) a ≤ (y a).val ∧ (y a).val < (k0_off2 i) a + S1x1024.size a
  · rw [dif_pos hy, dif_pos hy]
  · rw [dif_neg hy, dif_neg hy]
    exact h hy

/-! ## The parts of one point -/

section Parts

variable (i : grid0.Coords) (x0 x1 : Vec F S1024x3 .f32) (x2 : Vec F S1024x1 .f32) (x3 : Vec F S1x1024 .f32) (s : St F)

theorem step_rm : (step i x0 x1 x2 x3 s).rm = k0_pay11 x0 x1 x2 x3 (if cond2 i then k0_pay9 else s.rm) := rfl

theorem step_sr : (step i x0 x1 x2 x3 s).sr
    = if cond5 i then k0_pay4 (if cond1 i then k0_pay7 else s.sr) (step i x0 x1 x2 x3 s).rm
      else (if cond1 i then k0_pay7 else s.sr) := rfl

theorem step_sc : (step i x0 x1 x2 x3 s).sc
    = if cond6 i then k0_pay5 (if cond1 i then k0_pay8 else s.sc) (slice (step i x0 x1 x2 x3 s).cm i)
      else (if cond1 i then k0_pay8 else s.sc) := rfl

/-- In the first row block the point's slice is overwritten. -/
theorem step_cm_first (h0 : (i 0).val = 0) :
    (step i x0 x1 x2 x3 s).cm = upd s.cm i (k0_pay2 (k0_pay12 x0 x1 x2 x3)) := by
  have h3 : cond3 i := (cond3_iff i).2 h0
  have h4 : ¬ cond4 i := fun h => (cond4_iff i).1 h h0
  show (if cond4 i then upd (if cond3 i then upd s.cm i (k0_pay2 (k0_pay12 x0 x1 x2 x3)) else s.cm) i
          (k0_pay3 (k0_pay12 x0 x1 x2 x3) (slice (if cond3 i then upd s.cm i (k0_pay2 (k0_pay12 x0 x1 x2 x3)) else s.cm) i))
        else (if cond3 i then upd s.cm i (k0_pay2 (k0_pay12 x0 x1 x2 x3)) else s.cm)) = _
  rw [if_neg h4, if_pos h3]

/-- In the later row blocks the point's slice is lowered, reading that slice only. -/
theorem step_cm_later (h0 : (i 0).val ≠ 0) :
    (step i x0 x1 x2 x3 s).cm = upd s.cm i (k0_pay3 (k0_pay12 x0 x1 x2 x3) (slice s.cm i)) := by
  have h3 : ¬ cond3 i := fun h => h0 ((cond3_iff i).1 h)
  have h4 : cond4 i := (cond4_iff i).2 h0
  show (if cond4 i then upd (if cond3 i then upd s.cm i (k0_pay2 (k0_pay12 x0 x1 x2 x3)) else s.cm) i
          (k0_pay3 (k0_pay12 x0 x1 x2 x3) (slice (if cond3 i then upd s.cm i (k0_pay2 (k0_pay12 x0 x1 x2 x3)) else s.cm) i))
        else (if cond3 i then upd s.cm i (k0_pay2 (k0_pay12 x0 x1 x2 x3)) else s.cm)) = _
  rw [if_pos h4, if_neg h3]

end Parts

/-! ## Agreement of two runs -/

/-- Two states agree but for the columns of the column minima from `w` on. -/
def Agree (w : ℕ) (s s' : St F) : Prop :=
  s.rm = s'.rm ∧ s.sr = s'.sr ∧ s.sc = s'.sc ∧ ∀ y : S1x8192.Idx, (y 1).val < w → s.cm y = s'.cm y

/-- One point keeps agreement once the column minima after it agree below `w`, the point's slice lying below `w`:
the row minima and the two sums follow by congruence (a part that the point resets needs no agreement before). -/
theorem step_agree_of_cm (i : grid0.Coords) (x0 x1 : Vec F S1024x3 .f32) (x2 : Vec F S1024x1 .f32)
    (x3 : Vec F S1x1024 .f32) (s s' : St F) (w : ℕ)
    (hrm : cond2 i ∨ s.rm = s'.rm) (hsr : cond1 i ∨ s.sr = s'.sr) (hsc : cond1 i ∨ s.sc = s'.sc)
    (hsl : 1024 * (i 1).val + 1024 ≤ w)
    (hcm : ∀ y : S1x8192.Idx, (y 1).val < w → (step i x0 x1 x2 x3 s).cm y = (step i x0 x1 x2 x3 s').cm y) :
    Agree w (step i x0 x1 x2 x3 s) (step i x0 x1 x2 x3 s') := by
  have e_rm : (step i x0 x1 x2 x3 s).rm = (step i x0 x1 x2 x3 s').rm := by
    rw [step_rm, step_rm]
    rcases hrm with h | h
    · rw [if_pos h, if_pos h]
    · rw [h]
  have e_sr1 : (if cond1 i then (k0_pay7 : Vec F S1x1 .f32) else s.sr) = (if cond1 i then k0_pay7 else s'.sr) := by
    rcases hsr with h | h
    · rw [if_pos h, if_pos h]
    · rw [h]
  have e_sc1 : (if cond1 i then (k0_pay8 : Vec F S1x1 .f32) else s.sc) = (if cond1 i then k0_pay8 else s'.sc) := by
    rcases hsc with h | h
    · rw [if_pos h, if_pos h]
    · rw [h]
  have e_sl : slice (step i x0 x1 x2 x3 s).cm i = slice (step i x0 x1 x2 x3 s').cm i :=
    slice_congr _ _ i (fun y _ h2 => hcm y (by omega))
  have e_sr : (step i x0 x1 x2 x3 s).sr = (step i x0 x1 x2 x3 s').sr := by
    rw [step_sr, step_sr, e_rm, e_sr1]
  have e_sc : (step i x0 x1 x2 x3 s).sc = (step i x0 x1 x2 x3 s').sc := by
    rw [step_sc, step_sc, e_sl, e_sc1]
  exact ⟨e_rm, e_sr, e_sc, hcm⟩

/-- The first point makes any two states agree below column 1024. -/
theorem agree_zero (x0 x1 : Vec F S1024x3 .f32) (x2 : Vec F S1024x1 .f32) (x3 : Vec F S1x1024 .f32) (s s' : St F) :
    Agree 1024 (step (co 0) x0 x1 x2 x3 s) (step (co 0) x0 x1 x2 x3 s') := by
  have h0 : ((co 0) 0).val = 0 := co_val0 0 (by omega)
  have h1 : ((co 0) 1).val = 0 := co_val1 0 (by omega)
  have c1 : cond1 (co 0) := (cond1_iff _).2 ⟨h0, h1⟩
  have c2 : cond2 (co 0) := (cond2_iff _).2 h1
  refine step_agree_of_cm _ _ _ _ _ s s' 1024 (.inl c2) (.inl c1) (.inl c1) (by rw [h1]) ?_
  intro y hy
  rw [step_cm_first _ _ _ _ _ _ h0, step_cm_first _ _ _ _ _ _ h0]
  apply upd_congr _ _ _ _ _ _ rfl
  intro hn
  exfalso
  apply hn
  rw [inSl_iff, h1]
  omega

/-- A later point of the first row block overwrites the next slice: agreement grows by 1024 columns. -/
theorem agree_first (n : ℕ) (hn : n + 1 < 8) (x0 x1 : Vec F S1024x3 .f32) (x2 : Vec F S1024x1 .f32)
    (x3 : Vec F S1x1024 .f32) (s s' : St F) (h : Agree (1024 * (n + 1)) s s') :
    Agree (1024 * (n + 2)) (step (co (n + 1)) x0 x1 x2 x3 s) (step (co (n + 1)) x0 x1 x2 x3 s') := by
  have h0 : ((co (n + 1)) 0).val = 0 := by rw [co_val0 _ (by omega)]; omega
  have h1 : ((co (n + 1)) 1).val = n + 1 := by rw [co_val1 _ (by omega)]; omega
  obtain ⟨a, b, c, d⟩ := h
  refine step_agree_of_cm _ _ _ _ _ s s' _ (.inr a) (.inr b) (.inr c) (by rw [h1]; omega) ?_
  intro y hy
  rw [step_cm_first _ _ _ _ _ _ h0, step_cm_first _ _ _ _ _ _ h0]
  apply upd_congr _ _ _ _ _ _ rfl
  intro hn'
  apply d
  rw [inSl_iff, h1] at hn'
  omega

/-- A point of a later row block reads and changes only its own slice: full agreement is kept. -/
theorem agree_later (n : ℕ) (h8 : 8 ≤ n + 1) (h64 : n + 1 < 64) (x0 x1 : Vec F S1024x3 .f32) (x2 : Vec F S1024x1 .f32)
    (x3 : Vec F S1x1024 .f32) (s s' : St F) (h : Agree 8192 s s') :
    Agree 8192 (step (co (n + 1)) x0 x1 x2 x3 s) (step (co (n + 1)) x0 x1 x2 x3 s') := by
  have h0 : ((co (n + 1)) 0).val ≠ 0 := by rw [co_val0 _ h64]; omega
  have h1 : ((co (n + 1)) 1).val < 8 := by rw [co_val1 _ h64]; omega
  obtain ⟨a, b, c, d⟩ := h
  refine step_agree_of_cm _ _ _ _ _ s s' 8192 (.inr a) (.inr b) (.inr c) (by omega) ?_
  intro y hy
  rw [step_cm_later _ _ _ _ _ _ h0, step_cm_later _ _ _ _ _ _ h0]
  apply upd_congr
  · rw [slice_congr s.cm s'.cm _ (fun y _ h2 => d y (by omega))]
  · intro _
    exact d y hy

/-- How many leading columns of the column minima two runs agree on after point `n`. -/
def W (n : ℕ) : ℕ := if n < 8 then 1024 * (n + 1) else 8192

/-- After point `n` the two runs agree below column `W n`, whatever the two starting states. -/
theorem agree_iter (X0 X1 : ℕ → Vec F S1024x3 .f32) (X2 : ℕ → Vec F S1024x1 .f32) (X3 : ℕ → Vec F S1x1024 .f32)
    (s₀ s₀' : St F) : ∀ n, n < 64 → Agree (W n) (iter X0 X1 X2 X3 s₀ n) (iter X0 X1 X2 X3 s₀' n)
  | 0, _ => by
    rw [iter_zero, iter_zero]
    exact agree_zero _ _ _ _ _ _
  | n + 1, h => by
    have ih := agree_iter X0 X1 X2 X3 s₀ s₀' n (by omega)
    rw [iter_succ, iter_succ]
    by_cases h8 : n + 1 < 8
    · have e1 : W n = 1024 * (n + 1) := by unfold W; rw [if_pos (by omega)]
      have e2 : W (n + 1) = 1024 * (n + 2) := by unfold W; rw [if_pos h8]
      rw [e1] at ih
      rw [e2]
      exact agree_first n h8 _ _ _ _ _ _ ih
    · have e1 : W n = 8192 := by unfold W; split <;> omega
      have e2 : W (n + 1) = 8192 := by unfold W; rw [if_neg h8]
      rw [e1] at ih
      rw [e2]
      exact agree_later n (by omega) h _ _ _ _ _ _ ih

end Indep

open Indep in
theorem indep (X0 X1 : ℕ → Vec F S1024x3 .f32) (X2 : ℕ → Vec F S1024x1 .f32) (X3 : ℕ → Vec F S1x1024 .f32) (s₀ s₀' : St F) :
    (iter X0 X1 X2 X3 s₀ 63).sr = (iter X0 X1 X2 X3 s₀' 63).sr
      ∧ (iter X0 X1 X2 X3 s₀ 63).sc = (iter X0 X1 X2 X3 s₀' 63).sc := by
  have h := agree_iter X0 X1 X2 X3 s₀ s₀' 63 (by omega)
  exact ⟨h.2.1, h.2.2.1⟩

end Cert.Kernel.Chamfer

end
-- ==== Proof.KB.Body.lean ====
/-
  The frame of the kernel's program: the pipeline's proof data, with the four scratch arrays followed from point to
  point by `step`, the body's obligation at every grid point, and the run of @main.

  Before the first point the scratch arrays hold anything; after point `n` they hold `stAt s₀ n`, the `n`-fold
  `step` from SOME contents `s₀` before the first point. The result block is stored at the last point only, and
  what is stored there does not depend on `s₀` (KI/Indep.lean): the proof data name it `outFin`.
-/
import proofs.«150379_j32186484916784_1_alg».proof.Proof.KB.RunAll
import proofs.«150379_j32186484916784_1_alg».proof.Proof.KB.Indep

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The state along the grid -/

/-- The four input blocks of point `n`. -/
def B0 (c : Dev nD) (n : ℕ) : Vec F S1024x3 .f32 := iblk m c 0 (pt n)
def B1 (c : Dev nD) (n : ℕ) : Vec F S1024x3 .f32 := iblk m c 1 (pt n)
def B2 (c : Dev nD) (n : ℕ) : Vec F S1024x1 .f32 := iblk m c 2 (pt n)
def B3 (c : Dev nD) (n : ℕ) : Vec F S1x1024 .f32 := iblk m c 3 (pt n)

/-- The scratch arrays after point `n`, from their contents `s₀` before the first point. -/
def stAt (c : Dev nD) (s₀ : St F) (n : ℕ) : St F := iter (B0 m c) (B1 m c) (B2 m c) (B3 m c) s₀ n

/-- Some state (what the scratch arrays hold before the first point does not matter). -/
def st0 : St F := ⟨k0_pay9, constant S1x8192 .f32 0x00000000#32, k0_pay7, k0_pay8⟩

/-- What the last point stores into the result block. -/
def outFin (c : Dev nD) : Vec F S1x1 .f32 := outv (stAt m c st0 63)

theorem outv_indep (c : Dev nD) (s₀ : St F) : outv (stAt m c s₀ 63) = outFin m c := by
  unfold outFin outv stAt
  obtain ⟨h1, h2⟩ := indep (B0 m c) (B1 m c) (B2 m c) (B3 m c) s₀ st0
  rw [h1, h2]

/-- The first point steps from the contents before it. -/
theorem stAt_first (c : Dev nD) (s₀ : St F) (t : Fin cfg0.N) (hz : t.val = 0) :
    step (grid0.coords t) (iblk m c 0 t) (iblk m c 1 t) (iblk m c 2 t) (iblk m c 3 t) s₀ = stAt m c s₀ t.val := by
  obtain ⟨n, hn⟩ := t
  obtain rfl : n = 0 := hz
  unfold stAt; rw [iter_zero]; unfold B0 B1 B2 B3 co
  rw [pt_val ⟨0, hn⟩]

/-- A later point steps from what the point before left. -/
theorem stAt_later (c : Dev nD) (s₀ : St F) (t : Fin cfg0.N) (hz : t.val ≠ 0) :
    step (grid0.coords t) (iblk m c 0 t) (iblk m c 1 t) (iblk m c 2 t) (iblk m c 3 t) (stAt m c s₀ (t.val - 1)) = stAt m c s₀ t.val := by
  obtain ⟨n, hn⟩ := t
  cases n with
  | zero => exact absurd rfl hz
  | succ n =>
    show step _ _ _ _ _ (stAt m c s₀ n) = stAt m c s₀ (n + 1)
    unfold stAt; rw [iter_succ]; unfold B0 B1 B2 B3 co
    rw [pt_val ⟨n + 1, hn⟩]

/-! ## The memrefs the body is called with -/

abbrev ms0 (t : Fin cfg0.N) : Memref sig .tc .vmem S1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The four scratch arrays: whole scoped buffers of the kernel's own. -/
abbrev scM0 : Memref sig .tc .vmem S1024x1 .f32 := Memref.whole cc0_scratch0
abbrev scM1 : Memref sig .tc .vmem S1x8192 .f32 := Memref.whole cc0_scratch1
abbrev scM2 : Memref sig .tc .vmem S1x1 .f32 := Memref.whole cc0_scratch2
abbrev scM3 : Memref sig .tc .vmem S1x1 .f32 := Memref.whole cc0_scratch3

/-- What the launch hands the region: the four scratch arrays at some contents and the generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- The result window is idle, and not written back, at every point but the last. -/
theorem idleAt4 : ∀ t : Fin cfg0.N, ¬cond7 (grid0.coords t) → cfg0.idle 4 (grid0.coords t) = true := by decide +kernel
theorem noFlush4 : ∀ t : Fin cfg0.N, ¬cond7 (grid0.coords t) → (cfg0.win 4).flush t = false := by decide +kernel
theorem liveAt4 : ∀ t : Fin cfg0.N, cond7 (grid0.coords t) → cfg0.idle 4 (grid0.coords t) = false := by decide +kernel
theorem last_of_cond7 : ∀ t : Fin cfg0.N, cond7 (grid0.coords t) → t.val = 63 :=
  (by decide +kernel : ∀ t : Fin grid0.N, cond7 (grid0.coords t) → t.val = 63)

/-! ## The invariant and the proof data -/

/-- The region invariant before point `n`. -/
def PhiS (c : Dev nD) : ℕ → sProp 𝕄
  | 0 => Pipeline.ΦA spec0 c
  | n + 1 => iprop(iprop(∃ s₀ : St F, owns (c : Thread nD τ) scM0 fullShare (stAt m c s₀ n).rm ∗ owns (c : Thread nD τ) scM1 fullShare (stAt m c s₀ n).cm
      ∗ owns (c : Thread nD τ) scM2 fullShare (stAt m c s₀ n).sr ∗ owns (c : Thread nD τ) scM3 fullShare (stAt m c s₀ n).sc) ∗ (∃ r, prngReg c r))

theorem PhiS_zero (c : Dev nD) (n : ℕ) (hz : n = 0) : PhiS m c n = Pipeline.ΦA spec0 c := by subst hz; rfl
theorem PhiS_succ (c : Dev nD) (n : ℕ) :
    PhiS m c (n + 1) = iprop(iprop(∃ s₀ : St F, owns (c : Thread nD τ) scM0 fullShare (stAt m c s₀ n).rm ∗ owns (c : Thread nD τ) scM1 fullShare (stAt m c s₀ n).cm
      ∗ owns (c : Thread nD τ) scM2 fullShare (stAt m c s₀ n).sr ∗ owns (c : Thread nD τ) scM3 fullShare (stAt m c s₀ n).sc) ∗ (∃ r, prngReg c r)) := rfl
theorem PhiS_pos (c : Dev nD) (n : ℕ) (hz : n ≠ 0) :
    PhiS m c n = iprop(iprop(∃ s₀ : St F, owns (c : Thread nD τ) scM0 fullShare (stAt m c s₀ (n - 1)).rm ∗ owns (c : Thread nD τ) scM1 fullShare (stAt m c s₀ (n - 1)).cm
      ∗ owns (c : Thread nD τ) scM2 fullShare (stAt m c s₀ (n - 1)).sr ∗ owns (c : Thread nD τ) scM3 fullShare (stAt m c s₀ (n - 1)).sc) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outFin m c
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outFin m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  by_cases h7 : cond7 (grid0.coords t)
  · have ht : t.val = 63 := last_of_cond7 t h7
    have hz : t.val ≠ 0 := by omega
    rw [show (dats m 0 c).leavesExact 4 t = owns (c : Thread nD τ) (ms4 t) fullShare ((dats m 0 c).after 4 t) from by
      unfold Dat.leavesExact; rw [liveAt4 t h7], after4]
    rw [PhiS_castSucc m c t, PhiS_pos m c _ hz]
    iintro ⟨⟨⟨%s₀, HS0, HS1, HS2, HS3⟩, Hg⟩, Ho, ⟨%d0, H0⟩, ⟨%d1, H1⟩, ⟨%d2, H2⟩, ⟨%d3, H3⟩, ⟨%d4, H4⟩⟩
    have hout : outv (stAt m c s₀ t.val) = outFin m c := by rw [ht]; exact outv_indep m c s₀
    iapply (run_last c (grid0.coords t) _ _ _ _ _ _ _ _ _ _ _ _ _ _ _ _ _ _ h7 (iblk m c 0 t) (iblk m c 1 t) (iblk m c 2 t) (iblk m c 3 t) _
      (stAt m c s₀ (t.val - 1)) Set.univ _ (stAt m c s₀ t.val) (stAt_later m c s₀ t hz))
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    rw [hout]
    isplitl [HS0 HS1 HS2 HS3 Hg]
    · isplitl [HS0 HS1 HS2 HS3]
      · iexists s₀
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    iexact H4
  · rw [Dat.leavesExact_idle (dats m 0 c) 4 t (idleAt4 t h7) (noFlush4 t h7)]
    by_cases hz : t.val = 0
    · rw [PhiS_castSucc m c t, PhiS_zero m c _ hz, PhiA0_eq]
      iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩⟩
      iapply (run_idle c (grid0.coords t) _ _ _ _ _ _ _ _ _ _ _ _ _ _ _ _ _ _ h7 (iblk m c 0 t) (iblk m c 1 t) (iblk m c 2 t) (iblk m c 3 t) _
        (⟨e0, e1, e2, e3⟩ : St F) Set.univ _ (stAt m c ⟨e0, e1, e2, e3⟩ t.val) (stAt_first m c ⟨e0, e1, e2, e3⟩ t hz))
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitl [HS0 HS1 HS2 HS3]
        · iexists (⟨e0, e1, e2, e3⟩ : St F)
          isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ hz]
      iintro ⟨⟨⟨%s₀, HS0, HS1, HS2, HS3⟩, Hg⟩, Ho, ⟨%d0, H0⟩, ⟨%d1, H1⟩, ⟨%d2, H2⟩, ⟨%d3, H3⟩, ⟨%d4, H4⟩⟩
      iapply (run_idle c (grid0.coords t) _ _ _ _ _ _ _ _ _ _ _ _ _ _ _ _ _ _ h7 (iblk m c 0 t) (iblk m c 1 t) (iblk m c 2 t) (iblk m c 3 t) _
        (stAt m c s₀ (t.val - 1)) Set.univ _ (stAt m c s₀ t.val) (stAt_later m c s₀ t hz))
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitl [HS0 HS1 HS2 HS3]
        · iexists s₀
          isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives the scratch arrays back at some contents. -/
theorem hout (c : Dev nD) : (dats m 0 c).Φ (Fin.last cfg0.N) ⊢ Pipeline.ΦA spec0 c := by
  have hN : (Fin.last cfg0.N).val ≠ 0 := by rw [Fin.val_last]; have : cfg0.N = 64 := N_0; omega
  rw [show (dats m 0 c).Φ (Fin.last cfg0.N) = PhiS m c (Fin.last cfg0.N).val from rfl, PhiS_pos m c _ hN, PhiA0_eq]
  iintro ⟨⟨%s₀, HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-! ## The run and the frame -/

set_option backward.isDefEq.respectTransparency.types false in
/-- Every weakly fair execution of @main terminates, and every final state has every array of the pipeline at what the
    library computes from the proof data and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end, faults nowhere, and leaves the two clouds as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Chamfer

end
-- ==== Proof.KI.State.lean ====
/-
  The Chamfer kernel's grid point as a PURE step on what it keeps between points.

  The kernel walks an 8 x 8 grid of 1024 x 1024 tiles of the pairwise distance matrix, row block `i` outermost.
  Between points it keeps four scratch arrays: the running row minima of the current row block (`rm`, 1024 x 1),
  the running column minima of all 8192 columns (`cm`, 1 x 8192, updated one 1024-column slice per point), the sum
  of the finished row blocks' row minima (`sr`) and the sum of the finished column slices' column minima (`sc`).
  `step` is one grid point as a function of the four input blocks and of these four arrays, written with the
  body's named payloads; `iter` runs it along the grid; `outv` is what the last point stores into the result block.
  Everything here holds at every float instance.
-/
import proofs.«150379_j32186484916784_1_alg».proof.Proof.Gen.KernelIdeal.Frame
import proofs.«150379_j32186484916784_1_alg».proof.Proof.Gen.KernelIdeal.Skeleton
import Idealize.ShloMosaic.Lib.WritesUnit
import Idealize.ShloMosaic.Lib.Pipeline.Value

set_option maxRecDepth 16384

noncomputable section

namespace Cert.KernelIdeal.Chamfer

open Cert.KernelIdeal Cert.KernelIdeal.Gen
open Idealize.ShloMosaic Idealize.SL.Sem

variable {F : FTy → Type} [FloatOps F]

/-! ## The body's seven branch conditions, as the printed scalar chains -/

/-- first point of the grid: both running sums are reset -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- first column block of a row block: the row minima are reset to +inf -/
abbrev cond2 (i : grid0.Coords) : Prop := (Scalar.cmpi .ne (Scalar.extui (Scalar.cmpi .eq (BitVec.ofNat 32 (i 1).val) 0#32)) 0#32) = 1#1
/-- first row block: the column slice is overwritten -/
abbrev cond3 (i : grid0.Coords) : Prop := k0_cond3 i = 1#1
/-- later row blocks: the column slice is lowered -/
abbrev cond4 (i : grid0.Coords) : Prop := k0_cond4 i = 1#1
/-- last column block of a row block: its row minima are summed -/
abbrev cond5 (i : grid0.Coords) : Prop := (Scalar.cmpi .ne (Scalar.extui (Scalar.cmpi .eq (BitVec.ofNat 32 (i 1).val) 7#32)) 0#32) = 1#1
/-- last row block: the finished column slice is summed -/
abbrev cond6 (i : grid0.Coords) : Prop := k0_cond6 i = 1#1
/-- last point: the result is stored -/
abbrev cond7 (i : grid0.Coords) : Prop := k0_cond7 i = 1#1

theorem cond1_iff : ∀ i : grid0.Coords, cond1 i ↔ ((i 0).val = 0 ∧ (i 1).val = 0) := by decide +kernel
theorem cond2_iff : ∀ i : grid0.Coords, cond2 i ↔ (i 1).val = 0 := by decide +kernel
theorem cond3_iff : ∀ i : grid0.Coords, cond3 i ↔ (i 0).val = 0 := by decide +kernel
theorem cond4_iff : ∀ i : grid0.Coords, cond4 i ↔ (i 0).val ≠ 0 := by decide +kernel
theorem cond5_iff : ∀ i : grid0.Coords, cond5 i ↔ (i 1).val = 7 := by decide +kernel
theorem cond6_iff : ∀ i : grid0.Coords, cond6 i ↔ (i 0).val = 7 := by decide +kernel
theorem cond7_iff : ∀ i : grid0.Coords, cond7 i ↔ ((i 0).val = 7 ∧ (i 1).val = 7) := by decide +kernel

/-! ## The column slice a point works on -/

/-- The slice of the column minima that point `i` works on lies inside the array (columns `1024 * j` onwards). -/
theorem offs_inb : ∀ (i : grid0.Coords) a, (k0_off2 i) a + S1x1024.size a ≤ S1x8192.size a := by decide +kernel
theorem off1_eq (i : grid0.Coords) : k0_off1 i = k0_off2 i := rfl
theorem off3_eq (i : grid0.Coords) : k0_off3 i = k0_off2 i := rfl

/-- The point's slice of the column minima, read. -/
def slice (cm : Vec F S1x8192 .f32) (i : grid0.Coords) : Vec F S1x1024 .f32 :=
  View.ld cm (Rect.unit (k0_off2 i) S1x1024.size (offs_inb i))

/-- The column minima with the point's slice replaced by `w`. -/
def upd (cm : Vec F S1x8192 .f32) (i : grid0.Coords) (w : Vec F S1x1024 .f32) : Vec F S1x8192 .f32 :=
  fun y => if h : ∀ a, (k0_off2 i) a ≤ (y a).val ∧ (y a).val < (k0_off2 i) a + S1x1024.size a then
      w (Rect.unitLocal (s := S1x8192) (off := k0_off2 i) (size := S1x1024.size) y h)
    else cm y

/-! ## The state and one point -/

/-- What the kernel keeps between grid points. -/
structure St (F : FTy → Type) [FloatOps F] where
  rm : Vec F S1024x1 .f32
  cm : Vec F S1x8192 .f32
  sr : Vec F S1x1 .f32
  sc : Vec F S1x1 .f32

/-- One grid point: the four input blocks and the state before it give the state after it. -/
def step (i : grid0.Coords) (x0 x1 : Vec F S1024x3 .f32) (x2 : Vec F S1024x1 .f32) (x3 : Vec F S1x1024 .f32) (s : St F) : St F :=
  let sr1 : Vec F S1x1 .f32 := if cond1 i then k0_pay7 else s.sr
  let sc1 : Vec F S1x1 .f32 := if cond1 i then k0_pay8 else s.sc
  let rm1 : Vec F S1024x1 .f32 := if cond2 i then k0_pay9 else s.rm
  let rm2 : Vec F S1024x1 .f32 := k0_pay11 x0 x1 x2 x3 rm1
  let v32 : FVec F S1024 .f32 := k0_pay12 x0 x1 x2 x3
  let cm1 : Vec F S1x8192 .f32 := if cond3 i then upd s.cm i (k0_pay2 v32) else s.cm
  let cm2 : Vec F S1x8192 .f32 := if cond4 i then upd cm1 i (k0_pay3 v32 (slice cm1 i)) else cm1
  let sr2 : Vec F S1x1 .f32 := if cond5 i then k0_pay4 sr1 rm2 else sr1
  let sc2 : Vec F S1x1 .f32 := if cond6 i then k0_pay5 sc1 (slice cm2 i) else sc1
  ⟨rm2, cm2, sr2, sc2⟩

/-- What the last point stores into the result block, from the state AFTER that point. -/
def outv (s : St F) : Vec F S1x1 .f32 := k0_pay6 s.sr s.sc

/-! ## Along the grid -/

theorem N_pos : 0 < grid0.N := by decide
/-- Grid point number `n` (taken modulo the 64 points, so that it is total). -/
def pt (n : ℕ) : Fin cfg0.N := ⟨n % grid0.N, Nat.mod_lt _ N_pos⟩
theorem pt_val (t : Fin cfg0.N) : pt t.val = t := Fin.ext (Nat.mod_eq_of_lt t.isLt)
/-- Its coordinates: row block `n / 8`, column block `n % 8`. -/
def co (n : ℕ) : grid0.Coords := grid0.coords (pt n)
theorem co_val : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)
theorem co_val0 (n : ℕ) (h : n < 64) : ((co n) 0).val = n / 8 := by
  have := (co_val (pt n)).1; unfold co; rw [this]; show n % grid0.N / 8 = n / 8; rw [N_0, Nat.mod_eq_of_lt h]
theorem co_val1 (n : ℕ) (h : n < 64) : ((co n) 1).val = n % 8 := by
  have := (co_val (pt n)).2; unfold co; rw [this]; show n % grid0.N % 8 = n % 8; rw [N_0, Nat.mod_eq_of_lt h]

/-- The state after point `n`, from the state `s₀` before the first point and the four block sequences. -/
def iter (X0 X1 : ℕ → Vec F S1024x3 .f32) (X2 : ℕ → Vec F S1024x1 .f32) (X3 : ℕ → Vec F S1x1024 .f32) (s₀ : St F) : ℕ → St F
  | 0 => step (co 0) (X0 0) (X1 0) (X2 0) (X3 0) s₀
  | n + 1 => step (co (n + 1)) (X0 (n + 1)) (X1 (n + 1)) (X2 (n + 1)) (X3 (n + 1)) (iter X0 X1 X2 X3 s₀ n)

theorem iter_zero (X0 X1 : ℕ → Vec F S1024x3 .f32) (X2 : ℕ → Vec F S1024x1 .f32) (X3 : ℕ → Vec F S1x1024 .f32) (s₀ : St F) :
    iter X0 X1 X2 X3 s₀ 0 = step (co 0) (X0 0) (X1 0) (X2 0) (X3 0) s₀ := rfl
theorem iter_succ (X0 X1 : ℕ → Vec F S1024x3 .f32) (X2 : ℕ → Vec F S1024x1 .f32) (X3 : ℕ → Vec F S1x1024 .f32) (s₀ : St F) (n : ℕ) :
    iter X0 X1 X2 X3 s₀ (n + 1) = step (co (n + 1)) (X0 (n + 1)) (X1 (n + 1)) (X2 (n + 1)) (X3 (n + 1)) (iter X0 X1 X2 X3 s₀ n) := rfl

end Cert.KernelIdeal.Chamfer

end
-- ==== Proof.KI.RunLib.lean ====
/-
  Reading back what the body's stores leave: a store through the whole-buffer rectangle leaves its payload, a load
  through it of known contents reads them, and a store into the point's slice of the column minima leaves `upd`,
  a load of that slice reads `slice`.
-/
import proofs.«150379_j32186484916784_1_alg».proof.Proof.KI.State
import Idealize.ShloMosaic.Lib.Pipeline.FrameBody
import Idealize.ShloMosaic.Lib.Pipeline.Frame

set_option maxRecDepth 16384

noncomputable section

namespace Cert.KernelIdeal.Chamfer

open Cert.KernelIdeal Cert.KernelIdeal.Gen
open Idealize.ShloMosaic Idealize.SL.Sem

variable {F : FTy → Type} [FloatOps F]

theorem hz2 : (![0, 0] : Fin 2 → ℕ) = fun _ => 0 := by funext a; fin_cases a <;> rfl

/-- A load through the whole-buffer rectangle reads the contents. -/
theorem readAt_whole {S : Shape} (M : Memref sig .tc .vmem S .f32) (h : M.IsWhole) {off : Fin S.rank → ℕ}
    (hz : off = fun _ => 0) (inb : ∀ a, off a + S.size a ≤ S.size a) (x : Vec F S .f32) :
    View.readAt (Elt F) M.view (Rect.unit off S.size inb).toLoadRect (h.unread x) = x := by
  rw [View.readAt_eq_ld, h.read_unread, View.ld_unit_zero hz]

/-- A store through the whole-buffer rectangle, last, leaves its payload. -/
theorem read_writes_whole {S : Shape} (v : View sig .tc .vmem S .f32) (f : v.ty.Contents (Elt F)) {off : Fin S.rank → ℕ}
    (hz : off = fun _ => 0) (inb : ∀ a, off a + S.size a ≤ S.size a) (w : S.Idx → Elt F .f32)
    (L : List (View.Piece (Elt F) S .f32)) :
    v.read (Elt F) (v.writes (Elt F) f ((⟨Rect.unit off S.size inb, w⟩ : View.Piece (Elt F) S .f32) :: L)) = w := by
  subst hz
  exact (View.read_writes_eq_canon v f _ (fun y => ⟨_, List.mem_cons_self, by
    show y ∈ (Rect.whole S).set; rw [Rect.set_whole]; exact Finset.mem_univ y⟩)).trans
    (View.canon_cons_unit_zero rfl _ w L)

/-- A load through the whole-buffer rectangle of a rank-2 buffer reads the contents. -/
theorem readAt_whole2 {d : Fin 2 → ℕ} (M : Memref sig .tc .vmem (⟨2, d⟩ : Shape) .f32) (h : M.IsWhole)
    (inb : ∀ a, (![0, 0] : Fin 2 → ℕ) a + d a ≤ d a) (x : Vec F (⟨2, d⟩ : Shape) .f32) :
    View.readAt (Elt F) M.view (Rect.unit (s := (⟨2, d⟩ : Shape)) ![0, 0] d inb).toLoadRect (h.unread x) = x :=
  readAt_whole M h hz2 inb x

/-- A store through the whole-buffer rectangle of a rank-2 buffer, last, leaves its payload. -/
theorem read_writes_whole2 {d : Fin 2 → ℕ} (v : View sig .tc .vmem (⟨2, d⟩ : Shape) .f32) (f : v.ty.Contents (Elt F))
    (inb : ∀ a, (![0, 0] : Fin 2 → ℕ) a + d a ≤ d a) (w : (⟨2, d⟩ : Shape).Idx → Elt F .f32)
    (L : List (View.Piece (Elt F) (⟨2, d⟩ : Shape) .f32)) :
    v.read (Elt F) (v.writes (Elt F) f ((⟨Rect.unit (s := (⟨2, d⟩ : Shape)) ![0, 0] d inb, w⟩ : View.Piece (Elt F) (⟨2, d⟩ : Shape) .f32) :: L)) = w :=
  read_writes_whole v f hz2 inb w L

/-- A load of the point's slice of the column minima reads `slice`. -/
theorem readAt_slice (M : Memref sig .tc .vmem S1x8192 .f32) (h : M.IsWhole) (i : grid0.Coords)
    (inb : ∀ a, (k0_off2 i) a + S1x1024.size a ≤ S1x8192.size a) (cm : Vec F S1x8192 .f32) :
    View.readAt (Elt F) M.view (Rect.unit (s := S1x8192) (k0_off2 i) S1x1024.size inb).toLoadRect (h.unread cm) = slice cm i := by
  rw [View.readAt_eq_ld, h.read_unread]; rfl

/-- A store into the point's slice of the column minima leaves `upd`. -/
theorem read_writes_slice (M : Memref sig .tc .vmem S1x8192 .f32) (h : M.IsWhole) (i : grid0.Coords)
    (inb : ∀ a, (k0_off2 i) a + S1x1024.size a ≤ S1x8192.size a) (cm : Vec F S1x8192 .f32) (w : Vec F S1x1024 .f32) :
    M.view.read (Elt F) (M.view.writes (Elt F) (h.unread cm)
      [(⟨Rect.unit (s := S1x8192) (k0_off2 i) S1x1024.size inb, w⟩ : View.Piece (Elt F) S1x8192 .f32)]) = upd cm i w := by
  funext y
  rw [View.read_writes_cons_unit M.view (h.unread cm) inb w [] y rfl]
  unfold upd
  by_cases hy : ∀ a, (k0_off2 i) a ≤ (y a).val ∧ (y a).val < (k0_off2 i) a + S1x1024.size a
  · rw [dif_pos hy, dif_pos hy]
  · rw [dif_neg hy, dif_neg hy]
    show M.view.read (Elt F) (h.unread cm) y = cm y
    rw [h.read_unread]

end Cert.KernelIdeal.Chamfer

end
-- ==== Proof.KI.RunFF.lean ====
/-
  The first grid point: both running sums are reset, the row minima are reset to +inf and then lowered by the tile's row minima, and the point's slice of the column minima is overwritten by the tile's column minima.
-/
import proofs.«150379_j32186484916784_1_alg».proof.Proof.KI.RunLib
import Idealize.ShloMosaic.Lib.Tactic

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
theorem run_FF (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (arg10 : Memref sig .tc .vmem S1x1 .f32) (harg10 : arg10.IsWhole)
    (hc1 : cond1 i) (hc2 : cond2 i) (hc3 : cond3 i) (hc4 : ¬cond4 i) (hc5 : ¬cond5 i) (hc6 : ¬cond6 i) (hc7 : ¬cond7 i)
    (x0 x1 : Vec F S1024x3 .f32) (x2 : Vec F S1024x1 .f32) (x3 : Vec F S1x1024 .f32) (xo : Vec F S1x1 .f32) (s : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s.rm ∗ owns (c : Thread nD τ) arg8 fullShare s.cm ∗ owns (c : Thread nD τ) arg9 fullShare s.sr ∗ owns (c : Thread nD τ) arg10 fullShare s.sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (step i x0 x1 x2 x3 s).rm ∗ owns (c : Thread nD τ) arg8 fullShare (step i x0 x1 x2 x3 s).cm ∗ owns (c : Thread nD τ) arg9 fullShare (step i x0 x1 x2 x3 s).sr ∗ owns (c : Thread nD τ) arg10 fullShare (step i x0 x1 x2 x3 s).sc) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  have hstep : step i x0 x1 x2 x3 s = ⟨k0_pay11 x0 x1 x2 x3 k0_pay9, upd s.cm i (k0_pay2 (k0_pay12 x0 x1 x2 x3)), k0_pay7, k0_pay8⟩ := by
    simp only [step, if_pos hc1, if_pos hc2, if_pos hc3, if_neg hc4, if_neg hc5, if_neg hc6]
  rw [hstep]
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, ⟨%g2, %hg2, HS2⟩, ⟨%g3, %hg3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hg0; obtain rfl := harg8.eq_unread hg1; obtain rfl := harg9.eq_unread hg2; obtain rfl := harg10.eq_unread hg3
  sl_exec (disch := first | exact hc1 | exact hc2 | exact hc3 | exact hc4 | exact hc5 | exact hc6 | exact hc7)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [HS0]
  · iexists _; isplitr
    swap
    · iexact HS0
    ipureintro
    (try sl_unfold_run_names); simp only [read_writes_whole2, readAt_whole2, View.readCov_cons_toLoadRect]
  isplitl [HS1]
  · iexists _; isplitr
    swap
    · iexact HS1
    ipureintro
    (try sl_unfold_run_names); simp only [readAt_whole2]
    exact read_writes_slice arg8 harg8 i _ s.cm _
  isplitl [HS2]
  · iexists _; isplitr
    swap
    · iexact HS2
    ipureintro
    (try sl_unfold_run_names); simp only [read_writes_whole2]
  iexists _; isplitr
  swap
  · iexact HS3
  ipureintro
  (try sl_unfold_run_names); simp only [read_writes_whole2]
end Cert.KernelIdeal.Chamfer

end
-- ==== Proof.KI.RunFM.lean ====
/-
  A grid point of the first row block that is neither its first nor its last column block: the row minima are lowered by the tile's row minima, the point's slice of the column minima is overwritten by the tile's column minima, and the two running sums are kept.
-/
import proofs.«150379_j32186484916784_1_alg».proof.Proof.KI.RunLib
import Idealize.ShloMosaic.Lib.Tactic

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
theorem run_FM (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (arg10 : Memref sig .tc .vmem S1x1 .f32) (harg10 : arg10.IsWhole)
    (hc1 : ¬cond1 i) (hc2 : ¬cond2 i) (hc3 : cond3 i) (hc4 : ¬cond4 i) (hc5 : ¬cond5 i) (hc6 : ¬cond6 i) (hc7 : ¬cond7 i)
    (x0 x1 : Vec F S1024x3 .f32) (x2 : Vec F S1024x1 .f32) (x3 : Vec F S1x1024 .f32) (xo : Vec F S1x1 .f32) (s : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s.rm ∗ owns (c : Thread nD τ) arg8 fullShare s.cm ∗ owns (c : Thread nD τ) arg9 fullShare s.sr ∗ owns (c : Thread nD τ) arg10 fullShare s.sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (step i x0 x1 x2 x3 s).rm ∗ owns (c : Thread nD τ) arg8 fullShare (step i x0 x1 x2 x3 s).cm ∗ owns (c : Thread nD τ) arg9 fullShare (step i x0 x1 x2 x3 s).sr ∗ owns (c : Thread nD τ) arg10 fullShare (step i x0 x1 x2 x3 s).sc) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  have hstep : step i x0 x1 x2 x3 s = ⟨k0_pay11 x0 x1 x2 x3 s.rm, upd s.cm i (k0_pay2 (k0_pay12 x0 x1 x2 x3)), s.sr, s.sc⟩ := by
    simp only [step, if_neg hc1, if_neg hc2, if_pos hc3, if_neg hc4, if_neg hc5, if_neg hc6]
  rw [hstep]
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, ⟨%g2, %hg2, HS2⟩, ⟨%g3, %hg3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hg0; obtain rfl := harg8.eq_unread hg1; obtain rfl := harg9.eq_unread hg2; obtain rfl := harg10.eq_unread hg3
  sl_exec (disch := first | exact hc1 | exact hc2 | exact hc3 | exact hc4 | exact hc5 | exact hc6 | exact hc7)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [HS0]
  · iexists _; isplitr
    swap
    · iexact HS0
    ipureintro
    (try sl_unfold_run_names); simp only [read_writes_whole2, readAt_whole2]
  isplitl [HS1]
  · iexists _; isplitr
    swap
    · iexact HS1
    ipureintro
    (try sl_unfold_run_names); simp only [readAt_whole2]
    exact read_writes_slice arg8 harg8 i _ s.cm _
  isplitl [HS2]
  · iexists _; isplitr
    · ipureintro; exact harg9.read_unread _
    iexact HS2
  iexists _; isplitr
  · ipureintro; exact harg10.read_unread _
  iexact HS3
end Cert.KernelIdeal.Chamfer

end
-- ==== Proof.KI.RunFL.lean ====
/-
  The last point of the first row block: the row minima are lowered by the tile's row minima and, the row block being finished, summed into the running sum of row minima; the point's slice of the column minima is overwritten by the tile's column minima; the running sum of column minima is kept.
-/
import proofs.«150379_j32186484916784_1_alg».proof.Proof.KI.RunLib
import Idealize.ShloMosaic.Lib.Tactic

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
theorem run_FL (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (arg10 : Memref sig .tc .vmem S1x1 .f32) (harg10 : arg10.IsWhole)
    (hc1 : ¬cond1 i) (hc2 : ¬cond2 i) (hc3 : cond3 i) (hc4 : ¬cond4 i) (hc5 : cond5 i) (hc6 : ¬cond6 i) (hc7 : ¬cond7 i)
    (x0 x1 : Vec F S1024x3 .f32) (x2 : Vec F S1024x1 .f32) (x3 : Vec F S1x1024 .f32) (xo : Vec F S1x1 .f32) (s : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s.rm ∗ owns (c : Thread nD τ) arg8 fullShare s.cm ∗ owns (c : Thread nD τ) arg9 fullShare s.sr ∗ owns (c : Thread nD τ) arg10 fullShare s.sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (step i x0 x1 x2 x3 s).rm ∗ owns (c : Thread nD τ) arg8 fullShare (step i x0 x1 x2 x3 s).cm ∗ owns (c : Thread nD τ) arg9 fullShare (step i x0 x1 x2 x3 s).sr ∗ owns (c : Thread nD τ) arg10 fullShare (step i x0 x1 x2 x3 s).sc) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  have hstep : step i x0 x1 x2 x3 s = ⟨k0_pay11 x0 x1 x2 x3 s.rm, upd s.cm i (k0_pay2 (k0_pay12 x0 x1 x2 x3)), k0_pay4 s.sr (k0_pay11 x0 x1 x2 x3 s.rm), s.sc⟩ := by
    simp only [step, if_neg hc1, if_neg hc2, if_pos hc3, if_neg hc4, if_pos hc5, if_neg hc6]
  rw [hstep]
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, ⟨%g2, %hg2, HS2⟩, ⟨%g3, %hg3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hg0; obtain rfl := harg8.eq_unread hg1; obtain rfl := harg9.eq_unread hg2; obtain rfl := harg10.eq_unread hg3
  sl_exec (disch := first | exact hc1 | exact hc2 | exact hc3 | exact hc4 | exact hc5 | exact hc6 | exact hc7)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [HS0]
  · iexists _; isplitr
    swap
    · iexact HS0
    ipureintro
    (try sl_unfold_run_names); simp only [read_writes_whole2, readAt_whole2]
  isplitl [HS1]
  · iexists _; isplitr
    swap
    · iexact HS1
    ipureintro
    (try sl_unfold_run_names); simp only [readAt_whole2]
    exact read_writes_slice arg8 harg8 i _ s.cm _
  isplitl [HS2]
  · iexists _; isplitr
    swap
    · iexact HS2
    ipureintro
    (try sl_unfold_run_names); simp only [read_writes_whole2, readAt_whole2, View.readCov_cons_toLoadRect]
  iexists _; isplitr
  · ipureintro; exact harg10.read_unread _
  iexact HS3
end Cert.KernelIdeal.Chamfer

end
-- ==== Proof.KI.RunMF.lean ====
/-
  The first point of a row block that is neither the first nor the last: the row minima are reset to +inf and then lowered by the tile's row minima, the point's slice of the column minima is lowered by the tile's column minima, and the two running sums are kept.
-/
import proofs.«150379_j32186484916784_1_alg».proof.Proof.KI.RunLib
import Idealize.ShloMosaic.Lib.Tactic

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
theorem run_MF (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (arg10 : Memref sig .tc .vmem S1x1 .f32) (harg10 : arg10.IsWhole)
    (hc1 : ¬cond1 i) (hc2 : cond2 i) (hc3 : ¬cond3 i) (hc4 : cond4 i) (hc5 : ¬cond5 i) (hc6 : ¬cond6 i) (hc7 : ¬cond7 i)
    (x0 x1 : Vec F S1024x3 .f32) (x2 : Vec F S1024x1 .f32) (x3 : Vec F S1x1024 .f32) (xo : Vec F S1x1 .f32) (s : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s.rm ∗ owns (c : Thread nD τ) arg8 fullShare s.cm ∗ owns (c : Thread nD τ) arg9 fullShare s.sr ∗ owns (c : Thread nD τ) arg10 fullShare s.sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (step i x0 x1 x2 x3 s).rm ∗ owns (c : Thread nD τ) arg8 fullShare (step i x0 x1 x2 x3 s).cm ∗ owns (c : Thread nD τ) arg9 fullShare (step i x0 x1 x2 x3 s).sr ∗ owns (c : Thread nD τ) arg10 fullShare (step i x0 x1 x2 x3 s).sc) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  have hstep : step i x0 x1 x2 x3 s = ⟨k0_pay11 x0 x1 x2 x3 k0_pay9, upd s.cm i (k0_pay3 (k0_pay12 x0 x1 x2 x3) (slice s.cm i)), s.sr, s.sc⟩ := by
    simp only [step, if_neg hc1, if_pos hc2, if_neg hc3, if_pos hc4, if_neg hc5, if_neg hc6]
  rw [hstep]
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, ⟨%g2, %hg2, HS2⟩, ⟨%g3, %hg3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hg0; obtain rfl := harg8.eq_unread hg1; obtain rfl := harg9.eq_unread hg2; obtain rfl := harg10.eq_unread hg3
  sl_exec (disch := first | exact hc1 | exact hc2 | exact hc3 | exact hc4 | exact hc5 | exact hc6 | exact hc7)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [HS0]
  · iexists _; isplitr
    swap
    · iexact HS0
    ipureintro
    (try sl_unfold_run_names); simp only [read_writes_whole2, readAt_whole2, View.readCov_cons_toLoadRect]
  isplitl [HS1]
  · iexists _; isplitr
    swap
    · iexact HS1
    ipureintro
    (try sl_unfold_run_names); simp only [readAt_whole2]
    refine (read_writes_slice arg8 harg8 i _ s.cm _).trans ?_
    refine congrArg (fun z => upd s.cm i (k0_pay3 (k0_pay12 x0 x1 x2 x3) z)) ?_
    exact readAt_slice arg8 harg8 i _ s.cm
  isplitl [HS2]
  · iexists _; isplitr
    · ipureintro; exact harg9.read_unread _
    iexact HS2
  iexists _; isplitr
  · ipureintro; exact harg10.read_unread _
  iexact HS3
end Cert.KernelIdeal.Chamfer

end
-- ==== Proof.KI.RunMM.lean ====
/-
  A grid point in the interior of the grid (neither first nor last row block, neither first nor last column block): the row minima are lowered by the tile's row minima and the point's slice of the column minima by the tile's column minima; the two running sums are kept.
-/
import proofs.«150379_j32186484916784_1_alg».proof.Proof.KI.RunLib
import Idealize.ShloMosaic.Lib.Tactic

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
theorem run_MM (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (arg10 : Memref sig .tc .vmem S1x1 .f32) (harg10 : arg10.IsWhole)
    (hc1 : ¬cond1 i) (hc2 : ¬cond2 i) (hc3 : ¬cond3 i) (hc4 : cond4 i) (hc5 : ¬cond5 i) (hc6 : ¬cond6 i) (hc7 : ¬cond7 i)
    (x0 x1 : Vec F S1024x3 .f32) (x2 : Vec F S1024x1 .f32) (x3 : Vec F S1x1024 .f32) (xo : Vec F S1x1 .f32) (s : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s.rm ∗ owns (c : Thread nD τ) arg8 fullShare s.cm ∗ owns (c : Thread nD τ) arg9 fullShare s.sr ∗ owns (c : Thread nD τ) arg10 fullShare s.sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (step i x0 x1 x2 x3 s).rm ∗ owns (c : Thread nD τ) arg8 fullShare (step i x0 x1 x2 x3 s).cm ∗ owns (c : Thread nD τ) arg9 fullShare (step i x0 x1 x2 x3 s).sr ∗ owns (c : Thread nD τ) arg10 fullShare (step i x0 x1 x2 x3 s).sc) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  have hstep : step i x0 x1 x2 x3 s = ⟨k0_pay11 x0 x1 x2 x3 s.rm, upd s.cm i (k0_pay3 (k0_pay12 x0 x1 x2 x3) (slice s.cm i)), s.sr, s.sc⟩ := by
    simp only [step, if_neg hc1, if_neg hc2, if_neg hc3, if_pos hc4, if_neg hc5, if_neg hc6]
  rw [hstep]
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, ⟨%g2, %hg2, HS2⟩, ⟨%g3, %hg3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hg0; obtain rfl := harg8.eq_unread hg1; obtain rfl := harg9.eq_unread hg2; obtain rfl := harg10.eq_unread hg3
  sl_exec (disch := first | exact hc1 | exact hc2 | exact hc3 | exact hc4 | exact hc5 | exact hc6 | exact hc7)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [HS0]
  · iexists _; isplitr
    swap
    · iexact HS0
    ipureintro
    (try sl_unfold_run_names); simp only [read_writes_whole2, readAt_whole2]
  isplitl [HS1]
  · iexists _; isplitr
    swap
    · iexact HS1
    ipureintro
    (try sl_unfold_run_names); simp only [readAt_whole2]
    refine (read_writes_slice arg8 harg8 i _ s.cm _).trans ?_
    refine congrArg (fun z => upd s.cm i (k0_pay3 (k0_pay12 x0 x1 x2 x3) z)) ?_
    exact readAt_slice arg8 harg8 i _ s.cm
  isplitl [HS2]
  · iexists _; isplitr
    · ipureintro; exact harg9.read_unread _
    iexact HS2
  iexists _; isplitr
  · ipureintro; exact harg10.read_unread _
  iexact HS3
end Cert.KernelIdeal.Chamfer

end
-- ==== Proof.KI.RunML.lean ====
/-
  A grid point in the last column block of a row block that is neither the first nor the last: the row minima are lowered by the tile's row minima and, the row block being finished, summed into the running sum of row minima; the point's slice of the column minima is lowered by the tile's column minima; the running sum of column minima is kept.
-/
import proofs.«150379_j32186484916784_1_alg».proof.Proof.KI.RunLib
import Idealize.ShloMosaic.Lib.Tactic

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A load through the whole-buffer rectangle of a rank-2 buffer, of what one store through it left, reads the payload. -/
private theorem readCov_whole2 {d : Fin 2 → ℕ} (v : View sig .tc .vmem (⟨2, d⟩ : Shape) .f32)
    (inb : ∀ a, (![0, 0] : Fin 2 → ℕ) a + d a ≤ d a) (w : (⟨2, d⟩ : Shape).Idx → Elt F .f32) :
    v.readCov [(⟨Rect.unit (s := (⟨2, d⟩ : Shape)) ![0, 0] d inb, w⟩ : View.Piece (Elt F) (⟨2, d⟩ : Shape) .f32)]
      (Rect.unit (s := (⟨2, d⟩ : Shape)) ![0, 0] d inb).toLoadRect = w :=
  View.readCov_unit_zero v hz2 inb w

set_option maxHeartbeats 1000000 in
theorem run_ML (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (arg10 : Memref sig .tc .vmem S1x1 .f32) (harg10 : arg10.IsWhole)
    (hc1 : ¬cond1 i) (hc2 : ¬cond2 i) (hc3 : ¬cond3 i) (hc4 : cond4 i) (hc5 : cond5 i) (hc6 : ¬cond6 i) (hc7 : ¬cond7 i)
    (x0 x1 : Vec F S1024x3 .f32) (x2 : Vec F S1024x1 .f32) (x3 : Vec F S1x1024 .f32) (xo : Vec F S1x1 .f32) (s : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s.rm ∗ owns (c : Thread nD τ) arg8 fullShare s.cm ∗ owns (c : Thread nD τ) arg9 fullShare s.sr ∗ owns (c : Thread nD τ) arg10 fullShare s.sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (step i x0 x1 x2 x3 s).rm ∗ owns (c : Thread nD τ) arg8 fullShare (step i x0 x1 x2 x3 s).cm ∗ owns (c : Thread nD τ) arg9 fullShare (step i x0 x1 x2 x3 s).sr ∗ owns (c : Thread nD τ) arg10 fullShare (step i x0 x1 x2 x3 s).sc) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  have hstep : step i x0 x1 x2 x3 s = ⟨k0_pay11 x0 x1 x2 x3 s.rm, upd s.cm i (k0_pay3 (k0_pay12 x0 x1 x2 x3) (slice s.cm i)), k0_pay4 s.sr (k0_pay11 x0 x1 x2 x3 s.rm), s.sc⟩ := by
    simp only [step, if_neg hc1, if_neg hc2, if_neg hc3, if_pos hc4, if_pos hc5, if_neg hc6]
  rw [hstep]
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, ⟨%g2, %hg2, HS2⟩, ⟨%g3, %hg3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hg0; obtain rfl := harg8.eq_unread hg1; obtain rfl := harg9.eq_unread hg2; obtain rfl := harg10.eq_unread hg3
  sl_exec (disch := first | exact hc1 | exact hc2 | exact hc3 | exact hc4 | exact hc5 | exact hc6 | exact hc7)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [HS0]
  · iexists _; isplitr
    swap
    · iexact HS0
    ipureintro
    (try sl_unfold_run_names); simp only [read_writes_whole2, readAt_whole2]
  isplitl [HS1]
  · iexists _; isplitr
    swap
    · iexact HS1
    ipureintro
    (try sl_unfold_run_names); simp only [readAt_whole2]
    refine (read_writes_slice arg8 harg8 i _ s.cm _).trans ?_
    refine congrArg (fun z => upd s.cm i (k0_pay3 (k0_pay12 x0 x1 x2 x3) z)) ?_
    exact readAt_slice arg8 harg8 i _ s.cm
  isplitl [HS2]
  · iexists _; isplitr
    swap
    · iexact HS2
    ipureintro
    (try sl_unfold_run_names); simp only [read_writes_whole2, readAt_whole2, readCov_whole2]
  iexists _; isplitr
  · ipureintro; exact harg10.read_unread _
  iexact HS3
end Cert.KernelIdeal.Chamfer

end
-- ==== Proof.KI.RunLF.lean ====
/-
  The first grid point of the last row block: the row minima are reset to +inf and then lowered by the tile's row minima; the point's slice of the column minima is lowered by the tile's column minima and, that slice being finished, summed into the running sum of column minima; the running sum of row minima is kept.
-/
import proofs.«150379_j32186484916784_1_alg».proof.Proof.KI.RunLib
import Idealize.ShloMosaic.Lib.Tactic

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A load through the whole-buffer rectangle of a rank-2 buffer, of what one store through it left, reads the payload. -/
private theorem readCov_whole2 {d : Fin 2 → ℕ} (v : View sig .tc .vmem (⟨2, d⟩ : Shape) .f32)
    (inb : ∀ a, (![0, 0] : Fin 2 → ℕ) a + d a ≤ d a) (w : (⟨2, d⟩ : Shape).Idx → Elt F .f32) :
    v.readCov [(⟨Rect.unit (s := (⟨2, d⟩ : Shape)) ![0, 0] d inb, w⟩ : View.Piece (Elt F) (⟨2, d⟩ : Shape) .f32)]
      (Rect.unit (s := (⟨2, d⟩ : Shape)) ![0, 0] d inb).toLoadRect = w :=
  View.readCov_unit_zero v hz2 inb w

/-- The point's slice of the column minima, read back after it has been replaced by `w`, is `w`: the index at position `x` of the slice is the offset plus `x`, and its position within the slice is the index minus the offset. -/
private theorem slice_upd (cm : Vec F S1x8192 .f32) (i : grid0.Coords) (w : Vec F S1x1024 .f32) :
    slice (upd cm i w) i = w := by
  funext x
  have hy : ∀ a, (k0_off2 i) a ≤ ((Rect.unit (s := S1x8192) (k0_off2 i) S1x1024.size (offs_inb i)).idx x a).val
      ∧ ((Rect.unit (s := S1x8192) (k0_off2 i) S1x1024.size (offs_inb i)).idx x a).val < (k0_off2 i) a + S1x1024.size a := by
    intro a
    have hx : (x a).val < S1x1024.size a := (x a).isLt
    have he : ((Rect.unit (s := S1x8192) (k0_off2 i) S1x1024.size (offs_inb i)).idx x a).val = (k0_off2 i) a + 1 * (x a).val := rfl
    rw [he]; omega
  show upd cm i w ((Rect.unit (s := S1x8192) (k0_off2 i) S1x1024.size (offs_inb i)).idx x) = w x
  unfold upd
  rw [dif_pos hy]
  congr 1
  funext a
  apply Fin.ext
  show (k0_off2 i) a + 1 * (x a).val - (k0_off2 i) a = (x a).val
  omega

set_option maxHeartbeats 1000000 in
theorem run_LF (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (arg10 : Memref sig .tc .vmem S1x1 .f32) (harg10 : arg10.IsWhole)
    (hc1 : ¬cond1 i) (hc2 : cond2 i) (hc3 : ¬cond3 i) (hc4 : cond4 i) (hc5 : ¬cond5 i) (hc6 : cond6 i) (hc7 : ¬cond7 i)
    (x0 x1 : Vec F S1024x3 .f32) (x2 : Vec F S1024x1 .f32) (x3 : Vec F S1x1024 .f32) (xo : Vec F S1x1 .f32) (s : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s.rm ∗ owns (c : Thread nD τ) arg8 fullShare s.cm ∗ owns (c : Thread nD τ) arg9 fullShare s.sr ∗ owns (c : Thread nD τ) arg10 fullShare s.sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (step i x0 x1 x2 x3 s).rm ∗ owns (c : Thread nD τ) arg8 fullShare (step i x0 x1 x2 x3 s).cm ∗ owns (c : Thread nD τ) arg9 fullShare (step i x0 x1 x2 x3 s).sr ∗ owns (c : Thread nD τ) arg10 fullShare (step i x0 x1 x2 x3 s).sc) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  have hstep : step i x0 x1 x2 x3 s = ⟨k0_pay11 x0 x1 x2 x3 k0_pay9, upd s.cm i (k0_pay3 (k0_pay12 x0 x1 x2 x3) (slice s.cm i)), s.sr, k0_pay5 s.sc (slice (upd s.cm i (k0_pay3 (k0_pay12 x0 x1 x2 x3) (slice s.cm i))) i)⟩ := by
    simp only [step, if_neg hc1, if_pos hc2, if_neg hc3, if_pos hc4, if_neg hc5, if_pos hc6]
  rw [hstep]
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, ⟨%g2, %hg2, HS2⟩, ⟨%g3, %hg3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hg0; obtain rfl := harg8.eq_unread hg1; obtain rfl := harg9.eq_unread hg2; obtain rfl := harg10.eq_unread hg3
  sl_exec (disch := first | exact hc1 | exact hc2 | exact hc3 | exact hc4 | exact hc5 | exact hc6 | exact hc7)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [HS0]
  · iexists _; isplitr
    swap
    · iexact HS0
    ipureintro
    (try sl_unfold_run_names); simp only [read_writes_whole2, readAt_whole2, readCov_whole2]
  isplitl [HS1]
  · iexists _; isplitr
    swap
    · iexact HS1
    ipureintro
    (try sl_unfold_run_names); simp only [readAt_whole2]
    refine (read_writes_slice arg8 harg8 i _ s.cm _).trans ?_
    refine congrArg (fun z => upd s.cm i (k0_pay3 (k0_pay12 x0 x1 x2 x3) z)) ?_
    exact readAt_slice arg8 harg8 i _ s.cm
  isplitl [HS2]
  · iexists _; isplitr
    · ipureintro; exact harg9.read_unread _
    iexact HS2
  iexists _; isplitr
  swap
  · iexact HS3
  ipureintro
  (try sl_unfold_run_names); simp only [read_writes_whole2, readAt_whole2]
  refine congrArg (k0_pay5 s.sc) ?_
  refine (View.readCov_cons_toLoadRect arg8.view (Rect.unit (s := S1x8192) (k0_off2 i) S1x1024.size (offs_inb i)) _ []).trans ?_
  rw [slice_upd]
  exact congrArg (k0_pay3 (k0_pay12 x0 x1 x2 x3)) (readAt_slice arg8 harg8 i _ s.cm)
end Cert.KernelIdeal.Chamfer

end
-- ==== Proof.KI.RunLM.lean ====
/-
  A grid point in the last row block, in a column block that is neither the first nor the last: the row minima are lowered by the tile's row minima; the point's slice of the column minima is lowered by the tile's column minima and, that slice being finished, summed into the running sum of column minima; the running sum of row minima is kept.
-/
import proofs.«150379_j32186484916784_1_alg».proof.Proof.KI.RunLib
import Idealize.ShloMosaic.Lib.Tactic

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point's slice of the column minima, read back after it has been replaced by `w`, is `w`: the index at position `x` of the slice is the offset plus `x`, and its position within the slice is the index minus the offset. -/
private theorem slice_upd (cm : Vec F S1x8192 .f32) (i : grid0.Coords) (w : Vec F S1x1024 .f32) :
    slice (upd cm i w) i = w := by
  funext x
  have hy : ∀ a, (k0_off2 i) a ≤ ((Rect.unit (s := S1x8192) (k0_off2 i) S1x1024.size (offs_inb i)).idx x a).val
      ∧ ((Rect.unit (s := S1x8192) (k0_off2 i) S1x1024.size (offs_inb i)).idx x a).val < (k0_off2 i) a + S1x1024.size a := by
    intro a
    have hx : (x a).val < S1x1024.size a := (x a).isLt
    have he : ((Rect.unit (s := S1x8192) (k0_off2 i) S1x1024.size (offs_inb i)).idx x a).val = (k0_off2 i) a + 1 * (x a).val := rfl
    rw [he]; omega
  show upd cm i w ((Rect.unit (s := S1x8192) (k0_off2 i) S1x1024.size (offs_inb i)).idx x) = w x
  unfold upd
  rw [dif_pos hy]
  congr 1
  funext a
  apply Fin.ext
  show (k0_off2 i) a + 1 * (x a).val - (k0_off2 i) a = (x a).val
  omega

set_option maxHeartbeats 1000000 in
theorem run_LM (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (arg10 : Memref sig .tc .vmem S1x1 .f32) (harg10 : arg10.IsWhole)
    (hc1 : ¬cond1 i) (hc2 : ¬cond2 i) (hc3 : ¬cond3 i) (hc4 : cond4 i) (hc5 : ¬cond5 i) (hc6 : cond6 i) (hc7 : ¬cond7 i)
    (x0 x1 : Vec F S1024x3 .f32) (x2 : Vec F S1024x1 .f32) (x3 : Vec F S1x1024 .f32) (xo : Vec F S1x1 .f32) (s : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s.rm ∗ owns (c : Thread nD τ) arg8 fullShare s.cm ∗ owns (c : Thread nD τ) arg9 fullShare s.sr ∗ owns (c : Thread nD τ) arg10 fullShare s.sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (step i x0 x1 x2 x3 s).rm ∗ owns (c : Thread nD τ) arg8 fullShare (step i x0 x1 x2 x3 s).cm ∗ owns (c : Thread nD τ) arg9 fullShare (step i x0 x1 x2 x3 s).sr ∗ owns (c : Thread nD τ) arg10 fullShare (step i x0 x1 x2 x3 s).sc) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  have hstep : step i x0 x1 x2 x3 s = ⟨k0_pay11 x0 x1 x2 x3 s.rm, upd s.cm i (k0_pay3 (k0_pay12 x0 x1 x2 x3) (slice s.cm i)), s.sr, k0_pay5 s.sc (slice (upd s.cm i (k0_pay3 (k0_pay12 x0 x1 x2 x3) (slice s.cm i))) i)⟩ := by
    simp only [step, if_neg hc1, if_neg hc2, if_neg hc3, if_pos hc4, if_neg hc5, if_pos hc6]
  rw [hstep]
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, ⟨%g2, %hg2, HS2⟩, ⟨%g3, %hg3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hg0; obtain rfl := harg8.eq_unread hg1; obtain rfl := harg9.eq_unread hg2; obtain rfl := harg10.eq_unread hg3
  sl_exec (disch := first | exact hc1 | exact hc2 | exact hc3 | exact hc4 | exact hc5 | exact hc6 | exact hc7)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [HS0]
  · iexists _; isplitr
    swap
    · iexact HS0
    ipureintro
    (try sl_unfold_run_names); simp only [read_writes_whole2, readAt_whole2]
  isplitl [HS1]
  · iexists _; isplitr
    swap
    · iexact HS1
    ipureintro
    (try sl_unfold_run_names); simp only [readAt_whole2]
    refine (read_writes_slice arg8 harg8 i _ s.cm _).trans ?_
    refine congrArg (fun z => upd s.cm i (k0_pay3 (k0_pay12 x0 x1 x2 x3) z)) ?_
    exact readAt_slice arg8 harg8 i _ s.cm
  isplitl [HS2]
  · iexists _; isplitr
    · ipureintro; exact harg9.read_unread _
    iexact HS2
  iexists _; isplitr
  swap
  · iexact HS3
  ipureintro
  (try sl_unfold_run_names); simp only [read_writes_whole2, readAt_whole2]
  refine congrArg (k0_pay5 s.sc) ?_
  refine (View.readCov_cons_toLoadRect arg8.view (Rect.unit (s := S1x8192) (k0_off2 i) S1x1024.size (offs_inb i)) _ []).trans ?_
  rw [slice_upd]
  exact congrArg (k0_pay3 (k0_pay12 x0 x1 x2 x3)) (readAt_slice arg8 harg8 i _ s.cm)
end Cert.KernelIdeal.Chamfer

end
-- ==== Proof.KI.RunLL.lean ====
/-
  The last grid point: the row minima are lowered by the tile's row minima and, the last row block being finished, summed into the running sum of row minima; the point's slice of the column minima is lowered by the tile's column minima and, that last slice being finished, summed into the running sum of column minima; the result block receives the value made of the two finished sums.
-/
import proofs.«150379_j32186484916784_1_alg».proof.Proof.KI.RunLib
import Idealize.ShloMosaic.Lib.Tactic

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A load through the whole-buffer rectangle of a rank-2 buffer, of what one store through it left, reads the payload. -/
private theorem readCov_whole2 {d : Fin 2 → ℕ} (v : View sig .tc .vmem (⟨2, d⟩ : Shape) .f32)
    (inb : ∀ a, (![0, 0] : Fin 2 → ℕ) a + d a ≤ d a) (w : (⟨2, d⟩ : Shape).Idx → Elt F .f32) :
    v.readCov [(⟨Rect.unit (s := (⟨2, d⟩ : Shape)) ![0, 0] d inb, w⟩ : View.Piece (Elt F) (⟨2, d⟩ : Shape) .f32)]
      (Rect.unit (s := (⟨2, d⟩ : Shape)) ![0, 0] d inb).toLoadRect = w :=
  View.readCov_unit_zero v hz2 inb w

/-- The point's slice of the column minima, read back after it has been replaced by `w`, is `w`: the index at position `x` of the slice is the offset plus `x`, and its position within the slice is the index minus the offset. -/
private theorem slice_upd (cm : Vec F S1x8192 .f32) (i : grid0.Coords) (w : Vec F S1x1024 .f32) :
    slice (upd cm i w) i = w := by
  funext x
  have hy : ∀ a, (k0_off2 i) a ≤ ((Rect.unit (s := S1x8192) (k0_off2 i) S1x1024.size (offs_inb i)).idx x a).val
      ∧ ((Rect.unit (s := S1x8192) (k0_off2 i) S1x1024.size (offs_inb i)).idx x a).val < (k0_off2 i) a + S1x1024.size a := by
    intro a
    have hx : (x a).val < S1x1024.size a := (x a).isLt
    have he : ((Rect.unit (s := S1x8192) (k0_off2 i) S1x1024.size (offs_inb i)).idx x a).val = (k0_off2 i) a + 1 * (x a).val := rfl
    rw [he]; omega
  show upd cm i w ((Rect.unit (s := S1x8192) (k0_off2 i) S1x1024.size (offs_inb i)).idx x) = w x
  unfold upd
  rw [dif_pos hy]
  congr 1
  funext a
  apply Fin.ext
  show (k0_off2 i) a + 1 * (x a).val - (k0_off2 i) a = (x a).val
  omega

set_option maxHeartbeats 1000000 in
theorem run_LL (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (arg10 : Memref sig .tc .vmem S1x1 .f32) (harg10 : arg10.IsWhole)
    (hc1 : ¬cond1 i) (hc2 : ¬cond2 i) (hc3 : ¬cond3 i) (hc4 : cond4 i) (hc5 : cond5 i) (hc6 : cond6 i) (hc7 : cond7 i)
    (x0 x1 : Vec F S1024x3 .f32) (x2 : Vec F S1024x1 .f32) (x3 : Vec F S1x1024 .f32) (xo : Vec F S1x1 .f32) (s : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s.rm ∗ owns (c : Thread nD τ) arg8 fullShare s.cm ∗ owns (c : Thread nD τ) arg9 fullShare s.sr ∗ owns (c : Thread nD τ) arg10 fullShare s.sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outv (step i x0 x1 x2 x3 s)) ∗ owns (c : Thread nD τ) arg7 fullShare (step i x0 x1 x2 x3 s).rm ∗ owns (c : Thread nD τ) arg8 fullShare (step i x0 x1 x2 x3 s).cm ∗ owns (c : Thread nD τ) arg9 fullShare (step i x0 x1 x2 x3 s).sr ∗ owns (c : Thread nD τ) arg10 fullShare (step i x0 x1 x2 x3 s).sc) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  have hstep : step i x0 x1 x2 x3 s = ⟨k0_pay11 x0 x1 x2 x3 s.rm, upd s.cm i (k0_pay3 (k0_pay12 x0 x1 x2 x3) (slice s.cm i)), k0_pay4 s.sr (k0_pay11 x0 x1 x2 x3 s.rm), k0_pay5 s.sc (slice (upd s.cm i (k0_pay3 (k0_pay12 x0 x1 x2 x3) (slice s.cm i))) i)⟩ := by
    simp only [step, if_neg hc1, if_neg hc2, if_neg hc3, if_pos hc4, if_pos hc5, if_pos hc6]
  rw [hstep]
  simp only [outv]
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, ⟨%g2, %hg2, HS2⟩, ⟨%g3, %hg3, HS3⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hg0; obtain rfl := harg8.eq_unread hg1; obtain rfl := harg9.eq_unread hg2; obtain rfl := harg10.eq_unread hg3
  sl_exec (disch := first | exact hc1 | exact hc2 | exact hc3 | exact hc4 | exact hc5 | exact hc6 | exact hc7)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    swap
    · iexact H4
    ipureintro
    (try sl_unfold_run_names); simp only [read_writes_whole2, readAt_whole2, readCov_whole2]
    refine congrArg (fun z => k0_pay6 (k0_pay4 s.sr (k0_pay11 x0 x1 x2 x3 s.rm)) (k0_pay5 s.sc z)) ?_
    refine (View.readCov_cons_toLoadRect arg8.view (Rect.unit (s := S1x8192) (k0_off2 i) S1x1024.size (offs_inb i)) _ []).trans ?_
    rw [slice_upd]
    exact congrArg (k0_pay3 (k0_pay12 x0 x1 x2 x3)) (readAt_slice arg8 harg8 i _ s.cm)
  isplitl [HS0]
  · iexists _; isplitr
    swap
    · iexact HS0
    ipureintro
    (try sl_unfold_run_names); simp only [read_writes_whole2, readAt_whole2]
  isplitl [HS1]
  · iexists _; isplitr
    swap
    · iexact HS1
    ipureintro
    (try sl_unfold_run_names); simp only [readAt_whole2]
    refine (read_writes_slice arg8 harg8 i _ s.cm _).trans ?_
    refine congrArg (fun z => upd s.cm i (k0_pay3 (k0_pay12 x0 x1 x2 x3) z)) ?_
    exact readAt_slice arg8 harg8 i _ s.cm
  isplitl [HS2]
  · iexists _; isplitr
    swap
    · iexact HS2
    ipureintro
    (try sl_unfold_run_names); simp only [read_writes_whole2, readAt_whole2, readCov_whole2]
  iexists _; isplitr
  swap
  · iexact HS3
  ipureintro
  (try sl_unfold_run_names); simp only [read_writes_whole2, readAt_whole2]
  refine congrArg (k0_pay5 s.sc) ?_
  refine (View.readCov_cons_toLoadRect arg8.view (Rect.unit (s := S1x8192) (k0_off2 i) S1x1024.size (offs_inb i)) _ []).trans ?_
  rw [slice_upd]
  exact congrArg (k0_pay3 (k0_pay12 x0 x1 x2 x3)) (readAt_slice arg8 harg8 i _ s.cm)
end Cert.KernelIdeal.Chamfer

end
-- ==== Proof.KI.RunAll.lean ====
/-
  The kernel body at any grid point, from the nine kinds of point: it takes the four scratch arrays from a state `s`
  to `step` of it, leaves the input blocks as found, and stores the result block only at the last point.
-/
import proofs.«150379_j32186484916784_1_alg».proof.Proof.KI.RunFF
import proofs.«150379_j32186484916784_1_alg».proof.Proof.KI.RunFM
import proofs.«150379_j32186484916784_1_alg».proof.Proof.KI.RunFL
import proofs.«150379_j32186484916784_1_alg».proof.Proof.KI.RunMF
import proofs.«150379_j32186484916784_1_alg».proof.Proof.KI.RunMM
import proofs.«150379_j32186484916784_1_alg».proof.Proof.KI.RunML
import proofs.«150379_j32186484916784_1_alg».proof.Proof.KI.RunLF
import proofs.«150379_j32186484916784_1_alg».proof.Proof.KI.RunLM
import proofs.«150379_j32186484916784_1_alg».proof.Proof.KI.RunLL
import proofs.«150379_j32186484916784_1_alg».proof.Proof.KI.RunLib
import Idealize.ShloMosaic.Lib.Tactic

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Any point but the last: the result block's buffer is handed back as found. -/
theorem run_idle (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (arg10 : Memref sig .tc .vmem S1x1 .f32) (harg10 : arg10.IsWhole)
    (h7 : ¬cond7 i)
    (x0 x1 : Vec F S1024x3 .f32) (x2 : Vec F S1024x1 .f32) (x3 : Vec F S1x1024 .f32) (xo : Vec F S1x1 .f32) (s : St F)
    (E : Set ℕ) (K : PUnit → sProp 𝕄) (s' : St F) (hs : step i x0 x1 x2 x3 s = s') :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s.rm ∗ owns (c : Thread nD τ) arg8 fullShare s.cm ∗ owns (c : Thread nD τ) arg9 fullShare s.sr ∗ owns (c : Thread nD τ) arg10 fullShare s.sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s'.rm ∗ owns (c : Thread nD τ) arg8 fullShare s'.cm ∗ owns (c : Thread nD τ) arg9 fullShare s'.sr ∗ owns (c : Thread nD τ) arg10 fullShare s'.sc) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  subst hs
  by_cases a0 : (i 0).val = 0
  · by_cases b0 : (i 1).val = 0
    · exact run_FF c i arg2 harg2 arg3 harg3 arg4 harg4 arg5 harg5 arg6 harg6 arg7 harg7 arg8 harg8 arg9 harg9 arg10 harg10 ((cond1_iff i).2 (by omega)) ((cond2_iff i).2 (by omega)) ((cond3_iff i).2 (by omega)) (fun h => absurd ((cond4_iff i).1 h) (by omega)) (fun h => absurd ((cond5_iff i).1 h) (by omega)) (fun h => absurd ((cond6_iff i).1 h) (by omega)) h7 x0 x1 x2 x3 xo s E K
    · by_cases b7 : (i 1).val = 7
      · exact run_FL c i arg2 harg2 arg3 harg3 arg4 harg4 arg5 harg5 arg6 harg6 arg7 harg7 arg8 harg8 arg9 harg9 arg10 harg10 (fun h => absurd ((cond1_iff i).1 h) (by omega)) (fun h => absurd ((cond2_iff i).1 h) (by omega)) ((cond3_iff i).2 (by omega)) (fun h => absurd ((cond4_iff i).1 h) (by omega)) ((cond5_iff i).2 (by omega)) (fun h => absurd ((cond6_iff i).1 h) (by omega)) h7 x0 x1 x2 x3 xo s E K
      · exact run_FM c i arg2 harg2 arg3 harg3 arg4 harg4 arg5 harg5 arg6 harg6 arg7 harg7 arg8 harg8 arg9 harg9 arg10 harg10 (fun h => absurd ((cond1_iff i).1 h) (by omega)) (fun h => absurd ((cond2_iff i).1 h) (by omega)) ((cond3_iff i).2 (by omega)) (fun h => absurd ((cond4_iff i).1 h) (by omega)) (fun h => absurd ((cond5_iff i).1 h) (by omega)) (fun h => absurd ((cond6_iff i).1 h) (by omega)) h7 x0 x1 x2 x3 xo s E K
  · by_cases a7 : (i 0).val = 7
    · by_cases b0 : (i 1).val = 0
      · exact run_LF c i arg2 harg2 arg3 harg3 arg4 harg4 arg5 harg5 arg6 harg6 arg7 harg7 arg8 harg8 arg9 harg9 arg10 harg10 (fun h => absurd ((cond1_iff i).1 h) (by omega)) ((cond2_iff i).2 (by omega)) (fun h => absurd ((cond3_iff i).1 h) (by omega)) ((cond4_iff i).2 (by omega)) (fun h => absurd ((cond5_iff i).1 h) (by omega)) ((cond6_iff i).2 (by omega)) h7 x0 x1 x2 x3 xo s E K
      · by_cases b7 : (i 1).val = 7
        · exact absurd ((cond7_iff i).2 ⟨a7, b7⟩) h7
        · exact run_LM c i arg2 harg2 arg3 harg3 arg4 harg4 arg5 harg5 arg6 harg6 arg7 harg7 arg8 harg8 arg9 harg9 arg10 harg10 (fun h => absurd ((cond1_iff i).1 h) (by omega)) (fun h => absurd ((cond2_iff i).1 h) (by omega)) (fun h => absurd ((cond3_iff i).1 h) (by omega)) ((cond4_iff i).2 (by omega)) (fun h => absurd ((cond5_iff i).1 h) (by omega)) ((cond6_iff i).2 (by omega)) h7 x0 x1 x2 x3 xo s E K
    · by_cases b0 : (i 1).val = 0
      · exact run_MF c i arg2 harg2 arg3 harg3 arg4 harg4 arg5 harg5 arg6 harg6 arg7 harg7 arg8 harg8 arg9 harg9 arg10 harg10 (fun h => absurd ((cond1_iff i).1 h) (by omega)) ((cond2_iff i).2 (by omega)) (fun h => absurd ((cond3_iff i).1 h) (by omega)) ((cond4_iff i).2 (by omega)) (fun h => absurd ((cond5_iff i).1 h) (by omega)) (fun h => absurd ((cond6_iff i).1 h) (by omega)) h7 x0 x1 x2 x3 xo s E K
      · by_cases b7 : (i 1).val = 7
        · exact run_ML c i arg2 harg2 arg3 harg3 arg4 harg4 arg5 harg5 arg6 harg6 arg7 harg7 arg8 harg8 arg9 harg9 arg10 harg10 (fun h => absurd ((cond1_iff i).1 h) (by omega)) (fun h => absurd ((cond2_iff i).1 h) (by omega)) (fun h => absurd ((cond3_iff i).1 h) (by omega)) ((cond4_iff i).2 (by omega)) ((cond5_iff i).2 (by omega)) (fun h => absurd ((cond6_iff i).1 h) (by omega)) h7 x0 x1 x2 x3 xo s E K
        · exact run_MM c i arg2 harg2 arg3 harg3 arg4 harg4 arg5 harg5 arg6 harg6 arg7 harg7 arg8 harg8 arg9 harg9 arg10 harg10 (fun h => absurd ((cond1_iff i).1 h) (by omega)) (fun h => absurd ((cond2_iff i).1 h) (by omega)) (fun h => absurd ((cond3_iff i).1 h) (by omega)) ((cond4_iff i).2 (by omega)) (fun h => absurd ((cond5_iff i).1 h) (by omega)) (fun h => absurd ((cond6_iff i).1 h) (by omega)) h7 x0 x1 x2 x3 xo s E K

/-- The last point: the result block receives `outv` of the final state. -/
theorem run_last (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (arg10 : Memref sig .tc .vmem S1x1 .f32) (harg10 : arg10.IsWhole)
    (h7 : cond7 i)
    (x0 x1 : Vec F S1024x3 .f32) (x2 : Vec F S1024x1 .f32) (x3 : Vec F S1x1024 .f32) (xo : Vec F S1x1 .f32) (s : St F)
    (E : Set ℕ) (K : PUnit → sProp 𝕄) (s' : St F) (hs : step i x0 x1 x2 x3 s = s') :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s.rm ∗ owns (c : Thread nD τ) arg8 fullShare s.cm ∗ owns (c : Thread nD τ) arg9 fullShare s.sr ∗ owns (c : Thread nD τ) arg10 fullShare s.sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outv s') ∗ owns (c : Thread nD τ) arg7 fullShare s'.rm ∗ owns (c : Thread nD τ) arg8 fullShare s'.cm ∗ owns (c : Thread nD τ) arg9 fullShare s'.sr ∗ owns (c : Thread nD τ) arg10 fullShare s'.sc) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10) K := by
  subst hs
  obtain ⟨a7, b7⟩ := (cond7_iff i).1 h7
  exact run_LL c i arg2 harg2 arg3 harg3 arg4 harg4 arg5 harg5 arg6 harg6 arg7 harg7 arg8 harg8 arg9 harg9 arg10 harg10 (fun h => absurd ((cond1_iff i).1 h) (by omega)) (fun h => absurd ((cond2_iff i).1 h) (by omega)) (fun h => absurd ((cond3_iff i).1 h) (by omega)) ((cond4_iff i).2 (by omega)) ((cond5_iff i).2 (by omega)) ((cond6_iff i).2 (by omega)) h7 x0 x1 x2 x3 xo s E K

end Cert.KernelIdeal.Chamfer

end
-- ==== Proof.KI.Indep.lean ====
/-
  The two running sums after the last grid point do not depend on what the scratch arrays held before the first:
  the first point resets both sums and the row minima, and every slice of the column minima is overwritten during
  the first row block before anything reads it.
-/
import proofs.«150379_j32186484916784_1_alg».proof.Proof.KI.State

set_option maxRecDepth 16384

noncomputable section

namespace Cert.KernelIdeal.Chamfer

open Cert.KernelIdeal Cert.KernelIdeal.Gen
open Idealize.ShloMosaic

variable {F : FTy → Type} [FloatOps F]

namespace Indep

/-! ## The slice of a point, as a condition on the column -/

/-- Index `y` of the column minima lies in the slice point `i` works on. -/
def InSl (i : grid0.Coords) (y : S1x8192.Idx) : Prop :=
  ∀ a, (k0_off2 i) a ≤ (y a).val ∧ (y a).val < (k0_off2 i) a + S1x1024.size a

/-- The slice of point `i` is the columns `1024 * j .. 1024 * j + 1023`, `j` its column block. -/
theorem inSl_iff (i : grid0.Coords) (y : S1x8192.Idx) :
    InSl i y ↔ (1024 * (i 1).val ≤ (y 1).val ∧ (y 1).val < 1024 * (i 1).val + 1024) := by
  unfold InSl
  rw [k0_off2_eq i]
  constructor
  · intro h
    exact h 1
  · intro h a
    have h0 : (y 0).val < 1 := (y 0).isLt
    fin_cases a
    · exact ⟨Nat.zero_le _, by show (y 0).val < 0 + 1; omega⟩
    · exact h

/-- Reading a point's slice sees only the columns of that slice. -/
theorem slice_congr (cm cm' : Vec F S1x8192 .f32) (i : grid0.Coords)
    (h : ∀ y : S1x8192.Idx, 1024 * (i 1).val ≤ (y 1).val → (y 1).val < 1024 * (i 1).val + 1024 → cm y = cm' y) :
    slice cm i = slice cm' i := by
  funext x
  show cm ((Rect.unit (s := S1x8192) (k0_off2 i) S1x1024.size (offs_inb i)).idx x) = cm' ((Rect.unit (s := S1x8192) (k0_off2 i) S1x1024.size (offs_inb i)).idx x)
  have hx : (x 1).val < 1024 := (x 1).isLt
  have e : (((Rect.unit (s := S1x8192) (k0_off2 i) S1x1024.size (offs_inb i)).idx x) 1).val = 1024 * (i 1).val + (x 1).val := by
    show (k0_off2 i) 1 + 1 * (x 1).val = _
    rw [k0_off2_eq i, Nat.one_mul]
    rfl
  apply h
  · rw [e]; omega
  · rw [e]; omega

/-- Replacing a point's slice: inside the slice only the new values matter, outside only the old ones. -/
theorem upd_congr (cm cm' : Vec F S1x8192 .f32) (i : grid0.Coords) (w w' : Vec F S1x1024 .f32) (y : S1x8192.Idx)
    (hw : w = w') (h : ¬ InSl i y → cm y = cm' y) : upd cm i w y = upd cm' i w' y := by
  subst hw
  unfold upd
  by_cases hy : ∀ a, (k0_off2 i) a ≤ (y a).val ∧ (y a).val < (k0_off2 i) a + S1x1024.size a
  · rw [dif_pos hy, dif_pos hy]
  · rw [dif_neg hy, dif_neg hy]
    exact h hy

/-! ## The parts of one point -/

section Parts

variable (i : grid0.Coords) (x0 x1 : Vec F S1024x3 .f32) (x2 : Vec F S1024x1 .f32) (x3 : Vec F S1x1024 .f32) (s : St F)

theorem step_rm : (step i x0 x1 x2 x3 s).rm = k0_pay11 x0 x1 x2 x3 (if cond2 i then k0_pay9 else s.rm) := rfl

theorem step_sr : (step i x0 x1 x2 x3 s).sr
    = if cond5 i then k0_pay4 (if cond1 i then k0_pay7 else s.sr) (step i x0 x1 x2 x3 s).rm
      else (if cond1 i then k0_pay7 else s.sr) := rfl

theorem step_sc : (step i x0 x1 x2 x3 s).sc
    = if cond6 i then k0_pay5 (if cond1 i then k0_pay8 else s.sc) (slice (step i x0 x1 x2 x3 s).cm i)
      else (if cond1 i then k0_pay8 else s.sc) := rfl

/-- In the first row block the point's slice is overwritten. -/
theorem step_cm_first (h0 : (i 0).val = 0) :
    (step i x0 x1 x2 x3 s).cm = upd s.cm i (k0_pay2 (k0_pay12 x0 x1 x2 x3)) := by
  have h3 : cond3 i := (cond3_iff i).2 h0
  have h4 : ¬ cond4 i := fun h => (cond4_iff i).1 h h0
  show (if cond4 i then upd (if cond3 i then upd s.cm i (k0_pay2 (k0_pay12 x0 x1 x2 x3)) else s.cm) i
          (k0_pay3 (k0_pay12 x0 x1 x2 x3) (slice (if cond3 i then upd s.cm i (k0_pay2 (k0_pay12 x0 x1 x2 x3)) else s.cm) i))
        else (if cond3 i then upd s.cm i (k0_pay2 (k0_pay12 x0 x1 x2 x3)) else s.cm)) = _
  rw [if_neg h4, if_pos h3]

/-- In the later row blocks the point's slice is lowered, reading that slice only. -/
theorem step_cm_later (h0 : (i 0).val ≠ 0) :
    (step i x0 x1 x2 x3 s).cm = upd s.cm i (k0_pay3 (k0_pay12 x0 x1 x2 x3) (slice s.cm i)) := by
  have h3 : ¬ cond3 i := fun h => h0 ((cond3_iff i).1 h)
  have h4 : cond4 i := (cond4_iff i).2 h0
  show (if cond4 i then upd (if cond3 i then upd s.cm i (k0_pay2 (k0_pay12 x0 x1 x2 x3)) else s.cm) i
          (k0_pay3 (k0_pay12 x0 x1 x2 x3) (slice (if cond3 i then upd s.cm i (k0_pay2 (k0_pay12 x0 x1 x2 x3)) else s.cm) i))
        else (if cond3 i then upd s.cm i (k0_pay2 (k0_pay12 x0 x1 x2 x3)) else s.cm)) = _
  rw [if_pos h4, if_neg h3]

end Parts

/-! ## Agreement of two runs -/

/-- Two states agree but for the columns of the column minima from `w` on. -/
def Agree (w : ℕ) (s s' : St F) : Prop :=
  s.rm = s'.rm ∧ s.sr = s'.sr ∧ s.sc = s'.sc ∧ ∀ y : S1x8192.Idx, (y 1).val < w → s.cm y = s'.cm y

/-- One point keeps agreement once the column minima after it agree below `w`, the point's slice lying below `w`:
the row minima and the two sums follow by congruence (a part that the point resets needs no agreement before). -/
theorem step_agree_of_cm (i : grid0.Coords) (x0 x1 : Vec F S1024x3 .f32) (x2 : Vec F S1024x1 .f32)
    (x3 : Vec F S1x1024 .f32) (s s' : St F) (w : ℕ)
    (hrm : cond2 i ∨ s.rm = s'.rm) (hsr : cond1 i ∨ s.sr = s'.sr) (hsc : cond1 i ∨ s.sc = s'.sc)
    (hsl : 1024 * (i 1).val + 1024 ≤ w)
    (hcm : ∀ y : S1x8192.Idx, (y 1).val < w → (step i x0 x1 x2 x3 s).cm y = (step i x0 x1 x2 x3 s').cm y) :
    Agree w (step i x0 x1 x2 x3 s) (step i x0 x1 x2 x3 s') := by
  have e_rm : (step i x0 x1 x2 x3 s).rm = (step i x0 x1 x2 x3 s').rm := by
    rw [step_rm, step_rm]
    rcases hrm with h | h
    · rw [if_pos h, if_pos h]
    · rw [h]
  have e_sr1 : (if cond1 i then (k0_pay7 : Vec F S1x1 .f32) else s.sr) = (if cond1 i then k0_pay7 else s'.sr) := by
    rcases hsr with h | h
    · rw [if_pos h, if_pos h]
    · rw [h]
  have e_sc1 : (if cond1 i then (k0_pay8 : Vec F S1x1 .f32) else s.sc) = (if cond1 i then k0_pay8 else s'.sc) := by
    rcases hsc with h | h
    · rw [if_pos h, if_pos h]
    · rw [h]
  have e_sl : slice (step i x0 x1 x2 x3 s).cm i = slice (step i x0 x1 x2 x3 s').cm i :=
    slice_congr _ _ i (fun y _ h2 => hcm y (by omega))
  have e_sr : (step i x0 x1 x2 x3 s).sr = (step i x0 x1 x2 x3 s').sr := by
    rw [step_sr, step_sr, e_rm, e_sr1]
  have e_sc : (step i x0 x1 x2 x3 s).sc = (step i x0 x1 x2 x3 s').sc := by
    rw [step_sc, step_sc, e_sl, e_sc1]
  exact ⟨e_rm, e_sr, e_sc, hcm⟩

/-- The first point makes any two states agree below column 1024. -/
theorem agree_zero (x0 x1 : Vec F S1024x3 .f32) (x2 : Vec F S1024x1 .f32) (x3 : Vec F S1x1024 .f32) (s s' : St F) :
    Agree 1024 (step (co 0) x0 x1 x2 x3 s) (step (co 0) x0 x1 x2 x3 s') := by
  have h0 : ((co 0) 0).val = 0 := co_val0 0 (by omega)
  have h1 : ((co 0) 1).val = 0 := co_val1 0 (by omega)
  have c1 : cond1 (co 0) := (cond1_iff _).2 ⟨h0, h1⟩
  have c2 : cond2 (co 0) := (cond2_iff _).2 h1
  refine step_agree_of_cm _ _ _ _ _ s s' 1024 (.inl c2) (.inl c1) (.inl c1) (by rw [h1]) ?_
  intro y hy
  rw [step_cm_first _ _ _ _ _ _ h0, step_cm_first _ _ _ _ _ _ h0]
  apply upd_congr _ _ _ _ _ _ rfl
  intro hn
  exfalso
  apply hn
  rw [inSl_iff, h1]
  omega

/-- A later point of the first row block overwrites the next slice: agreement grows by 1024 columns. -/
theorem agree_first (n : ℕ) (hn : n + 1 < 8) (x0 x1 : Vec F S1024x3 .f32) (x2 : Vec F S1024x1 .f32)
    (x3 : Vec F S1x1024 .f32) (s s' : St F) (h : Agree (1024 * (n + 1)) s s') :
    Agree (1024 * (n + 2)) (step (co (n + 1)) x0 x1 x2 x3 s) (step (co (n + 1)) x0 x1 x2 x3 s') := by
  have h0 : ((co (n + 1)) 0).val = 0 := by rw [co_val0 _ (by omega)]; omega
  have h1 : ((co (n + 1)) 1).val = n + 1 := by rw [co_val1 _ (by omega)]; omega
  obtain ⟨a, b, c, d⟩ := h
  refine step_agree_of_cm _ _ _ _ _ s s' _ (.inr a) (.inr b) (.inr c) (by rw [h1]; omega) ?_
  intro y hy
  rw [step_cm_first _ _ _ _ _ _ h0, step_cm_first _ _ _ _ _ _ h0]
  apply upd_congr _ _ _ _ _ _ rfl
  intro hn'
  apply d
  rw [inSl_iff, h1] at hn'
  omega

/-- A point of a later row block reads and changes only its own slice: full agreement is kept. -/
theorem agree_later (n : ℕ) (h8 : 8 ≤ n + 1) (h64 : n + 1 < 64) (x0 x1 : Vec F S1024x3 .f32) (x2 : Vec F S1024x1 .f32)
    (x3 : Vec F S1x1024 .f32) (s s' : St F) (h : Agree 8192 s s') :
    Agree 8192 (step (co (n + 1)) x0 x1 x2 x3 s) (step (co (n + 1)) x0 x1 x2 x3 s') := by
  have h0 : ((co (n + 1)) 0).val ≠ 0 := by rw [co_val0 _ h64]; omega
  have h1 : ((co (n + 1)) 1).val < 8 := by rw [co_val1 _ h64]; omega
  obtain ⟨a, b, c, d⟩ := h
  refine step_agree_of_cm _ _ _ _ _ s s' 8192 (.inr a) (.inr b) (.inr c) (by omega) ?_
  intro y hy
  rw [step_cm_later _ _ _ _ _ _ h0, step_cm_later _ _ _ _ _ _ h0]
  apply upd_congr
  · rw [slice_congr s.cm s'.cm _ (fun y _ h2 => d y (by omega))]
  · intro _
    exact d y hy

/-- How many leading columns of the column minima two runs agree on after point `n`. -/
def W (n : ℕ) : ℕ := if n < 8 then 1024 * (n + 1) else 8192

/-- After point `n` the two runs agree below column `W n`, whatever the two starting states. -/
theorem agree_iter (X0 X1 : ℕ → Vec F S1024x3 .f32) (X2 : ℕ → Vec F S1024x1 .f32) (X3 : ℕ → Vec F S1x1024 .f32)
    (s₀ s₀' : St F) : ∀ n, n < 64 → Agree (W n) (iter X0 X1 X2 X3 s₀ n) (iter X0 X1 X2 X3 s₀' n)
  | 0, _ => by
    rw [iter_zero, iter_zero]
    exact agree_zero _ _ _ _ _ _
  | n + 1, h => by
    have ih := agree_iter X0 X1 X2 X3 s₀ s₀' n (by omega)
    rw [iter_succ, iter_succ]
    by_cases h8 : n + 1 < 8
    · have e1 : W n = 1024 * (n + 1) := by unfold W; rw [if_pos (by omega)]
      have e2 : W (n + 1) = 1024 * (n + 2) := by unfold W; rw [if_pos h8]
      rw [e1] at ih
      rw [e2]
      exact agree_first n h8 _ _ _ _ _ _ ih
    · have e1 : W n = 8192 := by unfold W; split <;> omega
      have e2 : W (n + 1) = 8192 := by unfold W; rw [if_neg h8]
      rw [e1] at ih
      rw [e2]
      exact agree_later n (by omega) h _ _ _ _ _ _ ih

end Indep

open Indep in
theorem indep (X0 X1 : ℕ → Vec F S1024x3 .f32) (X2 : ℕ → Vec F S1024x1 .f32) (X3 : ℕ → Vec F S1x1024 .f32) (s₀ s₀' : St F) :
    (iter X0 X1 X2 X3 s₀ 63).sr = (iter X0 X1 X2 X3 s₀' 63).sr
      ∧ (iter X0 X1 X2 X3 s₀ 63).sc = (iter X0 X1 X2 X3 s₀' 63).sc := by
  have h := agree_iter X0 X1 X2 X3 s₀ s₀' 63 (by omega)
  exact ⟨h.2.1, h.2.2.1⟩

end Cert.KernelIdeal.Chamfer

end
-- ==== Proof.KI.Body.lean ====
/-
  The frame of the kernel's program: the pipeline's proof data, with the four scratch arrays followed from point to
  point by `step`, the body's obligation at every grid point, and the run of @main.

  Before the first point the scratch arrays hold anything; after point `n` they hold `stAt s₀ n`, the `n`-fold
  `step` from SOME contents `s₀` before the first point. The result block is stored at the last point only, and
  what is stored there does not depend on `s₀` (KI/Indep.lean): the proof data name it `outFin`.
-/
import proofs.«150379_j32186484916784_1_alg».proof.Proof.KI.RunAll
import proofs.«150379_j32186484916784_1_alg».proof.Proof.KI.Indep

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The state along the grid -/

/-- The four input blocks of point `n`. -/
def B0 (c : Dev nD) (n : ℕ) : Vec F S1024x3 .f32 := iblk m c 0 (pt n)
def B1 (c : Dev nD) (n : ℕ) : Vec F S1024x3 .f32 := iblk m c 1 (pt n)
def B2 (c : Dev nD) (n : ℕ) : Vec F S1024x1 .f32 := iblk m c 2 (pt n)
def B3 (c : Dev nD) (n : ℕ) : Vec F S1x1024 .f32 := iblk m c 3 (pt n)

/-- The scratch arrays after point `n`, from their contents `s₀` before the first point. -/
def stAt (c : Dev nD) (s₀ : St F) (n : ℕ) : St F := iter (B0 m c) (B1 m c) (B2 m c) (B3 m c) s₀ n

/-- Some state (what the scratch arrays hold before the first point does not matter). -/
def st0 : St F := ⟨k0_pay9, constant S1x8192 .f32 0x00000000#32, k0_pay7, k0_pay8⟩

/-- What the last point stores into the result block. -/
def outFin (c : Dev nD) : Vec F S1x1 .f32 := outv (stAt m c st0 63)

theorem outv_indep (c : Dev nD) (s₀ : St F) : outv (stAt m c s₀ 63) = outFin m c := by
  unfold outFin outv stAt
  obtain ⟨h1, h2⟩ := indep (B0 m c) (B1 m c) (B2 m c) (B3 m c) s₀ st0
  rw [h1, h2]

/-- The first point steps from the contents before it. -/
theorem stAt_first (c : Dev nD) (s₀ : St F) (t : Fin cfg0.N) (hz : t.val = 0) :
    step (grid0.coords t) (iblk m c 0 t) (iblk m c 1 t) (iblk m c 2 t) (iblk m c 3 t) s₀ = stAt m c s₀ t.val := by
  obtain ⟨n, hn⟩ := t
  obtain rfl : n = 0 := hz
  unfold stAt; rw [iter_zero]; unfold B0 B1 B2 B3 co
  rw [pt_val ⟨0, hn⟩]

/-- A later point steps from what the point before left. -/
theorem stAt_later (c : Dev nD) (s₀ : St F) (t : Fin cfg0.N) (hz : t.val ≠ 0) :
    step (grid0.coords t) (iblk m c 0 t) (iblk m c 1 t) (iblk m c 2 t) (iblk m c 3 t) (stAt m c s₀ (t.val - 1)) = stAt m c s₀ t.val := by
  obtain ⟨n, hn⟩ := t
  cases n with
  | zero => exact absurd rfl hz
  | succ n =>
    show step _ _ _ _ _ (stAt m c s₀ n) = stAt m c s₀ (n + 1)
    unfold stAt; rw [iter_succ]; unfold B0 B1 B2 B3 co
    rw [pt_val ⟨n + 1, hn⟩]

/-! ## The memrefs the body is called with -/

abbrev ms0 (t : Fin cfg0.N) : Memref sig .tc .vmem S1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The four scratch arrays: whole scoped buffers of the kernel's own. -/
abbrev scM0 : Memref sig .tc .vmem S1024x1 .f32 := Memref.whole cc0_scratch0
abbrev scM1 : Memref sig .tc .vmem S1x8192 .f32 := Memref.whole cc0_scratch1
abbrev scM2 : Memref sig .tc .vmem S1x1 .f32 := Memref.whole cc0_scratch2
abbrev scM3 : Memref sig .tc .vmem S1x1 .f32 := Memref.whole cc0_scratch3

/-- What the launch hands the region: the four scratch arrays at some contents and the generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- The result window is idle, and not written back, at every point but the last. -/
theorem idleAt4 : ∀ t : Fin cfg0.N, ¬cond7 (grid0.coords t) → cfg0.idle 4 (grid0.coords t) = true := by decide +kernel
theorem noFlush4 : ∀ t : Fin cfg0.N, ¬cond7 (grid0.coords t) → (cfg0.win 4).flush t = false := by decide +kernel
theorem liveAt4 : ∀ t : Fin cfg0.N, cond7 (grid0.coords t) → cfg0.idle 4 (grid0.coords t) = false := by decide +kernel
theorem last_of_cond7 : ∀ t : Fin cfg0.N, cond7 (grid0.coords t) → t.val = 63 :=
  (by decide +kernel : ∀ t : Fin grid0.N, cond7 (grid0.coords t) → t.val = 63)

/-! ## The invariant and the proof data -/

/-- The region invariant before point `n`. -/
def PhiS (c : Dev nD) : ℕ → sProp 𝕄
  | 0 => Pipeline.ΦA spec0 c
  | n + 1 => iprop(iprop(∃ s₀ : St F, owns (c : Thread nD τ) scM0 fullShare (stAt m c s₀ n).rm ∗ owns (c : Thread nD τ) scM1 fullShare (stAt m c s₀ n).cm
      ∗ owns (c : Thread nD τ) scM2 fullShare (stAt m c s₀ n).sr ∗ owns (c : Thread nD τ) scM3 fullShare (stAt m c s₀ n).sc) ∗ (∃ r, prngReg c r))

theorem PhiS_zero (c : Dev nD) (n : ℕ) (hz : n = 0) : PhiS m c n = Pipeline.ΦA spec0 c := by subst hz; rfl
theorem PhiS_succ (c : Dev nD) (n : ℕ) :
    PhiS m c (n + 1) = iprop(iprop(∃ s₀ : St F, owns (c : Thread nD τ) scM0 fullShare (stAt m c s₀ n).rm ∗ owns (c : Thread nD τ) scM1 fullShare (stAt m c s₀ n).cm
      ∗ owns (c : Thread nD τ) scM2 fullShare (stAt m c s₀ n).sr ∗ owns (c : Thread nD τ) scM3 fullShare (stAt m c s₀ n).sc) ∗ (∃ r, prngReg c r)) := rfl
theorem PhiS_pos (c : Dev nD) (n : ℕ) (hz : n ≠ 0) :
    PhiS m c n = iprop(iprop(∃ s₀ : St F, owns (c : Thread nD τ) scM0 fullShare (stAt m c s₀ (n - 1)).rm ∗ owns (c : Thread nD τ) scM1 fullShare (stAt m c s₀ (n - 1)).cm
      ∗ owns (c : Thread nD τ) scM2 fullShare (stAt m c s₀ (n - 1)).sr ∗ owns (c : Thread nD τ) scM3 fullShare (stAt m c s₀ (n - 1)).sc) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outFin m c
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outFin m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  by_cases h7 : cond7 (grid0.coords t)
  · have ht : t.val = 63 := last_of_cond7 t h7
    have hz : t.val ≠ 0 := by omega
    rw [show (dats m 0 c).leavesExact 4 t = owns (c : Thread nD τ) (ms4 t) fullShare ((dats m 0 c).after 4 t) from by
      unfold Dat.leavesExact; rw [liveAt4 t h7], after4]
    rw [PhiS_castSucc m c t, PhiS_pos m c _ hz]
    iintro ⟨⟨⟨%s₀, HS0, HS1, HS2, HS3⟩, Hg⟩, Ho, ⟨%d0, H0⟩, ⟨%d1, H1⟩, ⟨%d2, H2⟩, ⟨%d3, H3⟩, ⟨%d4, H4⟩⟩
    have hout : outv (stAt m c s₀ t.val) = outFin m c := by rw [ht]; exact outv_indep m c s₀
    iapply (run_last c (grid0.coords t) _ _ _ _ _ _ _ _ _ _ _ _ _ _ _ _ _ _ h7 (iblk m c 0 t) (iblk m c 1 t) (iblk m c 2 t) (iblk m c 3 t) _
      (stAt m c s₀ (t.val - 1)) Set.univ _ (stAt m c s₀ t.val) (stAt_later m c s₀ t hz))
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    rw [hout]
    isplitl [HS0 HS1 HS2 HS3 Hg]
    · isplitl [HS0 HS1 HS2 HS3]
      · iexists s₀
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    iexact H4
  · rw [Dat.leavesExact_idle (dats m 0 c) 4 t (idleAt4 t h7) (noFlush4 t h7)]
    by_cases hz : t.val = 0
    · rw [PhiS_castSucc m c t, PhiS_zero m c _ hz, PhiA0_eq]
      iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩⟩
      iapply (run_idle c (grid0.coords t) _ _ _ _ _ _ _ _ _ _ _ _ _ _ _ _ _ _ h7 (iblk m c 0 t) (iblk m c 1 t) (iblk m c 2 t) (iblk m c 3 t) _
        (⟨e0, e1, e2, e3⟩ : St F) Set.univ _ (stAt m c ⟨e0, e1, e2, e3⟩ t.val) (stAt_first m c ⟨e0, e1, e2, e3⟩ t hz))
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitl [HS0 HS1 HS2 HS3]
        · iexists (⟨e0, e1, e2, e3⟩ : St F)
          isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ hz]
      iintro ⟨⟨⟨%s₀, HS0, HS1, HS2, HS3⟩, Hg⟩, Ho, ⟨%d0, H0⟩, ⟨%d1, H1⟩, ⟨%d2, H2⟩, ⟨%d3, H3⟩, ⟨%d4, H4⟩⟩
      iapply (run_idle c (grid0.coords t) _ _ _ _ _ _ _ _ _ _ _ _ _ _ _ _ _ _ h7 (iblk m c 0 t) (iblk m c 1 t) (iblk m c 2 t) (iblk m c 3 t) _
        (stAt m c s₀ (t.val - 1)) Set.univ _ (stAt m c s₀ t.val) (stAt_later m c s₀ t hz))
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitl [HS0 HS1 HS2 HS3]
        · iexists s₀
          isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives the scratch arrays back at some contents. -/
theorem hout (c : Dev nD) : (dats m 0 c).Φ (Fin.last cfg0.N) ⊢ Pipeline.ΦA spec0 c := by
  have hN : (Fin.last cfg0.N).val ≠ 0 := by rw [Fin.val_last]; have : cfg0.N = 64 := N_0; omega
  rw [show (dats m 0 c).Φ (Fin.last cfg0.N) = PhiS m c (Fin.last cfg0.N).val from rfl, PhiS_pos m c _ hN, PhiA0_eq]
  iintro ⟨⟨%s₀, HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-! ## The run and the frame -/

set_option backward.isDefEq.respectTransparency.types false in
/-- Every weakly fair execution of @main terminates, and every final state has every array of the pipeline at what the
    library computes from the proof data and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end, faults nowhere, and leaves the two clouds as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Chamfer

end
-- ==== Proof.KI.Value.lean ====
/-
  The kernel's result after the run: the result block is written back once, at the last grid point, so the 1 x 1
  result array ends holding what that point stored, and @main's last line reshapes it to a scalar.
-/
import proofs.«150379_j32186484916784_1_alg».proof.Proof.KI.Body
import Idealize.ShloMosaic.Lib.Pipeline.Value
import Idealize.ShloMosaic.Lib.StableHlo.Run
import Idealize.ShloMosaic.Lib.ValueIdx

set_option maxRecDepth 16384

noncomputable section

namespace Cert.KernelIdeal.Chamfer

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (m : (ℓ : Loc nD τ sig) → Buf (Elt F) ℓ) (ρ : Dev nD → PrngReg)

/-- A 1 x 1 array has one index. -/
theorem idx11_eq (x y : S1x1.Idx) : x = y := by
  have h1 : x 0 = y 0 := Fin.ext (by have := idx2_lt0 x; have := idx2_lt0 y; omega)
  have h2 : x 1 = y 1 := Fin.ext (by have := idx2_lt1 x; have := idx2_lt1 y; omega)
  rw [eq_ix2 x, eq_ix2 y, h1, h2]

/-- What a point writes back of the result window is the one entry of `outFin`. -/
theorem flushed4_eq (c : Dev nD) (t : Fin cfg0.N) :
    (dats m 0 c).flushed 4 t = ((cfg0.win 4).blk t).view.read (Elt F) (outFin m c) := by
  show (cfg0.win 4).cut (grid0.coords t) ((dats m 0 c).after 4 t) = _
  rw [after4]
  funext j
  show outFin m c j = outFin m c (((cfg0.win 4).blk t).view.emb j)
  exact congrArg (outFin m c) (idx11_eq _ _)

theorem lastPt_lt : 63 < cfg0.N := by have : cfg0.N = 64 := N_0; omega

/-- The last point's block is the whole result array. -/
theorem cover4 (i : S1x1.Idx) :
    ∃ t : Fin cfg0.N, (cfg0.win 4).flush t = true ∧ i ∈ ((cfg0.win 4).blk t).view.set := by
  refine ⟨⟨63, lastPt_lt⟩, (flush0_4 _).mpr (by decide), ?_⟩
  have hmem := ((cfg0.win 4).blk ⟨63, lastPt_lt⟩).view.emb_mem_set (ix2 (0 : Fin 1) (0 : Fin 1))
  rw [idx11_eq (((cfg0.win 4).blk ⟨63, lastPt_lt⟩).view.emb (ix2 (0 : Fin 1) (0 : Fin 1))) i] at hmem
  exact hmem

/-- The result array after the run. -/
theorem final4 (c : Dev nD) : (dats m 0 c).arrAt 4 cfg0.N = outFin m c :=
  (dats m 0 c).arrAt_eq_of_cover 4 (outFin m c) (fun t _ => flushed4_eq m c t) (cover4)

/-- The scalar result bypasses the region. -/
theorem v8_mem : main_v8 ∈ Pipeline.restRefs sig spec0 := Pipeline.mem_restRefs_of main_v8 rfl (by decide)

/-- @main's last line reshapes the 1 x 1 result array to the scalar result. -/
theorem tail_v8 (c : Dev nD) :
    Pipeline.afterTail₀ cfgs (dats m) 0 (V0 m) [hostOps1] c main_v8 = fun _ => outFin m c (ix2 0 0) := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.tc.devRef main_v7) = outFin m c :=
    (Pipeline.withArrays_arr spec0 launch0.win.arr_inj c _ _ 4).trans (final4 m c)
  funext i
  obtain rfl := eq_ix0 i
  show shapeCast S_ (Pipeline.withArrays (cfgs 0).spec c (V0 m c) (fun w => (dats m 0 c).arrAt w (cfgs 0).N) (Proc.tc.devRef main_v7)) shapeCasts_S1x1_S_ ix0 = _
  rw [hw]
  exact shapeCast_apply (outFin m c) shapeCasts_S1x1_S_ ix0 (ix2 0 0) (by decide)

/-- The kernel's program runs to the end with its scalar result at the one entry of `outFin`, the clouds unchanged. -/
theorem kernel_run : θ_run defs (onTc (τ := τ) (main (F := F))) ⟨m, fun _ => 0, ρ⟩ (fun r => ∀ c : Dev nD,
      r.2.mem ((c.tc : Thread nD τ).loc main_v8) = (fun _ => outFin m c (ix2 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v8 v8_mem).trans (tail_v8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.Chamfer

end
-- ==== Proof.KI.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.KI.Pay.lean ====
/-
  The body's payloads read at an index, over the extended reals.
-/
import proofs.«150379_j32186484916784_1_alg».proof.Proof.KI.State
import proofs.«150379_j32186484916784_1_alg».proof.Proof.KI.LibMatmul
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Chamfer

open Cert.KernelIdeal Cert.KernelIdeal.Gen
open Idealize.ShloMosaic Idealize.ShloMosaic.ValueIdx
open scoped BigOperators

/-! ## The constants' words -/

/-- The word 0x40000000 is the real 2. -/
theorem ofBits_two_f32 : Ideal.ofBits .f32 0x40000000#32 = ((2 : ℝ) : EReal) := by
  simp [Ideal.ofBits, Ideal.ieee, -EReal.coe_mul]; norm_num

/-- The word 0x46000000 is the real 8192. -/
theorem ofBits_8192_f32 : Ideal.ofBits .f32 0x46000000#32 = ((8192 : ℝ) : EReal) := by
  simp [Ideal.ofBits, Ideal.ieee, -EReal.coe_mul]; norm_num

/-- The word 0x7F800000 is +∞. -/
theorem ofBits_inf_f32 : Ideal.ofBits .f32 0x7F800000#32 = ⊤ := by
  simp [Ideal.ofBits, Ideal.ieee]

/-! ## The two minimum reductions of the distance tile -/

/-- Inserting the column q into the row index r of the 1024 × 1024 tile gives (r, q). -/
theorem lift_row (h : S1024x1024.Reduces [1] S1024) (r q : Fin 1024) : h.lift (ix1 r) q = ix2 r q := by
  funext a
  match a with
  | ⟨0, _⟩ => exact Fin.ext rfl
  | ⟨1, _⟩ => exact Fin.ext rfl

/-- Inserting the row r into the column index q of the 1024 × 1024 tile gives (r, q). -/
theorem lift_col (h : S1024x1024.Reduces [0] S1024) (q r : Fin 1024) : h.lift (ix1 q) r = ix2 r q := by
  funext a
  match a with
  | ⟨0, _⟩ => exact Fin.ext rfl
  | ⟨1, _⟩ => exact Fin.ext rfl

/-- A minimum reduction of the tile along its columns, from +∞: at row r the infimum over the columns. -/
theorem minRow_apply (t : FVec Ideal S1024x1024 .f32) (h : S1024x1024.Reduces [1] S1024) (hφ : FKind.Formats .f32)
    (hacc : (0x7F800000#32 : BitVec 32) = FKind.minimumf.neutral .f32 hφ) (r : Fin 1024) :
    multiReduction (F := Ideal) .minimumf [1] S1024 t 0x7F800000#32 h hφ hacc (ix1 r)
      = Finset.univ.inf fun q : Fin 1024 => t (ix2 r q) := by
  rw [multiReduction_minimumf_eq_fold]
  refine (h.fold_filter_drop_single _ _ t (ix1 r)).trans ?_
  have e : (t ∘ h.lift (ix1 r)) = fun q : Fin 1024 => t (ix2 r q) := funext fun q => congrArg t (lift_row h r q)
  rw [e]
  show (Finset.univ : Finset (Fin 1024)).fold (fun x y : EReal => min x y) (Ideal.ofBits .f32 0x7F800000#32) _ = _
  rw [ofBits_inf_f32]
  rfl

/-- A minimum reduction of the tile along its rows, from +∞: at column q the infimum over the rows. -/
theorem minCol_apply (t : FVec Ideal S1024x1024 .f32) (h : S1024x1024.Reduces [0] S1024) (hφ : FKind.Formats .f32)
    (hacc : (0x7F800000#32 : BitVec 32) = FKind.minimumf.neutral .f32 hφ) (q : Fin 1024) :
    multiReduction (F := Ideal) .minimumf [0] S1024 t 0x7F800000#32 h hφ hacc (ix1 q)
      = Finset.univ.inf fun r : Fin 1024 => t (ix2 r q) := by
  rw [multiReduction_minimumf_eq_fold]
  refine (h.fold_filter_drop_single _ _ t (ix1 q)).trans ?_
  have e : (t ∘ h.lift (ix1 q)) = fun r : Fin 1024 => t (ix2 r q) := funext fun r => congrArg t (lift_col h q r)
  rw [e]
  show (Finset.univ : Finset (Fin 1024)).fold (fun x y : EReal => min x y) (Ideal.ofBits .f32 0x7F800000#32) _ = _
  rw [ofBits_inf_f32]
  rfl

/-! ## The index sets of the two sum reductions -/

/-- The indices of a 1 × n × 1 array are its middle coordinates. -/
def midIdx (n : ℕ) : Fin n ≃ (⟨3, ![1, n, 1]⟩ : Shape).Idx where
  toFun k := ix3 (0 : Fin 1) k (0 : Fin 1)
  invFun i := i 1
  left_inv k := rfl
  right_inv i := by
    funext a
    match a with
    | ⟨0, _⟩ => exact Fin.ext (Fin.val_eq_zero (i 0)).symm
    | ⟨1, _⟩ => rfl
    | ⟨2, _⟩ => exact Fin.ext (Fin.val_eq_zero (i 2)).symm

/-- The indices of a 1 × 1 × n array are its last coordinates. -/
def lastIdx (n : ℕ) : Fin n ≃ (⟨3, ![1, 1, n]⟩ : Shape).Idx where
  toFun k := ix3 (0 : Fin 1) (0 : Fin 1) k
  invFun i := i 2
  left_inv k := rfl
  right_inv i := by
    funext a
    match a with
    | ⟨0, _⟩ => exact Fin.ext (Fin.val_eq_zero (i 0)).symm
    | ⟨1, _⟩ => exact Fin.ext (Fin.val_eq_zero (i 1)).symm
    | ⟨2, _⟩ => rfl

/-! ## The distance tile's operands -/

/-- A column (1024 × 1) broadcast over the columns of the 1024 × 1024 tile reads, at (p, c), the column at p. -/
theorem broadcastTo_a1_ab_apply {α : Type} (v : (⟨2, ![1024, 1]⟩ : Shape).Idx → α)
    (h : (⟨2, ![1024, 1]⟩ : Shape).Broadcasts ⟨2, ![1024, 1024]⟩) (p c : Fin 1024) :
    broadcastTo ⟨2, ![1024, 1024]⟩ v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- The tile's product contracts the left operand's second axis with the right operand's first, with no batch axis:
    the dimension numbers of a plain 1024 × 3 by 3 × 1024 product. -/
theorem dot_eq_plain : dot_S1024x3_S3x1024_S1024x1024_1_0_0_1_n_n = DotDims.plain 1024 3 1024 := rfl

/-! ## The payloads -/

theorem pay10_apply (x0 x1 : Vec Ideal S1024x3 .f32) (x2 : Vec Ideal S1024x1 .f32) (x3 : Vec Ideal S1x1024 .f32) (r q : Fin 1024) :
    k0_pay10 (F := Ideal) x0 x1 x2 x3 (ix2 r q)
      = Ideal.sqrt (max (x2 (ix2 r 0) + x3 (ix2 0 q) - ((2 : ℝ) : EReal) * ∑ k : Fin 3, x0 (ix2 r k) * x1 (ix2 q k)) 0) := by
  unfold k0_pay10
  simp only [shapeCast_self]
  show Ideal.sqrt (max ((broadcastTo S1024x1024 x2 broadcasts_S1024x1_S1024x1024 (ix2 r q)
        + broadcastTo S1024x1024 x3 broadcasts_S1x1024_S1024x1024 (ix2 r q))
      - Ideal.ofBits .f32 0x40000000#32 * FloatOps.matmul (F := Ideal) dot_S1024x3_S3x1024_S1024x1024_1_0_0_1_n_n (some .fp32) x0
          (transpose S3x1024 [1, 0] x1 transposes_S1024x3_p1_0_S3x1024) (constant (F := Ideal) S1024x1024 .f32 0x00000000#32) (ix2 r q))
      (Ideal.ofBits .f32 0x00000000#32)) = _
  rw [ofBits_two_f32, Ideal.ofBits_zero_f32, broadcastTo_1b_ab_apply, broadcastTo_a1_ab_apply, dot_eq_plain,
    Cert.Matmul.matmul_plain_apply]
  refine congrArg (fun s => Ideal.sqrt (max (x2 (ix2 r 0) + x3 (ix2 0 q) - ((2 : ℝ) : EReal) * s) 0)) ?_
  exact Finset.sum_congr rfl fun k _ => congrArg (x0 (ix2 r k) * ·) (transpose_ix2_apply x1 _ k q)

theorem pay11_apply (x0 x1 : Vec Ideal S1024x3 .f32) (x2 : Vec Ideal S1024x1 .f32) (x3 : Vec Ideal S1x1024 .f32)
    (rm : Vec Ideal S1024x1 .f32) (r : Fin 1024) :
    k0_pay11 (F := Ideal) x0 x1 x2 x3 rm (ix2 r 0)
      = min (rm (ix2 r 0)) (Finset.univ.inf fun q : Fin 1024 => k0_pay10 (F := Ideal) x0 x1 x2 x3 (ix2 r q)) := by
  unfold k0_pay11
  rw [shapeCast_self]
  refine (minimumf_apply _ _ _).trans ?_
  refine congrArg (min (rm (ix2 r 0))) ?_
  refine (shapeCast_apply _ _ (ix2 r 0) (ix1 r) ?_).trans (minRow_apply _ _ _ _ r)
  rw [Shape.rowMajor_val_one, Shape.rowMajor_val_two]
  show r.val = r.val * 1 + 0
  omega

theorem pay1_12_apply (x0 x1 : Vec Ideal S1024x3 .f32) (x2 : Vec Ideal S1024x1 .f32) (x3 : Vec Ideal S1x1024 .f32) (q : Fin 1024) :
    k0_pay1 (F := Ideal) (k0_pay12 x0 x1 x2 x3) (ix2 0 q)
      = Finset.univ.inf fun r : Fin 1024 => k0_pay10 (F := Ideal) x0 x1 x2 x3 (ix2 r q) := by
  unfold k0_pay1 k0_pay12
  exact (shapeCast_a_1a_apply _ _ 0 q).trans (minCol_apply _ _ _ _ q)

theorem pay2_eq (v32 : FVec Ideal S1024 .f32) : k0_pay2 (F := Ideal) v32 = k0_pay1 v32 := by
  unfold k0_pay2
  exact shapeCast_self _ _

theorem pay3_apply (v32 : FVec Ideal S1024 .f32) (old : Vec Ideal S1x1024 .f32) (q : Fin 1024) :
    k0_pay3 (F := Ideal) v32 old (ix2 0 q) = min (old (ix2 0 q)) (k0_pay1 (F := Ideal) v32 (ix2 0 q)) := by
  unfold k0_pay3
  rw [shapeCast_self]
  rfl

theorem pay4_apply (sr : Vec Ideal S1x1 .f32) (rm : Vec Ideal S1024x1 .f32) :
    k0_pay4 (F := Ideal) sr rm (ix2 0 0) = sr (ix2 0 0) + ∑ r : Fin 1024, rm (ix2 r 0) := by
  unfold k0_pay4
  rw [shapeCast_self]
  refine (addf_apply _ _ _).trans ?_
  refine congrArg (sr (ix2 0 0) + ·) ?_
  show shapeCast S1x1x1 _ shapeCasts_S1_S1x1x1 (fun a => ⟨(![0, 0, 0] : Fin 3 → ℕ) a, inpos_S1x1x1_p0_0_0 a⟩) = _
  refine (shapeCast_apply _ _ _ (ix1 0) ?_).trans ?_
  · rw [Shape.rowMajor_val_one, Shape.rowMajor_val_three]; rfl
  refine (Ideal.multiReduction_add_total _ _ _ (fun b => match b with | ⟨0, _⟩ => rfl) _ _ _).trans ?_
  refine (Equiv.sum_comp (midIdx 1024) _).symm.trans ?_
  exact Finset.sum_congr rfl fun k _ => shapeCast_ab_1ab_apply rm _ 0 k 0

theorem pay5_apply (sc : Vec Ideal S1x1 .f32) (sl : Vec Ideal S1x1024 .f32) :
    k0_pay5 (F := Ideal) sc sl (ix2 0 0) = sc (ix2 0 0) + ∑ q : Fin 1024, sl (ix2 0 q) := by
  unfold k0_pay5
  rw [shapeCast_self]
  refine (addf_apply _ _ _).trans ?_
  refine congrArg (sc (ix2 0 0) + ·) ?_
  show shapeCast S1x1x1 _ shapeCasts_S1_S1x1x1 (fun a => ⟨(![0, 0, 0] : Fin 3 → ℕ) a, inpos_S1x1x1_p0_0_0 a⟩) = _
  refine (shapeCast_apply _ _ _ (ix1 0) ?_).trans ?_
  · rw [Shape.rowMajor_val_one, Shape.rowMajor_val_three]; rfl
  refine (Ideal.multiReduction_add_total _ _ _ (fun b => match b with | ⟨0, _⟩ => rfl) _ _ _).trans ?_
  refine (Equiv.sum_comp (lastIdx 1024) _).symm.trans ?_
  exact Finset.sum_congr rfl fun k _ => shapeCast_ab_1ab_apply sl _ 0 0 k

theorem pay6_apply (sr sc : Vec Ideal S1x1 .f32) :
    k0_pay6 (F := Ideal) sr sc (ix2 0 0)
      = Ideal.div (sr (ix2 0 0)) ((8192 : ℝ) : EReal) + Ideal.div (sc (ix2 0 0)) ((8192 : ℝ) : EReal) := by
  unfold k0_pay6
  show Ideal.div (sr (ix2 0 0)) (Ideal.ofBits .f32 0x46000000#32) + Ideal.div (sc (ix2 0 0)) (Ideal.ofBits .f32 0x46000000#32) = _
  rw [ofBits_8192_f32]

theorem pay7_apply : k0_pay7 (F := Ideal) (ix2 0 0) = 0 := by
  unfold k0_pay7
  rw [shapeCast_self]
  exact Ideal.ofBits_zero_f32

theorem pay8_apply : k0_pay8 (F := Ideal) (ix2 0 0) = 0 := by
  unfold k0_pay8
  rw [shapeCast_self]
  exact Ideal.ofBits_zero_f32

theorem pay9_apply (r : Fin 1024) : k0_pay9 (F := Ideal) (ix2 r 0) = ⊤ := by
  unfold k0_pay9
  rw [shapeCast_self]
  exact ofBits_inf_f32

end Cert.KernelIdeal.Chamfer

end
-- ==== Proof.KI.Closed.lean ====
/-
  The two running sums after the last grid point, in closed form over the extended reals: the sum over all rows of
  the minimum over all columns of the distance tiles, and the sum over all columns of the minimum over all rows.
-/
import proofs.«150379_j32186484916784_1_alg».proof.Proof.KI.Pay

set_option maxRecDepth 16384

noncomputable section

namespace Cert.KernelIdeal.Chamfer

open Cert.KernelIdeal Cert.KernelIdeal.Gen
open Idealize.ShloMosaic Idealize.ShloMosaic.ValueIdx
open scoped BigOperators

namespace Closed

/-! ## Reading the column slice of a point -/

theorem off2_at0 (i : grid0.Coords) : k0_off2 i (0 : Fin 2) = 0 := by rw [k0_off2_eq]; rfl
theorem off2_at1 (i : grid0.Coords) : k0_off2 i (1 : Fin 2) = 1024 * (i 1).val := by rw [k0_off2_eq]; rfl

/-- The local column of a column of the whole array inside its block of 1024. -/
def lc (c : Fin 8192) : Fin 1024 := ⟨c.val % 1024, Nat.mod_lt _ (by norm_num)⟩

/-- The slice of point `i` at local column `q` is the array at column `1024 * j + q`. -/
theorem slice_apply (cm : Vec Ideal S1x8192 .f32) (i : grid0.Coords) (q : Fin 1024) (c : Fin 8192)
    (hc : c.val = 1024 * (i 1).val + q.val) :
    slice cm i (ix2 0 q) = cm (ix2 0 c) := by
  unfold slice View.ld
  congr 1
  funext a
  apply Fin.ext
  rw [LoadRect.idx_apply]
  match a with
  | ⟨0, _⟩ =>
    show k0_off2 i (0 : Fin 2) + 1 * 0 = 0
    rw [off2_at0]
  | ⟨1, _⟩ =>
    show k0_off2 i (1 : Fin 2) + 1 * q.val = c.val
    rw [off2_at1]; omega

/-- The array with the slice of point `i` replaced: the new values inside column block `j`, the old ones outside. -/
theorem upd_apply (cm : Vec Ideal S1x8192 .f32) (i : grid0.Coords) (w : Vec Ideal S1x1024 .f32) (c : Fin 8192) :
    upd cm i w (ix2 0 c) = if c.val / 1024 = (i 1).val then w (ix2 0 (lc c)) else cm (ix2 0 c) := by
  unfold upd
  by_cases hc : c.val / 1024 = (i 1).val
  · rw [if_pos hc, dif_pos]
    · congr 1
      funext a
      apply Fin.ext
      rw [Rect.unitLocal_val]
      match a with
      | ⟨0, _⟩ => rfl
      | ⟨1, _⟩ =>
        show c.val - (k0_off2 i) (1 : Fin 2) = c.val % 1024
        rw [off2_at1]
        omega
    · intro a
      match a with
      | ⟨0, _⟩ =>
        show k0_off2 i (0 : Fin 2) ≤ 0 ∧ 0 < k0_off2 i (0 : Fin 2) + 1
        rw [off2_at0]; omega
      | ⟨1, _⟩ =>
        show k0_off2 i (1 : Fin 2) ≤ c.val ∧ c.val < k0_off2 i (1 : Fin 2) + 1024
        rw [off2_at1]; omega
  · rw [if_neg hc, dif_neg]
    intro h
    have h1 : k0_off2 i (1 : Fin 2) ≤ c.val ∧ c.val < k0_off2 i (1 : Fin 2) + 1024 := h (1 : Fin 2)
    rw [off2_at1] at h1
    omega

/-- An infimum over `Fin n` of a function of the value is the infimum over `range n`. -/
theorem inf_fin_range (n : ℕ) (f : ℕ → EReal) : (Finset.univ.inf fun j : Fin n => f j.val) = (Finset.range n).inf f := by
  apply le_antisymm
  · apply Finset.le_inf
    intro k hk
    exact Finset.inf_le (f := fun j : Fin n => f j.val) (Finset.mem_univ ⟨k, Finset.mem_range.mp hk⟩)
  · apply Finset.le_inf
    intro k _
    exact Finset.inf_le (Finset.mem_range.mpr k.isLt)

end Closed

variable (X0 X1 : ℕ → Vec Ideal S1024x3 .f32) (X2 : ℕ → Vec Ideal S1024x1 .f32) (X3 : ℕ → Vec Ideal S1x1024 .f32)

/-- The distance tile of grid point `n`. -/
abbrev T (n : ℕ) : Vec Ideal S1024x1024 .f32 := k0_pay10 (F := Ideal) (X0 n) (X1 n) (X2 n) (X3 n)

namespace Closed

/-- The minimum of row `r` of tile `n`. -/
def rowmin (n : ℕ) (r : Fin 1024) : EReal := Finset.univ.inf fun q : Fin 1024 => T X0 X1 X2 X3 n (ix2 r q)
/-- The minimum of column `q` of tile `n`. -/
def colmin (n : ℕ) (q : Fin 1024) : EReal := Finset.univ.inf fun r : Fin 1024 => T X0 X1 X2 X3 n (ix2 r q)

/-! ## One point, read at an index -/

/-- The row minima after point `n`: reset at the first column block, then lowered by the tile's row minima. -/
theorem step_rm (n : ℕ) (hn : n < 64) (s : St Ideal) (r : Fin 1024) :
    (step (co n) (X0 n) (X1 n) (X2 n) (X3 n) s).rm (ix2 r 0)
      = min (if n % 8 = 0 then ⊤ else s.rm (ix2 r 0)) (rowmin X0 X1 X2 X3 n r) := by
  have e1 := co_val1 n hn
  show k0_pay11 (F := Ideal) (X0 n) (X1 n) (X2 n) (X3 n) (if cond2 (co n) then (k0_pay9 (F := Ideal)) else s.rm) (ix2 r 0) = _
  rw [pay11_apply]
  unfold rowmin
  congr 1
  by_cases h : n % 8 = 0
  · rw [if_pos h, if_pos ((cond2_iff _).mpr (by rw [e1]; exact h)), pay9_apply]
  · rw [if_neg h, if_neg (fun hc => h (by rw [← e1]; exact (cond2_iff _).mp hc))]

/-- The column minima after point `n`: inside column block `n % 8` overwritten by the tile's column minima in the
    first row block and lowered by them in the later ones; unchanged outside. -/
theorem step_cm (n : ℕ) (hn : n < 64) (s : St Ideal) (c : Fin 8192) :
    (step (co n) (X0 n) (X1 n) (X2 n) (X3 n) s).cm (ix2 0 c)
      = if c.val / 1024 = n % 8 then
          (if n / 8 = 0 then colmin X0 X1 X2 X3 n (lc c) else min (s.cm (ix2 0 c)) (colmin X0 X1 X2 X3 n (lc c)))
        else s.cm (ix2 0 c) := by
  have e0 := co_val0 n hn
  have e1 := co_val1 n hn
  by_cases h0 : n / 8 = 0
  · have h3 : cond3 (co n) := (cond3_iff _).mpr (by rw [e0]; exact h0)
    have h4 : ¬ cond4 (co n) := fun h => (cond4_iff _).mp h (by rw [e0]; exact h0)
    have e : (step (co n) (X0 n) (X1 n) (X2 n) (X3 n) s).cm
        = upd s.cm (co n) (k0_pay2 (k0_pay12 (X0 n) (X1 n) (X2 n) (X3 n))) := by
      simp only [step, if_pos h3, if_neg h4]
    rw [e, upd_apply, e1, if_pos h0, pay2_eq, pay1_12_apply]
    rfl
  · have h3 : ¬ cond3 (co n) := fun h => h0 (by rw [← e0]; exact (cond3_iff _).mp h)
    have h4 : cond4 (co n) := (cond4_iff _).mpr (by rw [e0]; exact h0)
    have e : (step (co n) (X0 n) (X1 n) (X2 n) (X3 n) s).cm
        = upd s.cm (co n) (k0_pay3 (k0_pay12 (X0 n) (X1 n) (X2 n) (X3 n)) (slice s.cm (co n))) := by
      simp only [step, if_neg h3, if_pos h4]
    rw [e, upd_apply, e1, if_neg h0]
    by_cases hj : c.val / 1024 = n % 8
    · rw [if_pos hj, if_pos hj, pay3_apply, pay1_12_apply,
        slice_apply s.cm (co n) (lc c) c (by rw [e1]; show c.val = 1024 * (n % 8) + c.val % 1024; omega)]
      rfl
    · rw [if_neg hj, if_neg hj]

/-- The sum of the row minima after point `n`: reset at the first point; the row minima are added at the last
    column block. -/
theorem step_sr (n : ℕ) (hn : n < 64) (s : St Ideal) :
    (step (co n) (X0 n) (X1 n) (X2 n) (X3 n) s).sr (ix2 0 0)
      = (if n = 0 then 0 else s.sr (ix2 0 0))
        + (if n % 8 = 7 then ∑ r : Fin 1024, (step (co n) (X0 n) (X1 n) (X2 n) (X3 n) s).rm (ix2 r 0) else 0) := by
  have e0 := co_val0 n hn
  have e1 := co_val1 n hn
  have hc1 : cond1 (co n) ↔ n = 0 := by rw [cond1_iff, e0, e1]; omega
  have hc5 : cond5 (co n) ↔ n % 8 = 7 := by rw [cond5_iff, e1]
  have hsr1 : (if cond1 (co n) then (k0_pay7 (F := Ideal)) else s.sr) (ix2 0 0) = if n = 0 then 0 else s.sr (ix2 0 0) := by
    by_cases h1 : n = 0
    · rw [if_pos (hc1.mpr h1), if_pos h1, pay7_apply]
    · rw [if_neg (fun h => h1 (hc1.mp h)), if_neg h1]
  by_cases h5 : n % 8 = 7
  · have e : (step (co n) (X0 n) (X1 n) (X2 n) (X3 n) s).sr
        = k0_pay4 (if cond1 (co n) then (k0_pay7 (F := Ideal)) else s.sr) (step (co n) (X0 n) (X1 n) (X2 n) (X3 n) s).rm := by
      simp only [step, if_pos (hc5.mpr h5)]
    rw [e, pay4_apply, hsr1, if_pos h5]
  · have e : (step (co n) (X0 n) (X1 n) (X2 n) (X3 n) s).sr = (if cond1 (co n) then (k0_pay7 (F := Ideal)) else s.sr) := by
      simp only [step, if_neg (fun h => h5 (hc5.mp h))]
    rw [e, hsr1, if_neg h5, add_zero]

/-- The sum of the column minima after point `n`: reset at the first point; the point's slice is added in the last
    row block. -/
theorem step_sc (n : ℕ) (hn : n < 64) (s : St Ideal) :
    (step (co n) (X0 n) (X1 n) (X2 n) (X3 n) s).sc (ix2 0 0)
      = (if n = 0 then 0 else s.sc (ix2 0 0))
        + (if n / 8 = 7 then ∑ q : Fin 1024, (step (co n) (X0 n) (X1 n) (X2 n) (X3 n) s).cm
              (ix2 0 ⟨1024 * (n % 8) + q.val, by have := q.isLt; omega⟩) else 0) := by
  have e0 := co_val0 n hn
  have e1 := co_val1 n hn
  have hc1 : cond1 (co n) ↔ n = 0 := by rw [cond1_iff, e0, e1]; omega
  have hc6 : cond6 (co n) ↔ n / 8 = 7 := by rw [cond6_iff, e0]
  have hsc1 : (if cond1 (co n) then (k0_pay8 (F := Ideal)) else s.sc) (ix2 0 0) = if n = 0 then 0 else s.sc (ix2 0 0) := by
    by_cases h1 : n = 0
    · rw [if_pos (hc1.mpr h1), if_pos h1, pay8_apply]
    · rw [if_neg (fun h => h1 (hc1.mp h)), if_neg h1]
  by_cases h6 : n / 8 = 7
  · have e : (step (co n) (X0 n) (X1 n) (X2 n) (X3 n) s).sc
        = k0_pay5 (if cond1 (co n) then (k0_pay8 (F := Ideal)) else s.sc)
            (slice (step (co n) (X0 n) (X1 n) (X2 n) (X3 n) s).cm (co n)) := by
      simp only [step, if_pos (hc6.mpr h6)]
    rw [e, pay5_apply, hsc1, if_pos h6]
    congr 1
    apply Finset.sum_congr rfl
    intro q _
    exact slice_apply _ (co n) q _ (by rw [e1])
  · have e : (step (co n) (X0 n) (X1 n) (X2 n) (X3 n) s).sc = (if cond1 (co n) then (k0_pay8 (F := Ideal)) else s.sc) := by
      simp only [step, if_neg (fun h => h6 (hc6.mp h))]
    rw [e, hsc1, if_neg h6, add_zero]

/-! ## The state after point `n`, in closed form -/

/-- The running row minima after point `n`: over the column blocks `0 … n % 8` of row block `n / 8`. -/
def RM (n : ℕ) (r : Fin 1024) : EReal :=
  (Finset.range (n % 8 + 1)).inf fun j => rowmin X0 X1 X2 X3 (8 * (n / 8) + j) r

/-- The running column minimum of column `c` after point `n`: over the row blocks that have visited its column
    block `c / 1024` so far; there are `(n + 8 - c / 1024) / 8` of them. -/
def CM (n : ℕ) (c : Fin 8192) : EReal :=
  (Finset.range ((n + 8 - c.val / 1024) / 8)).inf fun i => colmin X0 X1 X2 X3 (8 * i + c.val / 1024) (lc c)

theorem inv_rm (s₀ : St Ideal) : ∀ n, n < 64 → ∀ r : Fin 1024,
    (iter X0 X1 X2 X3 s₀ n).rm (ix2 r 0) = RM X0 X1 X2 X3 n r := by
  intro n
  induction n with
  | zero =>
    intro hn r
    rw [iter_zero, step_rm X0 X1 X2 X3 0 hn]
    simp [RM]
  | succ n ih =>
    intro hn r
    rw [iter_succ, step_rm X0 X1 X2 X3 (n + 1) hn, ih (by omega) r]
    by_cases h : (n + 1) % 8 = 0
    · rw [if_pos h]
      unfold RM
      have e : (n + 1) % 8 + 1 = 1 := by omega
      have e' : 8 * ((n + 1) / 8) + 0 = n + 1 := by omega
      rw [e, Finset.range_one, Finset.inf_singleton, e', min_top_left]
    · rw [if_neg h]
      unfold RM
      have e1 : (n + 1) % 8 + 1 = (n % 8 + 1) + 1 := by omega
      have e2 : (n + 1) / 8 = n / 8 := by omega
      have e3 : 8 * (n / 8) + (n % 8 + 1) = n + 1 := by omega
      rw [e1, e2, Finset.range_add_one (n := n % 8 + 1), Finset.inf_insert, e3]
      exact min_comm _ _

theorem inv_sr (s₀ : St Ideal) : ∀ n, n < 64 →
    (iter X0 X1 X2 X3 s₀ n).sr (ix2 0 0)
      = ∑ i ∈ Finset.range ((n + 1) / 8), ∑ r : Fin 1024, RM X0 X1 X2 X3 (8 * i + 7) r := by
  intro n
  induction n with
  | zero =>
    intro hn
    rw [iter_zero, step_sr X0 X1 X2 X3 0 hn]
    simp
  | succ n ih =>
    intro hn
    rw [iter_succ, step_sr X0 X1 X2 X3 (n + 1) hn, if_neg (Nat.succ_ne_zero n), ih (by omega)]
    by_cases h : (n + 1) % 8 = 7
    · rw [if_pos h]
      have e : (n + 1 + 1) / 8 = (n + 1) / 8 + 1 := by omega
      have e' : 8 * ((n + 1) / 8) + 7 = n + 1 := by omega
      rw [e, Finset.sum_range_succ, e']
      congr 1
      apply Finset.sum_congr rfl
      intro r _
      rw [← iter_succ, inv_rm X0 X1 X2 X3 s₀ (n + 1) hn r]
    · rw [if_neg h, add_zero]
      have e : (n + 1 + 1) / 8 = (n + 1) / 8 := by omega
      rw [e]

theorem inv_cm (s₀ : St Ideal) : ∀ n, n < 64 → ∀ c : Fin 8192, c.val / 1024 ≤ n →
    (iter X0 X1 X2 X3 s₀ n).cm (ix2 0 c) = CM X0 X1 X2 X3 n c := by
  intro n
  induction n with
  | zero =>
    intro hn c hc
    have hc0 : c.val / 1024 = 0 := by omega
    rw [iter_zero, step_cm X0 X1 X2 X3 0 hn]
    simp [CM, hc0]
  | succ n ih =>
    intro hn c hc
    have hc8 : c.val / 1024 < 8 := by have := c.isLt; omega
    rw [iter_succ, step_cm X0 X1 X2 X3 (n + 1) hn]
    by_cases hj : c.val / 1024 = (n + 1) % 8
    · rw [if_pos hj]
      by_cases h0 : (n + 1) / 8 = 0
      · rw [if_pos h0]
        unfold CM
        have e : (n + 1 + 8 - c.val / 1024) / 8 = 1 := by omega
        have e' : 8 * 0 + c.val / 1024 = n + 1 := by omega
        rw [e, Finset.range_one, Finset.inf_singleton, e']
      · rw [if_neg h0, ih (by omega) c (by omega)]
        unfold CM
        have e : (n + 1 + 8 - c.val / 1024) / 8 = (n + 8 - c.val / 1024) / 8 + 1 := by omega
        have e' : 8 * ((n + 8 - c.val / 1024) / 8) + c.val / 1024 = n + 1 := by omega
        rw [e, Finset.range_add_one, Finset.inf_insert, e']
        exact min_comm _ _
    · rw [if_neg hj, ih (by omega) c (by omega)]
      unfold CM
      have e : (n + 1 + 8 - c.val / 1024) / 8 = (n + 8 - c.val / 1024) / 8 := by omega
      rw [e]

theorem inv_sc (s₀ : St Ideal) : ∀ n, n < 64 →
    (iter X0 X1 X2 X3 s₀ n).sc (ix2 0 0)
      = ∑ j ∈ Finset.range (n + 1 - 56), ∑ q : Fin 1024,
          (Finset.range 8).inf fun i => colmin X0 X1 X2 X3 (8 * i + j) q := by
  intro n
  induction n with
  | zero =>
    intro hn
    rw [iter_zero, step_sc X0 X1 X2 X3 0 hn]
    simp
  | succ n ih =>
    intro hn
    rw [iter_succ, step_sc X0 X1 X2 X3 (n + 1) hn, if_neg (Nat.succ_ne_zero n), ih (by omega)]
    by_cases h : (n + 1) / 8 = 7
    · rw [if_pos h]
      have e : n + 1 + 1 - 56 = (n + 1 - 56) + 1 := by omega
      rw [e, Finset.sum_range_succ]
      congr 1
      apply Finset.sum_congr rfl
      intro q _
      have hq := q.isLt
      rw [← iter_succ, inv_cm X0 X1 X2 X3 s₀ (n + 1) hn _ (by show (1024 * ((n + 1) % 8) + q.val) / 1024 ≤ n + 1; omega)]
      unfold CM
      have e1 : (1024 * ((n + 1) % 8) + q.val) / 1024 = n + 1 - 56 := by omega
      have e2 : (n + 1 + 8 - (n + 1 - 56)) / 8 = 8 := by omega
      have e3 : lc ⟨1024 * ((n + 1) % 8) + q.val, by omega⟩ = q := by
        apply Fin.ext
        show (1024 * ((n + 1) % 8) + q.val) % 1024 = q.val
        omega
      show (Finset.range ((n + 1 + 8 - (1024 * ((n + 1) % 8) + q.val) / 1024) / 8)).inf
          (fun i => colmin X0 X1 X2 X3 (8 * i + (1024 * ((n + 1) % 8) + q.val) / 1024) (lc ⟨1024 * ((n + 1) % 8) + q.val, by omega⟩)) = _
      rw [e1, e2, e3]
    · rw [if_neg h, add_zero]
      have e : n + 1 + 1 - 56 = n + 1 - 56 := by omega
      rw [e]

end Closed

/-! ## After the last point -/

open Closed in
theorem final_sr (s₀ : St Ideal) :
    (iter X0 X1 X2 X3 s₀ 63).sr (ix2 0 0)
      = ∑ i : Fin 8, ∑ r : Fin 1024, Finset.univ.inf fun j : Fin 8 => Finset.univ.inf fun q : Fin 1024 =>
          T X0 X1 X2 X3 (8 * i.val + j.val) (ix2 r q) := by
  rw [inv_sr X0 X1 X2 X3 s₀ 63 (by norm_num)]
  show ∑ i ∈ Finset.range 8, ∑ r : Fin 1024, RM X0 X1 X2 X3 (8 * i + 7) r = _
  rw [← Fin.sum_univ_eq_sum_range (fun i => ∑ r : Fin 1024, RM X0 X1 X2 X3 (8 * i + 7) r) 8]
  apply Finset.sum_congr rfl
  intro i _
  apply Finset.sum_congr rfl
  intro r _
  unfold RM
  have e1 : (8 * i.val + 7) % 8 + 1 = 8 := by omega
  have e2 : (8 * i.val + 7) / 8 = i.val := by omega
  rw [e1, e2, ← inf_fin_range]
  rfl

open Closed in
theorem final_sc (s₀ : St Ideal) :
    (iter X0 X1 X2 X3 s₀ 63).sc (ix2 0 0)
      = ∑ j : Fin 8, ∑ q : Fin 1024, Finset.univ.inf fun i : Fin 8 => Finset.univ.inf fun r : Fin 1024 =>
          T X0 X1 X2 X3 (8 * i.val + j.val) (ix2 r q) := by
  rw [inv_sc X0 X1 X2 X3 s₀ 63 (by norm_num)]
  show ∑ j ∈ Finset.range 8, ∑ q : Fin 1024, (Finset.range 8).inf (fun i => colmin X0 X1 X2 X3 (8 * i + j) q) = _
  rw [← Fin.sum_univ_eq_sum_range (fun j => ∑ q : Fin 1024, (Finset.range 8).inf (fun i => colmin X0 X1 X2 X3 (8 * i + j) q)) 8]
  apply Finset.sum_congr rfl
  intro j _
  apply Finset.sum_congr rfl
  intro q _
  rw [← inf_fin_range]
  rfl

end Cert.KernelIdeal.Chamfer

end
-- ==== Proof.KI.Dist.lean ====
/-
  The two distances and the grid's row numbering: the kernel forms the squared distance of two points from their
  squared norms and their inner product and cuts it off at zero; the reference sums the squared differences of the
  three coordinates. Row `r` of row block `a` is row `1024 * a + r` of the cloud.
-/
import Idealize.ShloMosaic.Lib.ValueIdx
import Idealize.ShloMosaic.PureOps.Ideal

set_option maxRecDepth 16384

noncomputable section

namespace Cert.Chamfer

open Idealize.ShloMosaic Idealize.ShloMosaic.ValueIdx
open scoped BigOperators

/-- A cloud of 8192 points with three coordinates, over the extended reals. -/
abbrev Cloud : Type := (⟨2, ![8192, 3]⟩ : Shape).Idx → EReal

/-- Row `r` of block `a`. -/
def rowOf (a : Fin 8) (r : Fin 1024) : Fin 8192 := ⟨1024 * a.val + r.val, by omega⟩

/-- The kernel's distance of point `n` of `P` to point `m` of `L`. -/
def dker (P L : Cloud) (n m : Fin 8192) : EReal :=
  Ideal.sqrt (max ((∑ k : Fin 3, P (ix2 n k) * P (ix2 n k)) + (∑ k : Fin 3, L (ix2 m k) * L (ix2 m k))
    - ((2 : ℝ) : EReal) * ∑ k : Fin 3, P (ix2 n k) * L (ix2 m k)) 0)

end Cert.Chamfer

end
-- ==== Proof.KI.Tiles.lean ====
/-
  The distance tile of a grid point read at an index: its input blocks are rows of the two clouds and of their
  squared norms, which the host computes before the kernel runs.
-/
import proofs.«150379_j32186484916784_1_alg».proof.Proof.KI.Pay
import proofs.«150379_j32186484916784_1_alg».proof.Proof.KI.Dist
import Idealize.ShloMosaic.Lib.StableHlo.Run

set_option maxRecDepth 16384

noncomputable section

namespace Cert.KernelIdeal.Chamfer

open Cert.KernelIdeal Cert.KernelIdeal.Gen Cert.Chamfer
open Idealize.ShloMosaic Idealize.ShloMosaic.TcCoe Idealize.ShloMosaic.ValueIdx Idealize.SL.Sem
open scoped BigOperators

variable (m : (ℓ : Loc nD τ sig) → Buf (Elt Ideal) ℓ)

/-- The first cloud as launched on core `c`. -/
abbrev Pm (c : Dev nD) : Cloud := m ((c : Thread nD τ).loc main_arg0)
/-- The second cloud as launched on core `c`. -/
abbrev Lm (c : Dev nD) : Cloud := m ((c : Thread nD τ).loc main_arg1)

/-- The printed index maps, decided over the grid: windows 0 and 2 follow the row block, window 1 the column block
    as a row block of the second cloud, window 3 the column block. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8 :=
  (by decide +kernel : ∀ t : Fin grid0.N, _)

/-- Point `8 a + b` is number `8 a + b`. -/
theorem pt_ab_val (a b : Fin 8) : (pt (8 * a.val + b.val)).val = 8 * a.val + b.val := by
  show (8 * a.val + b.val) % grid0.N = _
  rw [N_0]; omega

/-- Window 0's block at point `8 a + b` is row block `a` of the first cloud. -/
theorem blk0_apply (c : Dev nD) (a b : Fin 8) (r : Fin 1024) (k : Fin 3) :
    iblk m c 0 (pt (8 * a.val + b.val)) (ix2 r k) = Pm m c (ix2 (rowOf a r) k) := by
  obtain ⟨e0, e1, -⟩ := idx_facts (pt (8 * a.val + b.val))
  have hp := pt_ab_val a b
  unfold iblk
  show V m c main_arg0 (((cfg0.win 0).blk (pt (8 * a.val + b.val))).view.emb (ix2 r k)) = _
  rw [V_main_arg0]
  refine congrArg (m ((c : Thread nD τ).loc main_arg0)) (funext fun d => Fin.ext ?_)
  match d with
  | ⟨0, _⟩ =>
    show win0_0.index (pt (8 * a.val + b.val)) (0 : Fin 2) * 1024 + 1 * r.val = 1024 * a.val + r.val
    omega
  | ⟨1, _⟩ =>
    show win0_0.index (pt (8 * a.val + b.val)) (1 : Fin 2) * 3 + 1 * k.val = k.val
    omega

/-- Window 1's block at point `8 a + b` is row block `b` of the second cloud. -/
theorem blk1_apply (c : Dev nD) (a b : Fin 8) (q : Fin 1024) (k : Fin 3) :
    iblk m c 1 (pt (8 * a.val + b.val)) (ix2 q k) = Lm m c (ix2 (rowOf b q) k) := by
  obtain ⟨-, -, e0, e1, -⟩ := idx_facts (pt (8 * a.val + b.val))
  have hp := pt_ab_val a b
  unfold iblk
  show V m c main_arg1 (((cfg0.win 1).blk (pt (8 * a.val + b.val))).view.emb (ix2 q k)) = _
  rw [V_main_arg1]
  refine congrArg (m ((c : Thread nD τ).loc main_arg1)) (funext fun d => Fin.ext ?_)
  match d with
  | ⟨0, _⟩ =>
    show win0_1.index (pt (8 * a.val + b.val)) (0 : Fin 2) * 1024 + 1 * q.val = 1024 * b.val + q.val
    omega
  | ⟨1, _⟩ =>
    show win0_1.index (pt (8 * a.val + b.val)) (1 : Fin 2) * 3 + 1 * k.val = k.val
    omega

/-- The host's squared row norms of a cloud, broadcast to one column, read at row `n`: the sum of the three squares. -/
theorem sqnorm_apply (P : Cloud) (n : Fin 8192) :
    broadcastInDim S8192x1 ![0] bcast_S8192_S8192x1_0
        (Host.reduceAdd (mulf P P) (constant (F := Ideal) S_ .f32 0x00000000#32) reducesTo_S8192x3_S8192_d1 h_S_)
        (ix2 n 0)
      = ∑ k : Fin 3, P (ix2 n k) * P (ix2 n k) := by
  rw [broadcastInDim_apply ![0] bcast_S8192_S8192x1_0 _ (ix2 n 0) (ix1 n) (fun a => by
    match a with
    | ⟨0, _⟩ => show n.val = if (8192 : Nat) = 1 then 0 else n.val; rw [if_neg (by decide)])]
  simp only [Host.reduceAdd, Ideal.hostReduceAdd_def]
  rw [Ideal.hostReduceAdd_single reducesTo_S8192x3_S8192_d1 (by decide)]
  show Ideal.ofBits .f32 0x00000000#32 + _ = _
  rw [Ideal.ofBits_zero_f32, zero_add]
  refine Finset.sum_congr rfl fun k _ => ?_
  exact congrArg (fun i => P i * P i) (by
    funext d; apply Fin.ext
    match d with
    | ⟨0, _⟩ => rfl
    | ⟨1, _⟩ => rfl)

/-- The first cloud's squared row norms, as the host leaves them before the kernel: row `n`. -/
theorem V_main_v2_apply (c : Dev nD) (n : Fin 8192) :
    (V m c main_v2 : S8192x1.Idx → EReal) (ix2 n 0) = ∑ k : Fin 3, Pm m c (ix2 n k) * Pm m c (ix2 n k) := by
  have e : (V m c main_v2 : S8192x1.Idx → EReal) = broadcastInDim S8192x1 ![0] bcast_S8192_S8192x1_0
      (Host.reduceAdd (mulf (Pm m c) (Pm m c)) (constant (F := Ideal) S_ .f32 0x00000000#32)
        reducesTo_S8192x3_S8192_d1 h_S_) := by
    show StableHlo.after hostOps0 (fun b => m (c, b)) (Proc.devRef .tc main_v2) = _
    after_results
    try rfl
  rw [e]
  exact sqnorm_apply (Pm m c) n

/-- The second cloud's squared row norms, laid out as one row: column `n`. -/
theorem V_main_v6_apply (c : Dev nD) (n : Fin 8192) :
    (V m c main_v6 : S1x8192.Idx → EReal) (ix2 0 n) = ∑ k : Fin 3, Lm m c (ix2 n k) * Lm m c (ix2 n k) := by
  have e : (V m c main_v6 : S1x8192.Idx → EReal) = shapeCast S1x8192 (broadcastInDim S8192x1 ![0] bcast_S8192_S8192x1_0
      (Host.reduceAdd (mulf (Lm m c) (Lm m c)) (constant (F := Ideal) S_ .f32 0x00000000#32)
        reducesTo_S8192x3_S8192_d1 h_S_)) shapeCasts_S8192x1_S1x8192 := by
    show StableHlo.after hostOps0 (fun b => m (c, b)) (Proc.devRef .tc main_v6) = _
    after_results
    try rfl
  rw [e]
  rw [shapeCast_apply _ shapeCasts_S8192x1_S1x8192 (ix2 0 n) (ix2 n 0) (by
    rw [Shape.rowMajor_val_two, Shape.rowMajor_val_two]
    show n.val * 1 + 0 = 0 * 8192 + n.val
    omega)]
  exact sqnorm_apply (Lm m c) n

/-- Window 2's block at point `8 a + b` holds the squared norms of row block `a` of the first cloud. -/
theorem blk2_apply (c : Dev nD) (a b : Fin 8) (r : Fin 1024) :
    iblk m c 2 (pt (8 * a.val + b.val)) (ix2 r (0 : Fin 1))
      = ∑ k : Fin 3, Pm m c (ix2 (rowOf a r) k) * Pm m c (ix2 (rowOf a r) k) := by
  obtain ⟨-, -, -, -, e0, e1, -⟩ := idx_facts (pt (8 * a.val + b.val))
  have hp := pt_ab_val a b
  unfold iblk
  show (V m c main_v2 : S8192x1.Idx → EReal) (((cfg0.win 2).blk (pt (8 * a.val + b.val))).view.emb (ix2 r (0 : Fin 1))) = _
  refine Eq.trans ?_ (V_main_v2_apply m c (rowOf a r))
  refine congrArg (V m c main_v2 : S8192x1.Idx → EReal) (funext fun d => Fin.ext ?_)
  match d with
  | ⟨0, _⟩ =>
    show win0_2.index (pt (8 * a.val + b.val)) (0 : Fin 2) * 1024 + 1 * r.val = 1024 * a.val + r.val
    omega
  | ⟨1, _⟩ =>
    show win0_2.index (pt (8 * a.val + b.val)) (1 : Fin 2) * 1 + 1 * 0 = 0
    omega

/-- Window 3's block at point `8 a + b` holds the squared norms of row block `b` of the second cloud. -/
theorem blk3_apply (c : Dev nD) (a b : Fin 8) (q : Fin 1024) :
    iblk m c 3 (pt (8 * a.val + b.val)) (ix2 (0 : Fin 1) q)
      = ∑ k : Fin 3, Lm m c (ix2 (rowOf b q) k) * Lm m c (ix2 (rowOf b q) k) := by
  obtain ⟨-, -, -, -, -, -, e0, e1⟩ := idx_facts (pt (8 * a.val + b.val))
  have hp := pt_ab_val a b
  unfold iblk
  show (V m c main_v6 : S1x8192.Idx → EReal) (((cfg0.win 3).blk (pt (8 * a.val + b.val))).view.emb (ix2 (0 : Fin 1) q)) = _
  refine Eq.trans ?_ (V_main_v6_apply m c (rowOf b q))
  refine congrArg (V m c main_v6 : S1x8192.Idx → EReal) (funext fun d => Fin.ext ?_)
  match d with
  | ⟨0, _⟩ =>
    show win0_3.index (pt (8 * a.val + b.val)) (0 : Fin 2) * 1 + 1 * 0 = 0
    omega
  | ⟨1, _⟩ =>
    show win0_3.index (pt (8 * a.val + b.val)) (1 : Fin 2) * 1024 + 1 * q.val = 1024 * b.val + q.val
    omega

theorem tile_apply (c : Dev nD) (a b : Fin 8) (r q : Fin 1024) :
    k0_pay10 (F := Ideal) (iblk m c 0 (pt (8 * a.val + b.val))) (iblk m c 1 (pt (8 * a.val + b.val)))
        (iblk m c 2 (pt (8 * a.val + b.val))) (iblk m c 3 (pt (8 * a.val + b.val))) (ix2 r q)
      = dker (Pm m c) (Lm m c) (rowOf a r) (rowOf b q) := by
  rw [pay10_apply, blk2_apply, blk3_apply]
  simp only [blk0_apply, blk1_apply]
  rfl

end Cert.KernelIdeal.Chamfer

end
-- ==== Proof.KI.Final.lean ====
/-
  The kernel's result in closed form over the extended reals: the mean over all rows of the row minimum of the
  kernel's distances plus the mean over all columns of the column minimum, the rows and columns taken block by
  block as the grid visits them.
-/
import proofs.«150379_j32186484916784_1_alg».proof.Proof.KI.Value
import proofs.«150379_j32186484916784_1_alg».proof.Proof.KI.Closed
import proofs.«150379_j32186484916784_1_alg».proof.Proof.KI.Tiles

set_option maxRecDepth 16384

noncomputable section

namespace Cert.KernelIdeal.Chamfer

open Cert.KernelIdeal Cert.KernelIdeal.Gen Cert.Chamfer
open Idealize.ShloMosaic Idealize.ShloMosaic.TcCoe Idealize.ShloMosaic.ValueIdx
open Idealize.SL.Sem
open scoped BigOperators

variable (m : (ℓ : Loc nD τ sig) → Buf (Elt Ideal) ℓ)

/-- The tile of grid point `8a + b` at `(r, q)` is the kernel's distance of row `rowOf a r` to column `rowOf b q`. -/
theorem T_apply (c : Dev nD) (a b : Fin 8) (r q : Fin 1024) :
    T (B0 m c) (B1 m c) (B2 m c) (B3 m c) (8 * a.val + b.val) (ix2 r q) = dker (Pm m c) (Lm m c) (rowOf a r) (rowOf b q) :=
  tile_apply m c a b r q

theorem outFin_value (c : Dev nD) :
    outFin (F := Ideal) m c (ix2 0 0)
      = Ideal.div (∑ a : Fin 8, ∑ r : Fin 1024, Finset.univ.inf fun b : Fin 8 => Finset.univ.inf fun q : Fin 1024 =>
            dker (Pm m c) (Lm m c) (rowOf a r) (rowOf b q)) ((8192 : ℝ) : EReal)
        + Ideal.div (∑ b : Fin 8, ∑ q : Fin 1024, Finset.univ.inf fun a : Fin 8 => Finset.univ.inf fun r : Fin 1024 =>
            dker (Pm m c) (Lm m c) (rowOf a r) (rowOf b q)) ((8192 : ℝ) : EReal) := by
  unfold outFin outv
  rw [pay6_apply]
  unfold stAt
  rw [final_sr, final_sc]
  simp only [T_apply]

end Cert.KernelIdeal.Chamfer

end
-- ==== Proof.Ref.lean ====
/-
  The reference's result over the extended reals, read off its run one operation at a time: the mean over the
  8192 rows of the smallest distance in the row, plus the mean over the 8192 columns of the smallest distance in
  the column, the distance of row `n` and column `m` being the square root of the sum over the three coordinates of
  the squared difference.
-/
import proofs.«150379_j32186484916784_1_alg».proof.Proof.Gen.ReferenceIdeal.Run
import proofs.«150379_j32186484916784_1_alg».proof.Proof.Gen.ReferenceIdeal.Read
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.ValueIdx
open scoped BigOperators

/-- The distance of point `n` of the first cloud to point `m` of the second, as the reference computes it. -/
def dref (P L : Vec Ideal S8192x3 .f32) (n m : Fin 8192) : EReal :=
  Ideal.sqrt (∑ k : Fin 3, (P (ix2 n k) - L (ix2 m k)) * (P (ix2 n k) - L (ix2 m k)))

open Cert.ReferenceIdeal.Read

/-- The pattern `0x7F800000` denotes `+∞`. -/
theorem ofBits_inf : Ideal.ofBits .f32 0x7F800000#32 = (⊤ : EReal) := by
  simp [Ideal.ofBits, Ideal.ieee]

/-- The pattern `0x46000000` denotes `8192`. -/
theorem ofBits_8192 : Ideal.ofBits .f32 0x46000000#32 = ((8192 : ℝ) : EReal) := by
  simp [Ideal.ofBits, Ideal.ieee]
  rw [← EReal.coe_mul]
  norm_num

/-- A fold of `min` from `⊤` is the infimum. -/
theorem fold_min_top {ι : Type} (s : Finset ι) (f : ι → EReal) : s.fold min ⊤ f = s.inf f := rfl

/-- The distance matrix at row `n`, column `m`. -/
theorem v7_apply (P L : Vec Ideal S8192x3 .f32) (n m : Fin 8192) :
    val_main_v7 (F := Ideal) P L (ix2 n m) = dref P L n m := by
  rw [val_main_v7_apply, val_main_v6_apply, val_main_cst_apply, Ideal.hostUnary_sqrt_def, Ideal.ofBits_def,
    Ideal.ofBits_zero_f32, zero_add]
  unfold dref
  refine congrArg Ideal.sqrt (Finset.sum_congr rfl fun k _ => ?_)
  rw [val_main_v5_apply, val_main_v4_apply, val_main_v2_apply, val_main_v3_apply, val_main_v0_apply,
    val_main_v1_apply, Ideal.mulf_def, Ideal.subf_def]
  have hP : idx_main_v0 (idx_main_v2 (idx_main_v6 (ix2 n m) k)) = ix2 n k := by
    funext a; match a with | ⟨0, _⟩ => rfl | ⟨1, _⟩ => rfl
  have hL : idx_main_v1 (idx_main_v3 (idx_main_v6 (ix2 n m) k)) = ix2 m k := by
    funext a; match a with | ⟨0, _⟩ => rfl | ⟨1, _⟩ => rfl
  rw [hP, hL]

/-- The minimum over the columns: from `+∞`, the reduce over axis 1 at row `n` is the infimum over `m`. -/
theorem reduce_min_cols (y : S8192x8192.Idx → Ideal .f32) (n : Fin 8192) :
    Host.reduce (α := Ideal .f32) (FloatOps.minimumf (F := Ideal) (φ := .f32)) y (val_main_cst_0 (F := Ideal))
        reducesTo_S8192x8192_S8192_d1 h_S_ (ix1 n)
      = Finset.univ.inf fun m : Fin 8192 => y (ix2 n m) := by
  have hr : S8192x8192.Reduces [1] S8192 := by decide
  rw [Host.reduce_eq_fold_single (α := Ideal .f32) (FloatOps.minimumf (F := Ideal) (φ := .f32)) y _
    reducesTo_S8192x8192_S8192_d1 hr h_S_]
  rw [val_main_cst_0_apply, Ideal.ofBits_def, ofBits_inf]
  have hf : (y ∘ hr.lift (ix1 n)) = fun m : Fin 8192 => y (ix2 n m) :=
    funext fun k => congrArg y (by funext c; apply Fin.ext; fin_cases c <;> rfl)
  rw [hf]
  exact fold_min_top _ _

/-- The minimum over the rows: from `+∞`, the reduce over axis 0 at column `m` is the infimum over `n`. -/
theorem reduce_min_rows (y : S8192x8192.Idx → Ideal .f32) (m : Fin 8192) :
    Host.reduce (α := Ideal .f32) (FloatOps.minimumf (F := Ideal) (φ := .f32)) y (val_main_cst_3 (F := Ideal))
        reducesTo_S8192x8192_S8192_d0 h_S_ (ix1 m)
      = Finset.univ.inf fun n : Fin 8192 => y (ix2 n m) := by
  have hr : S8192x8192.Reduces [0] S8192 := by decide
  rw [Host.reduce_eq_fold_single (α := Ideal .f32) (FloatOps.minimumf (F := Ideal) (φ := .f32)) y _
    reducesTo_S8192x8192_S8192_d0 hr h_S_]
  rw [val_main_cst_3_apply, Ideal.ofBits_def, ofBits_inf]
  have hf : (y ∘ hr.lift (ix1 m)) = fun n : Fin 8192 => y (ix2 n m) :=
    funext fun k => congrArg y (by funext c; apply Fin.ext; fin_cases c <;> rfl)
  rw [hf]
  exact fold_min_top _ _

/-- The smallest distance in row `n`. -/
theorem v8_apply (P L : Vec Ideal S8192x3 .f32) (n : Fin 8192) :
    val_main_v8 (F := Ideal) P L (ix1 n) = Finset.univ.inf fun m : Fin 8192 => dref P L n m :=
  (reduce_min_cols (val_main_v7 (F := Ideal) P L) n).trans
    (Finset.inf_congr rfl fun m _ => v7_apply P L n m)

/-- The smallest distance in column `m`. -/
theorem v11_apply (P L : Vec Ideal S8192x3 .f32) (m : Fin 8192) :
    val_main_v11 (F := Ideal) P L (ix1 m) = Finset.univ.inf fun n : Fin 8192 => dref P L n m :=
  (reduce_min_rows (val_main_v7 (F := Ideal) P L) m).trans
    (Finset.inf_congr rfl fun n _ => v7_apply P L n m)

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem ref_value (P L : Vec Ideal S8192x3 .f32) :
    Cert.ReferenceIdeal.Read.val_main_v14 (F := Ideal) P L ix0
      = Ideal.div (∑ n : Fin 8192, Finset.univ.inf fun m : Fin 8192 => dref P L n m) ((8192 : ℝ) : EReal)
        + Ideal.div (∑ m : Fin 8192, Finset.univ.inf fun n : Fin 8192 => dref P L n m) ((8192 : ℝ) : EReal) := by
  simp only [val_main_v14_apply, val_main_v10_apply, val_main_v13_apply, val_main_v9_apply, val_main_v12_apply,
    val_main_cst_1_apply, val_main_cst_4_apply, val_main_cst_2_apply, val_main_cst_5_apply,
    Ideal.addf_def, Ideal.hostDivf_def, Ideal.ofBits_def, Ideal.ofBits_zero_f32, zero_add, ofBits_8192]
  rw [sum_idx1, sum_idx1]
  simp only [v8_apply, v11_apply]

end Cert.ReferenceIdeal.RefValue

end
-- ==== Proof.Alg.lean ====
/-
  The kernel's and the reference's results are one number: on finite clouds the squared distance formed from the
  norms and the inner product is the sum of squared differences, which is not negative, and sums and minima over
  the 8192 rows may be taken block by block.
-/
import proofs.«150379_j32186484916784_1_alg».proof.Proof.KI.Dist
import proofs.«150379_j32186484916784_1_alg».proof.Proof.Ref
import Mathlib.Algebra.BigOperators.Fin
import Mathlib.Algebra.BigOperators.Group.Finset.Basic
import Mathlib.Data.Fintype.BigOperators
import Mathlib.Data.EReal.Operations
import Mathlib.Order.Fin.Basic
import Mathlib.Tactic.Ring

set_option maxRecDepth 16384

noncomputable section

namespace Cert.Chamfer

open Idealize.ShloMosaic Idealize.ShloMosaic.ValueIdx
open Cert.ReferenceIdeal.RefValue (dref)
open scoped BigOperators

/-! ### The two squared distances of two real points -/

/-- For two points with real coordinates, the squared norms less twice the inner product, cut off at zero, is
the sum of the squared coordinate differences: the two are equal as real numbers, the second is a sum of
squares, and the cut-off does nothing to a number that is not negative. -/
theorem sq_dist_core (p l : Fin 3 → ℝ) :
    max ((∑ k : Fin 3, (p k : EReal) * (p k : EReal)) + (∑ k : Fin 3, (l k : EReal) * (l k : EReal))
        - ((2 : ℝ) : EReal) * ∑ k : Fin 3, (p k : EReal) * (l k : EReal)) 0
      = ∑ k : Fin 3, ((p k : EReal) - (l k : EReal)) * ((p k : EReal) - (l k : EReal)) := by
  simp only [Fin.sum_univ_three, ← EReal.coe_mul, ← EReal.coe_add, ← EReal.coe_sub]
  have h : (p 0 * p 0 + p 1 * p 1 + p 2 * p 2 + (l 0 * l 0 + l 1 * l 1 + l 2 * l 2)
        - 2 * (p 0 * l 0 + p 1 * l 1 + p 2 * l 2) : ℝ)
      = (p 0 - l 0) * (p 0 - l 0) + (p 1 - l 1) * (p 1 - l 1) + (p 2 - l 2) * (p 2 - l 2) := by ring
  rw [h]
  exact max_eq_left (EReal.coe_nonneg.mpr
    (add_nonneg (add_nonneg (mul_self_nonneg _) (mul_self_nonneg _)) (mul_self_nonneg _)))

/-- On finite clouds the kernel's distance is the reference's. -/
theorem dker_eq_dref (P L : Cloud) (hP : ∀ j, ∃ x : ℝ, P j = (x : EReal)) (hL : ∀ j, ∃ x : ℝ, L j = (x : EReal))
    (n m : Fin 8192) : dker P L n m = dref P L n m := by
  choose p hp using hP
  choose l hl using hL
  obtain rfl : P = fun j => (p j : EReal) := funext hp
  obtain rfl : L = fun j => (l j : EReal) := funext hl
  exact congrArg Ideal.sqrt (sq_dist_core (fun k => p (ix2 n k)) (fun k => l (ix2 m k)))

/-! ### Rows taken block by block -/

/-- Block a, row r ↦ row 1024 a + r is a bijection of the 8 × 1024 grid with the 8192 rows. -/
def rowEquiv : Fin 8 × Fin 1024 ≃ Fin 8192 where
  toFun x := rowOf x.1 x.2
  invFun n := (⟨n.val / 1024, by omega⟩, ⟨n.val % 1024, by omega⟩)
  left_inv := by
    rintro ⟨a, r⟩
    refine Prod.ext (Fin.ext ?_) (Fin.ext ?_)
    · show (1024 * a.val + r.val) / 1024 = a.val
      omega
    · show (1024 * a.val + r.val) % 1024 = r.val
      omega
  right_inv := by
    intro n
    refine Fin.ext ?_
    show 1024 * (n.val / 1024) + n.val % 1024 = n.val
    omega

/-- A sum over the rows is the sum over the blocks of the sums over each block's rows. -/
theorem sum_blocks {M : Type*} [AddCommMonoid M] (f : Fin 8192 → M) :
    ∑ a : Fin 8, ∑ r : Fin 1024, f (rowOf a r) = ∑ n : Fin 8192, f n := by
  rw [← Fintype.sum_prod_type' (f := fun a r => f (rowOf a r))]
  exact Equiv.sum_comp rowEquiv f

/-- A minimum over the rows is the minimum over the blocks of the minima over each block's rows. -/
theorem inf_blocks {α : Type*} [SemilatticeInf α] [OrderTop α] (f : Fin 8192 → α) :
    (Finset.univ.inf fun b : Fin 8 => Finset.univ.inf fun q : Fin 1024 => f (rowOf b q)) = Finset.univ.inf f := by
  apply le_antisymm
  · refine Finset.le_inf fun n _ => ?_
    calc (Finset.univ.inf fun b : Fin 8 => Finset.univ.inf fun q : Fin 1024 => f (rowOf b q))
        ≤ Finset.univ.inf fun q : Fin 1024 => f (rowOf (rowEquiv.symm n).1 q) :=
          Finset.inf_le (f := fun b : Fin 8 => Finset.univ.inf fun q : Fin 1024 => f (rowOf b q))
            (Finset.mem_univ _)
      _ ≤ f (rowOf (rowEquiv.symm n).1 (rowEquiv.symm n).2) :=
          Finset.inf_le (f := fun q : Fin 1024 => f (rowOf (rowEquiv.symm n).1 q)) (Finset.mem_univ _)
      _ = f n := congrArg f (rowEquiv.apply_symm_apply n)
  · exact Finset.le_inf fun b _ => Finset.le_inf fun q _ => Finset.inf_le (Finset.mem_univ _)

/-! ### The two results -/

theorem chamfer_eq (P L : Cloud) (hP : ∀ j, ∃ x : ℝ, P j = (x : EReal)) (hL : ∀ j, ∃ x : ℝ, L j = (x : EReal)) :
    Ideal.div (∑ a : Fin 8, ∑ r : Fin 1024, Finset.univ.inf fun b : Fin 8 => Finset.univ.inf fun q : Fin 1024 =>
          dker P L (rowOf a r) (rowOf b q)) ((8192 : ℝ) : EReal)
      + Ideal.div (∑ b : Fin 8, ∑ q : Fin 1024, Finset.univ.inf fun a : Fin 8 => Finset.univ.inf fun r : Fin 1024 =>
          dker P L (rowOf a r) (rowOf b q)) ((8192 : ℝ) : EReal)
    = Ideal.div (∑ n : Fin 8192, Finset.univ.inf fun m : Fin 8192 => dref P L n m) ((8192 : ℝ) : EReal)
      + Ideal.div (∑ m : Fin 8192, Finset.univ.inf fun n : Fin 8192 => dref P L n m) ((8192 : ℝ) : EReal) := by
  -- the smallest distance in a row, the columns taken block by block
  have hrow : ∀ n : Fin 8192,
      (Finset.univ.inf fun b : Fin 8 => Finset.univ.inf fun q : Fin 1024 => dker P L n (rowOf b q))
        = Finset.univ.inf fun m : Fin 8192 => dref P L n m := fun n =>
    (Finset.inf_congr rfl fun b _ => Finset.inf_congr rfl fun q _ => dker_eq_dref P L hP hL n (rowOf b q)).trans
      (inf_blocks fun m : Fin 8192 => dref P L n m)
  -- the smallest distance in a column, the rows taken block by block
  have hcol : ∀ m : Fin 8192,
      (Finset.univ.inf fun a : Fin 8 => Finset.univ.inf fun r : Fin 1024 => dker P L (rowOf a r) m)
        = Finset.univ.inf fun n : Fin 8192 => dref P L n m := fun m =>
    (Finset.inf_congr rfl fun a _ => Finset.inf_congr rfl fun r _ => dker_eq_dref P L hP hL (rowOf a r) m).trans
      (inf_blocks fun n : Fin 8192 => dref P L n m)
  have e1 : (∑ a : Fin 8, ∑ r : Fin 1024, Finset.univ.inf fun b : Fin 8 => Finset.univ.inf fun q : Fin 1024 =>
        dker P L (rowOf a r) (rowOf b q))
      = ∑ n : Fin 8192, Finset.univ.inf fun m : Fin 8192 => dref P L n m :=
    (Finset.sum_congr rfl fun a _ => Finset.sum_congr rfl fun r _ => hrow (rowOf a r)).trans
      (sum_blocks fun n : Fin 8192 => Finset.univ.inf fun m : Fin 8192 => dref P L n m)
  have e2 : (∑ b : Fin 8, ∑ q : Fin 1024, Finset.univ.inf fun a : Fin 8 => Finset.univ.inf fun r : Fin 1024 =>
        dker P L (rowOf a r) (rowOf b q))
      = ∑ m : Fin 8192, Finset.univ.inf fun n : Fin 8192 => dref P L n m :=
    (Finset.sum_congr rfl fun b _ => Finset.sum_congr rfl fun q _ => hcol (rowOf b q)).trans
      (sum_blocks fun m : Fin 8192 => Finset.univ.inf fun n : Fin 8192 => dref P L n m)
  rw [e1, e2]

end Cert.Chamfer

end
-- ==== Proof.Finite.lean ====
/-
  The precondition says every entry of both clouds is a real number: its absolute value is below +inf.
-/
import proofs.«150379_j32186484916784_1_alg».proof.Pre_finite_inputs
import proofs.«150379_j32186484916784_1_alg».proof.Proof.Gen.Pre_finite_inputs
import proofs.«150379_j32186484916784_1_alg».proof.Proof.KI.Dist
import Idealize.ShloMosaic.Lib.ReduceAll
import Idealize.ShloMosaic.PureOps.Ideal.Laws

set_option maxRecDepth 16384

noncomputable section

namespace Cert.Chamfer

open Idealize.ShloMosaic Idealize.ShloMosaic.ValueIdx

/-- The word 0x7F800000 is +∞. -/
theorem ofBits_inf_f32 : Ideal.ofBits .f32 0x7F800000#32 = (⊤ : EReal) := by
  simp [Ideal.ofBits, Ideal.ieee]

/-- An extended real whose absolute value is strictly below +∞ is a real. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

theorem finite_of_pre (P L : Cloud)
    (h : Cert.Pre_finite_inputs.fn (F := Ideal) P L = fun _ => 1#1) :
    (∀ j, ∃ x : ℝ, P j = (x : EReal)) ∧ (∀ j, ∃ x : ℝ, L j = (x : EReal)) := by
  have h0 := congrFun h ix0
  dsimp only [Cert.Pre_finite_inputs.fn] at h0
  obtain ⟨hP, hL⟩ := IntOp.andi_eq_one.1 h0
  haveI : Subsingleton Cert.Pre_finite_inputs.S_.Idx := ⟨fun a b => funext fun d => d.elim0⟩
  refine ⟨fun j => ?_, fun j => ?_⟩
  · have e := Host.reduce_andi_all _ _ _ _ _ hP j
    have e' : Ideal.cmp .olt (max (P j) (-(P j))) (Ideal.ofBits .f32 0x7F800000#32) = 1#1 := e
    rw [ofBits_inf_f32] at e'
    exact real_of_abs_lt_top (P j) e'
  · have e := Host.reduce_andi_all _ _ _ _ _ hL j
    have e' : Ideal.cmp .olt (max (L j) (-(L j))) (Ideal.ofBits .f32 0x7F800000#32) = 1#1 := e
    rw [ofBits_inf_f32] at e'
    exact real_of_abs_lt_top (L j) e'

end Cert.Chamfer

end
-- ==== Proof.lean ====
/-
  The Chamfer distance of two clouds of 8192 points in three dimensions: the mean over the points of the first
  cloud of the distance to the nearest point of the second, plus the same with the clouds exchanged.

  The kernel walks the 8192 x 8192 matrix of pairwise distances in an 8 x 8 grid of 1024 x 1024 tiles. It forms a
  tile's squared distances from the points' squared norms and inner products, |p|² + |l|² − 2 p·l, cuts them off at
  zero and takes square roots; it keeps running row minima of the current row block, running column minima of all
  columns, and the sums of the finished rows' and columns' minima, and divides both sums by 8192 at the last point.
  The reference forms the distances as square roots of sums of squared coordinate differences, takes the minima
  over whole rows and whole columns, and the two means. Over the extended reals and on finite clouds the two
  squared distances are the same real number, which is not negative, so the cut-off does nothing; minima and sums
  over all 8192 indices may be taken block by block; hence the two results are equal. The frames follow the four
  scratch arrays from grid point to grid point by one pure step function, at both float instances.
-/
import proofs.«150379_j32186484916784_1_alg».proof.Defs
import proofs.«150379_j32186484916784_1_alg».proof.Proof.Gen.Kernel
import proofs.«150379_j32186484916784_1_alg».proof.Proof.Gen.KernelIdeal
import proofs.«150379_j32186484916784_1_alg».proof.Proof.Gen.ReferenceIdeal
import proofs.«150379_j32186484916784_1_alg».proof.Proof.Gen.Pre_finite_inputs
import proofs.«150379_j32186484916784_1_alg».proof.Proof.KB.Body
import proofs.«150379_j32186484916784_1_alg».proof.Proof.KI.Final
import proofs.«150379_j32186484916784_1_alg».proof.Proof.Ref
import proofs.«150379_j32186484916784_1_alg».proof.Proof.Alg
import proofs.«150379_j32186484916784_1_alg».proof.Proof.Finite
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.Chamfer
open Cert.ReferenceIdeal.RefValue (dref ref_value)
open scoped BigOperators

/-- The Chamfer distance as the reference computes it. -/
def chamfer (P L : Cloud) : EReal :=
  Ideal.div (∑ n : Fin 8192, Finset.univ.inf fun m : Fin 8192 => dref P L n m) ((8192 : ℝ) : EReal)
    + Ideal.div (∑ m : Fin 8192, Finset.univ.inf fun n : Fin 8192 => dref P L n m) ((8192 : ℝ) : EReal)

theorem frame_k : Cert.frame_Kernel := fun m ρ _ => Cert.Kernel.Chamfer.frame m ρ

theorem frame_ki : Cert.frame_KernelIdeal := fun m ρ _ => Cert.KernelIdeal.Chamfer.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the Chamfer distance of the two clouds as launched. -/
theorem algebraic : Cert.algebraic_KernelIdeal_ReferenceIdeal := by
  intro m ρ m' ρ' hpre hagree
  refine ⟨fun c _ => chamfer (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.Chamfer.kernel_run (F := Ideal) m ρ)
    funext _
    rw [Cert.KernelIdeal.Chamfer.outFin_value]
    obtain ⟨hP, hL⟩ := finite_of_pre _ _ (hpre c)
    exact chamfer_eq _ _ hP hL
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v14_eq, (hagree c).1, (hagree c).2]
    funext j
    rw [eq_ix0 j]
    exact ref_value _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
